-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_v47 : IVec S_ 1) (main_v49 : IVec S2x1600000 1) (main_c_19 : IVec S_ 1) : IVec S_ 1 :=
  let main_v50 : IVec S_ 1 := (fun x v => Host.reduce IntOp.andi x v reducesTo_S2x1600000_S_d0_1 h_S_) main_v49 main_c_19
  let main_v51 : IVec S_ 1 := andi main_v47 main_v50
  main_v51

def fn_part2 {F : FTy → Type} [FloatOps F] (main_arg1 : IVec S2x1600000 32) (main_arg8 : FVec F S3x64x64 .f32) (main_arg9 : FVec F S3x64 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_c_16 : IVec S_ 32 := constantI S_ 32 0#32
  let main_v44 : IVec S2x1600000 32 := broadcastInDim S2x1600000 ![] bcast_S_S2x1600000 main_c_16
  let main_v45 : IVec S2x1600000 1 := cmpi .sge main_arg1 main_v44
  let main_c_17 : IVec S_ 1 := constantI S_ 1 1#1
  let main_v46 : IVec S_ 1 := (fun x v => Host.reduce IntOp.andi x v reducesTo_S2x1600000_S_d0_1 h_S_) main_v45 main_c_17
  let main_v47 : IVec S_ 1 := andi main_v43 main_v46
  let main_c_18 : IVec S_ 32 := constantI S_ 32 100000#32
  let main_v48 : IVec S2x1600000 32 := broadcastInDim S2x1600000 ![] bcast_S_S2x1600000 main_c_18
  let main_v49 : IVec S2x1600000 1 := cmpi .slt main_arg1 main_v48
  let main_c_19 : IVec S_ 1 := constantI S_ 1 1#1
  fn_part3 (F := F) main_v47 main_v49 main_c_19

def fn_part1 {F : FTy → Type} [FloatOps F] (main_arg1 : IVec S2x1600000 32) (main_arg5 : FVec F S64 .f32) (main_arg6 : FVec F S64x1 .f32) (main_arg7 : FVec F S1 .f32) (main_arg8 : FVec F S3x64x64 .f32) (main_arg9 : FVec F S3x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S128x64 .f32) (main_arg5 : FVec F S64 .f32) (main_arg6 : FVec F S64x1 .f32) (main_arg7 : FVec F S1 .f32) (main_arg8 : FVec F S3x64x64 .f32) (main_arg9 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S10000x1 : Shape := ⟨2, ![10000, 1]⟩
abbrev S10000 : Shape := ⟨1, ![10000]⟩
abbrev S1x64x64 : Shape := ⟨3, ![1, 64, 64]⟩
abbrev S100000x1x64 : Shape := ⟨3, ![100000, 1, 64]⟩
abbrev S100000x4x64 : Shape := ⟨3, ![100000, 4, 64]⟩

abbrev nBuf : Space → Nat
  | .hbm => 202
  | .vmem => 36
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S128x64, .f32⟩
  | 5 => ⟨S64, .f32⟩
  | 6 => ⟨S64x1, .f32⟩
  | 7 => ⟨S1, .f32⟩
  | 8 => ⟨S3x64x64, .f32⟩
  | 9 => ⟨S3x64, .f32⟩
  | 10 => ⟨S1x1600000, .i32⟩
  | 11 => ⟨S1600000, .i32⟩
  | 12 => ⟨S1x1600000, .i32⟩
  | 13 => ⟨S1600000, .i32⟩
  | 14 => ⟨S64x64, .f32⟩
  | 15 => ⟨S64x64, .f32⟩
  | 16 => ⟨S1x64, .f32⟩
  | 17 => ⟨S100000x64, .f32⟩
  | 18 => ⟨S100000x64, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1, .i32⟩
  | 29 => ⟨S_, .i32⟩
  | 30 => ⟨S1600000x1, .i32⟩
  | 31 => ⟨S1600000x1, .i1⟩
  | 32 => ⟨S1x1, .i32⟩
  | 33 => ⟨S1600000x1, .i32⟩
  | 34 => ⟨S1600000x1, .i1⟩
  | 35 => ⟨S1600000x1, .i1⟩
  | 36 => ⟨S_, .i1⟩
  | 37 => ⟨S1600000, .i1⟩
  | 38 => ⟨S1600000x64, .f32⟩
  | 39 => ⟨S1600000x64, .i1⟩
  | 40 => ⟨S_, .f32⟩
  | 41 => ⟨S1600000x64, .f32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x64, .f32⟩
  | 62 => ⟨S1600000x64, .i1⟩
  | 63 => ⟨S_, .f32⟩
  | 64 => ⟨S1600000x64, .f32⟩
  | 65 => ⟨S1600000x64, .f32⟩
  | 66 => ⟨S64, .f32⟩
  | 67 => ⟨S1x64, .f32⟩
  | 68 => ⟨S1x1, .f32⟩
  | 69 => ⟨S1x64, .f32⟩
  | 70 => ⟨S1600000x1, .f32⟩
  | 71 => ⟨S1600000, .f32⟩
  | 72 => ⟨S1x64x64, .f32⟩
  | 73 => ⟨S64x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1, .i32⟩
  | 84 => ⟨S_, .i32⟩
  | 85 => ⟨S1600000x1, .i32⟩
  | 86 => ⟨S1600000x1, .i1⟩
  | 87 => ⟨S1x1, .i32⟩
  | 88 => ⟨S1600000x1, .i32⟩
  | 89 => ⟨S1600000x1, .i1⟩
  | 90 => ⟨S1600000x1, .i1⟩
  | 91 => ⟨S_, .i1⟩
  | 92 => ⟨S1600000, .i1⟩
  | 93 => ⟨S1600000x64, .f32⟩
  | 94 => ⟨S1600000x64, .i1⟩
  | 95 => ⟨S_, .f32⟩
  | 96 => ⟨S1600000x64, .f32⟩
  | 97 => ⟨S1600000x64, .f32⟩
  | 98 => ⟨S1600000x1, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x64x64, .f32⟩
  | 114 => ⟨S64x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1, .i32⟩
  | 125 => ⟨S_, .i32⟩
  | 126 => ⟨S1600000x1, .i32⟩
  | 127 => ⟨S1600000x1, .i1⟩
  | _ => ⟨S100000x64, .f32⟩

abbrev hbmTy0_1 (i : Nat) : BufTy := match i % 128 with
  | 0 => ⟨S1x1, .i32⟩
  | 1 => ⟨S1600000x1, .i32⟩
  | 2 => ⟨S1600000x1, .i1⟩
  | 3 => ⟨S1600000x1, .i1⟩
  | 4 => ⟨S_, .i1⟩
  | 5 => ⟨S1600000, .i1⟩
  | 6 => ⟨S1600000x64, .f32⟩
  | 7 => ⟨S1600000x64, .i1⟩
  | 8 => ⟨S_, .f32⟩
  | 9 => ⟨S1600000x64, .f32⟩
  | 10 => ⟨S1600000x64, .f32⟩
  | 11 => ⟨S1600000x1, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1, .i32⟩
  | 38 => ⟨S_, .i32⟩
  | 39 => ⟨S1600000x1, .i32⟩
  | 40 => ⟨S1600000x1, .i1⟩
  | 41 => ⟨S1x1, .i32⟩
  | 42 => ⟨S1600000x1, .i32⟩
  | 43 => ⟨S1600000x1, .i1⟩
  | 44 => ⟨S1600000x1, .i1⟩
  | 45 => ⟨S_, .i1⟩
  | 46 => ⟨S1600000, .i1⟩
  | 47 => ⟨S1600000x64, .f32⟩
  | 48 => ⟨S1600000x64, .i1⟩
  | 49 => ⟨S_, .f32⟩
  | 50 => ⟨S1600000x64, .f32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S100000x1x64, .f32⟩
  | 65 => ⟨S100000x1x64, .f32⟩
  | 66 => ⟨S100000x1x64, .f32⟩
  | 67 => ⟨S100000x1x64, .f32⟩
  | 68 => ⟨S100000x4x64, .f32⟩
  | 69 => ⟨S_, .f32⟩
  | 70 => ⟨S100000x64, .f32⟩
  | 71 => ⟨S_, .f32⟩
  | 72 => ⟨S100000x64, .f32⟩
  | 73 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x1, .f32⟩
  | .local _ .vmem, ⟨19, _⟩ => ⟨S10000x1, .f32⟩
  | .local _ .vmem, ⟨20, _⟩ => ⟨S10000x1, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64x64, .f32⟩
  | .local _ .vmem, ⟨34, _⟩ => ⟨S10000x64, .f32⟩
  | .local _ .vmem, ⟨35, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v8 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_cst : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_call3_cst : Ref sig .tc := ⟨.hbm, 110, rfl⟩
abbrev main_call3_v0 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_cst_0 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_call5_cst : Ref sig .tc := ⟨.hbm, 151, rfl⟩
abbrev main_call5_v0 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_cst_1 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_v67 : Ref sig .tc := ⟨.hbm, 196, rfl⟩
abbrev main_cst_2 : Ref sig .tc := ⟨.hbm, 197, rfl⟩
abbrev main_v68 : Ref sig .tc := ⟨.hbm, 198, rfl⟩
abbrev main_cst_3 : Ref sig .tc := ⟨.hbm, 199, rfl⟩
abbrev main_v69 : Ref sig .tc := ⟨.hbm, 200, rfl⟩
abbrev main_v70 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S128x64_S64x64_0_0 : S128x64.Slices ![0, 0] S64x64
  slices_S128x64_S64x64_64_0 : S128x64.Slices ![64, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S64x64_S64x64 : S64x64.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S64x1_S64 : S64x1.ShapeCasts S64
  shapeCasts_S1_S1x1 : S1.ShapeCasts S1x1
  shapeCasts_S10000x64_S10000x64 : S10000x64.ShapeCasts S10000x64
  reduces_S10000x64_S10000 : S10000x64.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1600000x1_S1600000 : S1600000x1.ShapeCasts S1600000
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  reducesTo_S100000x4x64_S100000x64_d1 : S100000x4x64.ReducesTo [1] S100000x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1600000x64.size a
  hwx1_1 : ∀ i : grid1.Coords, EltTy.bits .f32 = 32 ∨ (Rect.block (s := S1600000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S1600000x1.size a
  hwx1_5 : ∀ i : grid1.Coords, EltTy.bits .f32 = 32 ∨ (Rect.block (s := S1600000x1) S10000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_2) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v47) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S100000x1x64 : Shape := ⟨3, ![100000, 1, 64]⟩
abbrev S100000x4x64 : Shape := ⟨3, ![100000, 4, 64]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S128x64, .f32⟩
  | 5 => ⟨S64, .f32⟩
  | 6 => ⟨S64x1, .f32⟩
  | 7 => ⟨S1, .f32⟩
  | 8 => ⟨S3x64x64, .f32⟩
  | 9 => ⟨S3x64, .f32⟩
  | 10 => ⟨S100000x64, .f32⟩
  | 11 => ⟨S1x64, .f32⟩
  | 12 => ⟨S100000x64, .f32⟩
  | 13 => ⟨S100000x64, .f32⟩
  | 14 => ⟨S1x1600000, .i32⟩
  | 15 => ⟨S1600000, .i32⟩
  | 16 => ⟨S1x1600000, .i32⟩
  | 17 => ⟨S1600000, .i32⟩
  | 18 => ⟨S64x64, .f32⟩
  | 19 => ⟨S100000x64, .f32⟩
  | 20 => ⟨S64x64, .f32⟩
  | 21 => ⟨S100000x64, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1600000x64, .f32⟩
  | 41 => ⟨S1x64, .f32⟩
  | 42 => ⟨S1600000x64, .f32⟩
  | 43 => ⟨S1600000x64, .f32⟩
  | 44 => ⟨S_, .f32⟩
  | 45 => ⟨S1600000x64, .f32⟩
  | 46 => ⟨S1600000x64, .f32⟩
  | 47 => ⟨S1600000x1, .f32⟩
  | 48 => ⟨S1600000, .f32⟩
  | 49 => ⟨S_, .f32⟩
  | 50 => ⟨S1600000, .f32⟩
  | 51 => ⟨S1600000, .f32⟩
  | 52 => ⟨S1600000, .f32⟩
  | 53 => ⟨S1600000, .f32⟩
  | 54 => ⟨S_, .f32⟩
  | 55 => ⟨S1600000, .f32⟩
  | 56 => ⟨S1600000, .f32⟩
  | 57 => ⟨S_, .f32⟩
  | 58 => ⟨S1600000, .f32⟩
  | 59 => ⟨S1600000, .f32⟩
  | 60 => ⟨S1x64x64, .f32⟩
  | 61 => ⟨S64x64, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S1600000x1, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x1, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S1x64x64, .f32⟩
  | 115 => ⟨S64x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x64, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S100000x1x64, .f32⟩
  | 11 => ⟨S100000x1x64, .f32⟩
  | 12 => ⟨S100000x1x64, .f32⟩
  | 13 => ⟨S100000x1x64, .f32⟩
  | 14 => ⟨S100000x4x64, .f32⟩
  | 15 => ⟨S_, .f32⟩
  | 16 => ⟨S100000x64, .f32⟩
  | 17 => ⟨S_, .f32⟩
  | 18 => ⟨S100000x64, .f32⟩
  | 19 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_7 : Ref sig .tc := ⟨.hbm, 90, rfl⟩
abbrev main_v67 : Ref sig .tc := ⟨.hbm, 91, rfl⟩
abbrev main_v68 : Ref sig .tc := ⟨.hbm, 92, rfl⟩
abbrev main_c_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call2_cst : Ref sig .tc := ⟨.hbm, 111, rfl⟩
abbrev main_call2_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_10 : Ref sig .tc := ⟨.hbm, 117, rfl⟩
abbrev main_v89 : Ref sig .tc := ⟨.hbm, 118, rfl⟩
abbrev main_v90 : Ref sig .tc := ⟨.hbm, 119, rfl⟩
abbrev main_c_11 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_12 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_13 : Ref sig .tc := ⟨.hbm, 143, rfl⟩
abbrev main_v112 : Ref sig .tc := ⟨.hbm, 144, rfl⟩
abbrev main_cst_14 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S128x64_S64x64_0_0 : S128x64.Slices ![0, 0] S64x64
  slices_S128x64_S64x64_64_0 : S128x64.Slices ![64, 0] S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  shapeCasts_S1600000x1_S1600000 : S1600000x1.ShapeCasts S1600000
  shapeCasts_S1_S_ : S1.ShapeCasts S_
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  reducesTo_S100000x4x64_S100000x64_d1 : S100000x4x64.ReducesTo [1] S100000x64
  h_S_ : 0 < S_.numel
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x1_S1600000x1_1_0_0_1_n_n_wf : DotDims.WF S1600000x64 S64x1 S1600000x1 [1] [0] [0] [1] [] []
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KBody0.lean ====
/- Region 0 of the program (the node projection, on a grid of 10 row blocks): the kernel body run on its staging
   buffers, and the pipeline's proof data and body obligation, at a parameter V for the buffer contents on entry.

   The body reads five inputs — a block X of 10000 rows of the node features, the weight matrices W_in, Wa, Wb and
   the bias row b — and fills three output blocks: E = X·W_in + b, A = E·Wa and B = E·Wb (the products taken on
   operands narrowed to bfloat16, accumulated in f32). Each output buffer is filled by ONE store through the whole
   buffer, so what the body leaves there is the store's payload, a function of the input blocks alone. -/
import proofs.«401021_j84602265796764_3_alg».proof.Proof.Gen.Kernel.Launch
import proofs.«401021_j84602265796764_3_alg».proof.Proof.Gen.Kernel.Skeleton
import proofs.«401021_j84602265796764_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window w's block at point t: the part of its array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block X is fetched at every point, so the buffer holds the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W_in is fetched once, at the first point; its block index never moves, and the body leaves the buffer as it
    found it, so at every point the buffer holds the (one) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Wa, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Wb, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_blk : Rect S10000x64 := Rect.unit (s := S10000x64) ![0, 0] S10000x64.size inb_S10000x64_S10000x64_0_0
abbrev r0_mat : Rect S64x64 := Rect.unit (s := S64x64) ![0, 0] S64x64.size inb_S64x64_S64x64_0_0
abbrev r0_row : Rect S1x64 := Rect.unit (s := S1x64) ![0, 0] S1x64.size inb_S1x64_S1x64_0_0

/-! ## What the body leaves in each output buffer -/

/-- The buffer of E after the body: its one store, of X·W_in + b. -/
def out0_5 (x0 : Vec F S10000x64 .f32) (x1 : Vec F S64x64 .f32) (x2 : Vec F S1x64 .f32) : Vec F S10000x64 .f32 :=
  View.canon [⟨r0_blk, k0_pay1 (View.ld x0 r0_blk) (View.ld x1 r0_mat) (View.ld x2 r0_row)⟩]

/-- The buffer of A after the body: its one store, of E·Wa. -/
def out0_6 (x0 : Vec F S10000x64 .f32) (x1 : Vec F S64x64 .f32) (x2 : Vec F S1x64 .f32) (x3 : Vec F S64x64 .f32) : Vec F S10000x64 .f32 :=
  View.canon [⟨r0_blk, k0_pay3 (View.ld x0 r0_blk) (View.ld x1 r0_mat) (View.ld x2 r0_row) (View.ld x3 r0_mat)⟩]

/-- The buffer of B after the body: its one store, of E·Wb. -/
def out0_7 (x0 : Vec F S10000x64 .f32) (x1 : Vec F S64x64 .f32) (x2 : Vec F S1x64 .f32) (x4 : Vec F S64x64 .f32) : Vec F S10000x64 .f32 :=
  View.canon [⟨r0_blk, k0_pay4 (View.ld x0 r0_blk) (View.ld x1 r0_mat) (View.ld x2 r0_row) (View.ld x4 r0_mat)⟩]

/-- A store through the whole buffer covers it. -/
theorem cover0_5 (p : Vec F S10000x64 .f32) (y : S10000x64.Idx) :
    ∃ pc ∈ ([⟨r0_blk, p⟩] : List (View.Piece (Elt F) S10000x64 .f32)), y ∈ pc.1.set :=
  View.cover_of_tiled [⟨r0_blk, p⟩] S10000x64.size (by rfl) y
theorem cover0_6 (p : Vec F S10000x64 .f32) (y : S10000x64.Idx) :
    ∃ pc ∈ ([⟨r0_blk, p⟩] : List (View.Piece (Elt F) S10000x64 .f32)), y ∈ pc.1.set :=
  cover0_5 p y
theorem cover0_7 (p : Vec F S10000x64 .f32) (y : S10000x64.Idx) :
    ∃ pc ∈ ([⟨r0_blk, p⟩] : List (View.Piece (Elt F) S10000x64 .f32)), y ∈ pc.1.set :=
  cover0_5 p y

/-! ## The body's triple -/

set_option maxHeartbeats 1000000 in
/-- The kernel body on whole staging buffers — the five inputs' at read contents x0 … x4, the three outputs' at
    anything — runs to the continuation holding the inputs' as they were and the outputs' at E, A, B of the inputs.
    Each output buffer is read once before it is written; what is read is not used. -/
theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S10000x64 .f32) (harg6 : arg6.IsWhole)
    (arg7 : Memref sig .tc .vmem S10000x64 .f32) (harg7 : arg7.IsWhole)
    (arg8 : Memref sig .tc .vmem S10000x64 .f32) (harg8 : arg8.IsWhole)
    (x0 : Vec F S10000x64 .f32) (x1 : Vec F S64x64 .f32) (x2 : Vec F S1x64 .f32)
    (x3 : Vec F S64x64 .f32) (x4 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2)
            ∗ owns (c : Thread nD τ) arg7 fullShare (out0_6 x0 x1 x2 x3)
            ∗ owns (c : Thread nD τ) arg8 fullShare (out0_7 x0 x1 x2 x4)) -∗ K ⟨⟩))
      ⊢ wp frame (wpE (defs₀ (F := F)) Variants.none c none) E
          (cc0__node_proj_kernel i arg1 harg1 arg2 harg2 arg3 harg3 arg4 harg4 arg5 harg5 arg6 harg6 arg7 harg7 arg8 harg8) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core c: the arrays as the region finds them; after the body at point t each
    input's buffer still at its block and the outputs' at E, A, B of the input blocks; the invariant holds the
    scoped rest and the generator register untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 4 t)
  Φ _ := Pipeline.ΦA spec0 c
  q _ := fullShare
  owed _ := 0

/-- The proof data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]
theorem after0_7 (c : Dev nD) (t : Fin cfg0.N) :
    (dat0 V c).after 7 t = out0_7 (iblk0 V c 0 t) (iblk0 V c 1 t) (iblk0 V c 2 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what is owed, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
/- REGION 1 (the edge-mask kernel), its half of the frame, at any float family F.

   The kernel reads five staging buffers — two [10000,64] blocks of the projected node features (the rows gathered
   at the edges' two endpoints), the first layer's bias as a [1,64] row, the second layer's weights as a [1,64] row
   and its bias as a [1,1] cell — and writes one [10000,1] block: at each edge the logistic of the lane sum of
   relu(row + col + bias) * weights, plus the second bias. Here: what each window's block is at a grid point, what
   the body leaves in the output buffer as a function of the five input blocks, the body's triple, and the
   pipeline's proof data with its body obligation. All of it is stated at the contents V the region finds on entry. -/
import proofs.«401021_j84602265796764_3_alg».proof.Proof.Gen.Kernel.Launch
import proofs.«401021_j84602265796764_3_alg».proof.Proof.Gen.Kernel.Skeleton
import proofs.«401021_j84602265796764_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The blocks of the six windows -/

/-- The block of window w at grid point t: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds the window's block at EVERY point. Windows 0 and 1 (the edge blocks) are fetched
    at every point. Windows 2, 3, 4 (the two rows and the cell) have a constant index map and are fetched at the first
    point only; at a later point the index has not moved, so the buffer still holds the same block. One library lemma
    covers both situations; it asks that the window be an input, never idle, uncut, and that the body leave the block
    in place. Stated for any proof data over V's arrays whose body keeps the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each one the whole of its buffer -/

abbrev r1_edge : Rect S10000x64 := Rect.unit (s := S10000x64) ![0, 0] S10000x64.size inb_S10000x64_S10000x64_0_0
abbrev r1_row : Rect S1x64 := Rect.unit (s := S1x64) ![0, 0] S1x64.size inb_S1x64_S1x64_0_0
abbrev r1_cell : Rect S1x1 := Rect.unit (s := S1x1) ![0, 0] S1x1.size inb_S1x1_S1x1_0_0
abbrev r1_mask : Rect S10000x1 := Rect.unit (s := S10000x1) ![0, 0] S10000x1.size inb_S10000x1_S10000x1_0_0

/-! ## What the body leaves in the output buffer -/

/-- The mask block after the body, from the five input blocks: the one whole-buffer store, its payload, at each of
    the 10000 rows, logistic((sum over the 64 lanes of relu(x0 + x1 + x2) * x3) + x4), x2 and x3 broadcast down the
    rows and x4 to every row. -/
def out1_5 (x0 : Vec F S10000x64 .f32) (x1 : Vec F S10000x64 .f32) (x2 : Vec F S1x64 .f32) (x3 : Vec F S1x64 .f32) (x4 : Vec F S1x1 .f32) :
    Vec F S10000x1 .f32 :=
  View.canon [⟨r1_mask, k1_pay1 (View.ld x0 r1_edge) (View.ld x1 r1_edge) (View.ld x2 r1_row) (View.ld x3 r1_row) (View.ld x4 r1_cell)⟩]

/-- The one store is the whole buffer, so every index lies in it. -/
theorem cover1_5 (p0 : Vec F S10000x1 .f32) (y : S10000x1.Idx) :
    ∃ pc ∈ ([⟨r1_mask, p0⟩] : List (View.Piece (Elt F) S10000x1 .f32)), y ∈ pc.1.set :=
  View.cover_of_tiled [⟨r1_mask, p0⟩] S10000x1.size (by rfl) y

/-! ## The body's triple -/

set_option maxHeartbeats 1000000 in
/-- The kernel body on whole staging buffers — the five inputs at read contents x0..x4, the output at anything — runs
    to a state with the inputs as they were and the output at out1_5 of them. The body is its sequence of memory
    operations over the payload (five loads, one load of the output that nothing reads, one store); the grid
    coordinate is not read. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S10000x1 .f32) (harg6 : arg6.IsWhole)
    (x0 : Vec F S10000x64 .f32) (x1 : Vec F S10000x64 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__edge_mask_kernel i arg1 harg1 arg2 harg2 arg3 harg3 arg4 harg4 arg5 harg5 arg6 harg6) K := by
  simp only [cc1__edge_mask_kernel_eq_skeleton]; unfold cc1__edge_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the edge-mask pipeline on core c: the six arrays as the region finds them; after the body at
    point t each input's buffer still at its block and the mask's buffer at out1_5 of the five input blocks; the
    invariant is the class's (the scoped rest and the generator register, untouched); full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant and
    the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.KBody2.lean ====
/-
  Layer 0's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.Kernel.Launch
import proofs.«401021_j84602265796764_3_alg».proof.Proof.Gen.Kernel.Skeleton
import proofs.«401021_j84602265796764_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of node rows is in its staging buffer at every point: fetched there, or left there by the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight is fetched once and stays: its staging buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read and written whole -/

abbrev r2_h : Rect S10000x64 := Rect.unit (s := S10000x64) ![0, 0] S10000x64.size inb_S10000x64_S10000x64_0_0
abbrev r2_w : Rect S64x64 := Rect.unit (s := S64x64) ![0, 0] S64x64.size inb_S64x64_S64x64_0_0

/-- The output block after the body: the product of the node block and the weight, stored over the whole buffer. -/
def out2_2 (x0 : Vec F S10000x64 .f32) (x1 : Vec F S64x64 .f32) : Vec F S10000x64 .f32 :=
  View.canon [⟨r2_h, k2_pay1 (View.ld x0 r2_h) (View.ld x1 r2_w)⟩]

/-- The one store covers the buffer. -/
theorem cover2_2 (p0 : Vec F S10000x64 .f32) (y : S10000x64.Idx) :
    ∃ pc ∈ ([⟨r2_h, p0⟩] : List (View.Piece (Elt F) S10000x64 .f32)), y ∈ pc.1.set :=
  View.cover_of_tiled [⟨r2_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at a point each input's buffer at its block, the output's at the
    product of the two blocks; nothing owed, full shares, the invariant untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is handed at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody3.lean ====
/-
  Layer 1's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.Kernel.Launch
import proofs.«401021_j84602265796764_3_alg».proof.Proof.Gen.Kernel.Skeleton
import proofs.«401021_j84602265796764_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of node rows is in its staging buffer at every point: fetched there, or left there by the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight is fetched once and stays: its staging buffer holds it at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read and written whole -/

abbrev r3_h : Rect S10000x64 := Rect.unit (s := S10000x64) ![0, 0] S10000x64.size inb_S10000x64_S10000x64_0_0
abbrev r3_w : Rect S64x64 := Rect.unit (s := S64x64) ![0, 0] S64x64.size inb_S64x64_S64x64_0_0

/-- The output block after the body: the product of the node block and the weight, stored over the whole buffer. -/
def out3_2 (x0 : Vec F S10000x64 .f32) (x1 : Vec F S64x64 .f32) : Vec F S10000x64 .f32 :=
  View.canon [⟨r3_h, k3_pay1 (View.ld x0 r3_h) (View.ld x1 r3_w)⟩]

/-- The one store covers the buffer. -/
theorem cover3_2 (p0 : Vec F S10000x64 .f32) (y : S10000x64.Idx) :
    ∃ pc ∈ ([⟨r3_h, p0⟩] : List (View.Piece (Elt F) S10000x64 .f32)), y ∈ pc.1.set :=
  View.cover_of_tiled [⟨r3_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel3 (c : Dev nD) (E : Set ℕ) (i : grid3.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at a point each input's buffer at its block, the output's at the
    product of the two blocks; nothing owed, full shares, the invariant untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is handed at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBody4.lean ====
/-
  Layer 2's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.Kernel.Launch
import proofs.«401021_j84602265796764_3_alg».proof.Proof.Gen.Kernel.Skeleton
import proofs.«401021_j84602265796764_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of node rows is in its staging buffer at every point: fetched there, or left there by the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight is fetched once and stays: its staging buffer holds it at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read and written whole -/

abbrev r4_h : Rect S10000x64 := Rect.unit (s := S10000x64) ![0, 0] S10000x64.size inb_S10000x64_S10000x64_0_0
abbrev r4_w : Rect S64x64 := Rect.unit (s := S64x64) ![0, 0] S64x64.size inb_S64x64_S64x64_0_0

/-- The output block after the body: the product of the node block and the weight, stored over the whole buffer. -/
def out4_2 (x0 : Vec F S10000x64 .f32) (x1 : Vec F S64x64 .f32) : Vec F S10000x64 .f32 :=
  View.canon [⟨r4_h, k4_pay1 (View.ld x0 r4_h) (View.ld x1 r4_w)⟩]

/-- The one store covers the buffer. -/
theorem cover4_2 (p0 : Vec F S10000x64 .f32) (y : S10000x64.Idx) :
    ∃ pc ∈ ([⟨r4_h, p0⟩] : List (View.Piece (Elt F) S10000x64 .f32)), y ∈ pc.1.set :=
  View.cover_of_tiled [⟨r4_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel4 (c : Dev nD) (E : Set ℕ) (i : grid4.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_matmul_kernel i arg1 harg1 arg2 harg2 arg3 harg3) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the region finds them; after the body at a point each input's buffer at its block, the output's at the
    product of the two blocks; nothing owed, full shares, the invariant untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is handed at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/-
  The whole program as a chain of segments: stretches of host operations and the five kernel regions, in @main's order.

  Between two segments a core holds every unscoped buffer at known contents: the launch contents, then each host stretch's
  operations applied, then, after a region, the region's output arrays at what its write-backs leave (`outs`) and every other
  buffer unchanged. Each region's proof data is stated at the contents the region is entered from, which depend only on the
  regions before it, so `outs` is built region by region. The run ends with every unscoped buffer at the last contents; the
  argument arrays among them are as launched, and the result buffer holds the last stretch's value.
-/
import proofs.«401021_j84602265796764_3_alg».proof.Proof.KBody0
import proofs.«401021_j84602265796764_3_alg».proof.Proof.KBody1
import proofs.«401021_j84602265796764_3_alg».proof.Proof.KBody2
import proofs.«401021_j84602265796764_3_alg».proof.Proof.KBody3
import proofs.«401021_j84602265796764_3_alg».proof.Proof.KBody4
import proofs.«401021_j84602265796764_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave, region by region -/

/-- The buffers region 0 is entered from (they depend on no region). -/
abbrev U1 (c : Dev nD) (b : Ref sig .tc) : Buf (Elt F) ((c : Thread nD τ).loc b) := V1 m c b
/-- After region 0: its arrays at what the pipeline leaves, every other buffer as entered. -/
def X2 (c : Dev nD) : Valuation τ sig (Elt F) :=
  Pipeline.withArrays spec0 c (V1 m c) fun w => (dat0 (U1 m) c).arrAt w cfg0.N
/-- The regions' outputs so far: region 0's. -/
def o2 : Outs (F := F) := fun _ r c => X2 m c r

abbrev U5 (c : Dev nD) (b : Ref sig .tc) : Buf (Elt F) ((c : Thread nD τ).loc b) := V5 m (o2 m) c b
def X6 (c : Dev nD) : Valuation τ sig (Elt F) :=
  Pipeline.withArrays spec1 c (V5 m (o2 m) c) fun w => (dat1 (U5 m) c).arrAt w cfg1.N
def o6 : Outs (F := F) := fun J r c => if J < 6 then o2 m J r c else X6 m c r

abbrev U7 (c : Dev nD) (b : Ref sig .tc) : Buf (Elt F) ((c : Thread nD τ).loc b) := V7 m (o6 m) c b
def X8 (c : Dev nD) : Valuation τ sig (Elt F) :=
  Pipeline.withArrays spec2 c (V7 m (o6 m) c) fun w => (dat2 (U7 m) c).arrAt w cfg2.N
def o8 : Outs (F := F) := fun J r c => if J < 8 then o6 m J r c else X8 m c r

abbrev U12 (c : Dev nD) (b : Ref sig .tc) : Buf (Elt F) ((c : Thread nD τ).loc b) := V12 m (o8 m) c b
def X13 (c : Dev nD) : Valuation τ sig (Elt F) :=
  Pipeline.withArrays spec3 c (V12 m (o8 m) c) fun w => (dat3 (U12 m) c).arrAt w cfg3.N
def o13 : Outs (F := F) := fun J r c => if J < 13 then o8 m J r c else X13 m c r

abbrev U17 (c : Dev nD) (b : Ref sig .tc) : Buf (Elt F) ((c : Thread nD τ).loc b) := V17 m (o13 m) c b
def X18 (c : Dev nD) : Valuation τ sig (Elt F) :=
  Pipeline.withArrays spec4 c (V17 m (o13 m) c) fun w => (dat4 (U17 m) c).arrAt w cfg4.N
/-- What every region leaves. -/
def outs : Outs (F := F) := fun J r c => if J < 18 then o13 m J r c else X18 m c r

theorem outs_2 (r : Ref sig .tc) (c : Dev nD) : outs m 2 r c = X2 m c r := rfl
theorem outs_6 (r : Ref sig .tc) (c : Dev nD) : outs m 6 r c = X6 m c r := rfl
theorem outs_8 (r : Ref sig .tc) (c : Dev nD) : outs m 8 r c = X8 m c r := rfl
theorem outs_13 (r : Ref sig .tc) (c : Dev nD) : outs m 13 r c = X13 m c r := rfl
theorem outs_18 (r : Ref sig .tc) (c : Dev nD) : outs m 18 r c = X18 m c r := rfl

/-- The contents a region is entered from read only the regions before it. -/
theorem V5_outs (c : Dev nD) : V5 m (outs m) c = V5 m (o2 m) c := rfl
theorem V7_outs (c : Dev nD) : V7 m (outs m) c = V7 m (o6 m) c := rfl
theorem V12_outs (c : Dev nD) : V12 m (outs m) c = V12 m (o8 m) c := rfl
theorem V17_outs (c : Dev nD) : V17 m (outs m) c = V17 m (o13 m) c := rfl

/-- The contents after each region, read at the TensorCore's references. -/
abbrev U2' (c : Dev nD) (b : Ref sig .tc) : Buf (Elt F) ((c : Thread nD τ).loc b) := V2 m (outs m) c b
abbrev U6' (c : Dev nD) (b : Ref sig .tc) : Buf (Elt F) ((c : Thread nD τ).loc b) := V6 m (outs m) c b
abbrev U8' (c : Dev nD) (b : Ref sig .tc) : Buf (Elt F) ((c : Thread nD τ).loc b) := V8 m (outs m) c b
abbrev U13' (c : Dev nD) (b : Ref sig .tc) : Buf (Elt F) ((c : Thread nD τ).loc b) := V13 m (outs m) c b
abbrev U18' (c : Dev nD) (b : Ref sig .tc) : Buf (Elt F) ((c : Thread nD τ).loc b) := V18 m (outs m) c b

/-! ## The proof data family and what rides along -/

/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U5 m) c
  | ⟨2, _⟩ => fun c => dat2 (U7 m) c
  | ⟨3, _⟩ => fun c => dat3 (U12 m) c
  | ⟨4, _⟩ => fun c => dat4 (U17 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
abbrev Efam : Fin 6 → Dev nD → sProp 𝕄 := fun _ c => R c

/-! ## Region 0 -/

/-- What the region leaves, read at a window's array. -/
theorem X2_arr (c : Dev nD) (w : Fin cfg0.W) :
    X2 m c (Proc.devRef .tc (Pipeline.arrRef spec0 w)) = (dat0 (U1 m) c).arrAt w cfg0.N := by
  unfold X2; exact Pipeline.withArrays_arr spec0 launch0.win.arr_inj c _ _ w

/-- After region 0 the buffer `main_v7_0` holds what the region's write-backs leave in it. -/
theorem V2_main_v7_0 (c : Dev nD) : V2 m (outs m) c main_v7_0 = X2 m c main_v7_0 := by
  simp only [V2, Function.update_self, Function.update_of_ne (StableHlo.devRef_ne_of_ne (by decide) : (Proc.devRef .tc main_v7_0 : DevRef τ sig) ≠ Proc.devRef .tc main_v7_1), Function.update_of_ne (StableHlo.devRef_ne_of_ne (by decide) : (Proc.devRef .tc main_v7_0 : DevRef τ sig) ≠ Proc.devRef .tc main_v7_2), outs_2]
/-- After region 0 the buffer `main_v7_1` holds what the region's write-backs leave in it. -/
theorem V2_main_v7_1 (c : Dev nD) : V2 m (outs m) c main_v7_1 = X2 m c main_v7_1 := by
  simp only [V2, Function.update_self, Function.update_of_ne (StableHlo.devRef_ne_of_ne (by decide) : (Proc.devRef .tc main_v7_1 : DevRef τ sig) ≠ Proc.devRef .tc main_v7_0), Function.update_of_ne (StableHlo.devRef_ne_of_ne (by decide) : (Proc.devRef .tc main_v7_1 : DevRef τ sig) ≠ Proc.devRef .tc main_v7_2), outs_2]
/-- After region 0 the buffer `main_v7_2` holds what the region's write-backs leave in it. -/
theorem V2_main_v7_2 (c : Dev nD) : V2 m (outs m) c main_v7_2 = X2 m c main_v7_2 := by
  simp only [V2, Function.update_self, Function.update_of_ne (StableHlo.devRef_ne_of_ne (by decide) : (Proc.devRef .tc main_v7_2 : DevRef τ sig) ≠ Proc.devRef .tc main_v7_0), Function.update_of_ne (StableHlo.devRef_ne_of_ne (by decide) : (Proc.devRef .tc main_v7_2 : DevRef τ sig) ≠ Proc.devRef .tc main_v7_1), outs_2]

/-- Region 0 changes none of the other buffers. -/
theorem V2_keeps (c : Dev nD) (b : Ref sig .tc) (h : b ∉ ([main_v7_0, main_v7_1, main_v7_2] : List (Ref sig .tc))) : V2 m (outs m) c b = U1 m c b :=
  V2_of m (outs m) c b h

set_option maxHeartbeats 4000000 in
/-- At the region's exit each of its arrays holds what the pipeline leaves in it: an input as entered, an output its write-backs. -/
theorem hF0 (c : Dev nD) (w : Fin cfg0.W) : (dat0 (U1 m) c).arrAt w cfg0.N = V2 m (outs m) c (Pipeline.arrRef spec0 w) := by
  match w with
  | ⟨0, _⟩ => exact ((dat0 (U1 m) c).arrAt_in 0 rfl _).trans ((A_eq0 (U1 m) c 0).trans (V2_keeps m c _ (by decide)).symm)
  | ⟨1, _⟩ => exact ((dat0 (U1 m) c).arrAt_in 1 rfl _).trans ((A_eq0 (U1 m) c 1).trans (V2_keeps m c _ (by decide)).symm)
  | ⟨2, _⟩ => exact ((dat0 (U1 m) c).arrAt_in 2 rfl _).trans ((A_eq0 (U1 m) c 2).trans (V2_keeps m c _ (by decide)).symm)
  | ⟨3, _⟩ => exact ((dat0 (U1 m) c).arrAt_in 3 rfl _).trans ((A_eq0 (U1 m) c 3).trans (V2_keeps m c _ (by decide)).symm)
  | ⟨4, _⟩ => exact ((dat0 (U1 m) c).arrAt_in 4 rfl _).trans ((A_eq0 (U1 m) c 4).trans (V2_keeps m c _ (by decide)).symm)
  | ⟨5, _⟩ => exact ((V2_main_v7_0 m c).trans (X2_arr m c 5)).symm
  | ⟨6, _⟩ => exact ((V2_main_v7_1 m c).trans (X2_arr m c 6)).symm
  | ⟨7, _⟩ => exact ((V2_main_v7_2 m c).trans (X2_arr m c 7)).symm

/-- Every buffer that is none of the region's arrays is as entered. -/
theorem hrest0 (c : Dev nD) : ∀ b, b ∉ Finset.univ.image (Pipeline.arrRef spec0) → V2 m (outs m) c b = U1 m c b :=
  fun b hb => V2_keeps m c b fun hmem => by
    simp only [List.mem_cons, List.mem_singleton, List.not_mem_nil, or_false] at hmem
    rcases hmem with h | h | h
    · subst h; exact hb (Finset.mem_image.mpr ⟨5, Finset.mem_univ _, rfl⟩)
    · subst h; exact hb (Finset.mem_image.mpr ⟨6, Finset.mem_univ _, rfl⟩)
    · subst h; exact hb (Finset.mem_image.mpr ⟨7, Finset.mem_univ _, rfl⟩)

set_option backward.isDefEq.respectTransparency.types false in
/-- Region 0 as a segment: entered from every unscoped buffer at the contents before it, left at the contents after it; its
    arrays split out of the unscoped buffers and put back; the generator register passes through the invariant; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- What the region leaves, read at a window's array. -/
theorem X6_arr (c : Dev nD) (w : Fin cfg1.W) :
    X6 m c (Proc.devRef .tc (Pipeline.arrRef spec1 w)) = (dat1 (U5 m) c).arrAt w cfg1.N := by
  unfold X6; exact Pipeline.withArrays_arr spec1 launch1.win.arr_inj c _ _ w

/-- After region 1 the buffer `main_v14` holds what the region's write-backs leave in it. -/
theorem V6_main_v14 (c : Dev nD) : V6 m (outs m) c main_v14 = X6 m c main_v14 := by
  simp only [V6, Function.update_self, outs_6]

/-- Region 1 changes none of the other buffers. -/
theorem V6_keeps (c : Dev nD) (b : Ref sig .tc) (h : b ∉ ([main_v14] : List (Ref sig .tc))) : V6 m (outs m) c b = U5 m c b :=
  (V6_of m (outs m) c b h).trans (congrFun (V5_outs m c) b)

set_option maxHeartbeats 4000000 in
/-- At the region's exit each of its arrays holds what the pipeline leaves in it: an input as entered, an output its write-backs. -/
theorem hF1 (c : Dev nD) (w : Fin cfg1.W) : (dat1 (U5 m) c).arrAt w cfg1.N = V6 m (outs m) c (Pipeline.arrRef spec1 w) := by
  match w with
  | ⟨0, _⟩ => exact ((dat1 (U5 m) c).arrAt_in 0 rfl _).trans ((A_eq1 (U5 m) c 0).trans (V6_keeps m c _ (by decide)).symm)
  | ⟨1, _⟩ => exact ((dat1 (U5 m) c).arrAt_in 1 rfl _).trans ((A_eq1 (U5 m) c 1).trans (V6_keeps m c _ (by decide)).symm)
  | ⟨2, _⟩ => exact ((dat1 (U5 m) c).arrAt_in 2 rfl _).trans ((A_eq1 (U5 m) c 2).trans (V6_keeps m c _ (by decide)).symm)
  | ⟨3, _⟩ => exact ((dat1 (U5 m) c).arrAt_in 3 rfl _).trans ((A_eq1 (U5 m) c 3).trans (V6_keeps m c _ (by decide)).symm)
  | ⟨4, _⟩ => exact ((dat1 (U5 m) c).arrAt_in 4 rfl _).trans ((A_eq1 (U5 m) c 4).trans (V6_keeps m c _ (by decide)).symm)
  | ⟨5, _⟩ => exact ((V6_main_v14 m c).trans (X6_arr m c 5)).symm

/-- Every buffer that is none of the region's arrays is as entered. -/
theorem hrest1 (c : Dev nD) : ∀ b, b ∉ Finset.univ.image (Pipeline.arrRef spec1) → V6 m (outs m) c b = U5 m c b :=
  fun b hb => V6_keeps m c b fun hmem => by
    simp only [List.mem_singleton] at hmem
    subst hmem; exact hb (Finset.mem_image.mpr ⟨5, Finset.mem_univ _, rfl⟩)

set_option backward.isDefEq.respectTransparency.types false in
/-- Region 1 as a segment: entered from every unscoped buffer at the contents before it, left at the contents after it; its
    arrays split out of the unscoped buffers and put back; the generator register passes through the invariant; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none, V5_outs m c]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- What the region leaves, read at a window's array. -/
theorem X8_arr (c : Dev nD) (w : Fin cfg2.W) :
    X8 m c (Proc.devRef .tc (Pipeline.arrRef spec2 w)) = (dat2 (U7 m) c).arrAt w cfg2.N := by
  unfold X8; exact Pipeline.withArrays_arr spec2 launch2.win.arr_inj c _ _ w

/-- After region 2 the buffer `main_v18` holds what the region's write-backs leave in it. -/
theorem V8_main_v18 (c : Dev nD) : V8 m (outs m) c main_v18 = X8 m c main_v18 := by
  simp only [V8, Function.update_self, outs_8]

/-- Region 2 changes none of the other buffers. -/
theorem V8_keeps (c : Dev nD) (b : Ref sig .tc) (h : b ∉ ([main_v18] : List (Ref sig .tc))) : V8 m (outs m) c b = U7 m c b :=
  (V8_of m (outs m) c b h).trans (congrFun (V7_outs m c) b)

set_option maxHeartbeats 4000000 in
/-- At the region's exit each of its arrays holds what the pipeline leaves in it: an input as entered, an output its write-backs. -/
theorem hF2 (c : Dev nD) (w : Fin cfg2.W) : (dat2 (U7 m) c).arrAt w cfg2.N = V8 m (outs m) c (Pipeline.arrRef spec2 w) := by
  match w with
  | ⟨0, _⟩ => exact ((dat2 (U7 m) c).arrAt_in 0 rfl _).trans ((A_eq2 (U7 m) c 0).trans (V8_keeps m c _ (by decide)).symm)
  | ⟨1, _⟩ => exact ((dat2 (U7 m) c).arrAt_in 1 rfl _).trans ((A_eq2 (U7 m) c 1).trans (V8_keeps m c _ (by decide)).symm)
  | ⟨2, _⟩ => exact ((V8_main_v18 m c).trans (X8_arr m c 2)).symm

/-- Every buffer that is none of the region's arrays is as entered. -/
theorem hrest2 (c : Dev nD) : ∀ b, b ∉ Finset.univ.image (Pipeline.arrRef spec2) → V8 m (outs m) c b = U7 m c b :=
  fun b hb => V8_keeps m c b fun hmem => by
    simp only [List.mem_singleton] at hmem
    subst hmem; exact hb (Finset.mem_image.mpr ⟨2, Finset.mem_univ _, rfl⟩)

set_option backward.isDefEq.respectTransparency.types false in
/-- Region 2 as a segment: entered from every unscoped buffer at the contents before it, left at the contents after it; its
    arrays split out of the unscoped buffers and put back; the generator register passes through the invariant; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none, V7_outs m c]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- What the region leaves, read at a window's array. -/
theorem X13_arr (c : Dev nD) (w : Fin cfg3.W) :
    X13 m c (Proc.devRef .tc (Pipeline.arrRef spec3 w)) = (dat3 (U12 m) c).arrAt w cfg3.N := by
  unfold X13; exact Pipeline.withArrays_arr spec3 launch3.win.arr_inj c _ _ w

/-- After region 3 the buffer `main_v34` holds what the region's write-backs leave in it. -/
theorem V13_main_v34 (c : Dev nD) : V13 m (outs m) c main_v34 = X13 m c main_v34 := by
  simp only [V13, Function.update_self, outs_13]

/-- Region 3 changes none of the other buffers. -/
theorem V13_keeps (c : Dev nD) (b : Ref sig .tc) (h : b ∉ ([main_v34] : List (Ref sig .tc))) : V13 m (outs m) c b = U12 m c b :=
  (V13_of m (outs m) c b h).trans (congrFun (V12_outs m c) b)

set_option maxHeartbeats 4000000 in
/-- At the region's exit each of its arrays holds what the pipeline leaves in it: an input as entered, an output its write-backs. -/
theorem hF3 (c : Dev nD) (w : Fin cfg3.W) : (dat3 (U12 m) c).arrAt w cfg3.N = V13 m (outs m) c (Pipeline.arrRef spec3 w) := by
  match w with
  | ⟨0, _⟩ => exact ((dat3 (U12 m) c).arrAt_in 0 rfl _).trans ((A_eq3 (U12 m) c 0).trans (V13_keeps m c _ (by decide)).symm)
  | ⟨1, _⟩ => exact ((dat3 (U12 m) c).arrAt_in 1 rfl _).trans ((A_eq3 (U12 m) c 1).trans (V13_keeps m c _ (by decide)).symm)
  | ⟨2, _⟩ => exact ((V13_main_v34 m c).trans (X13_arr m c 2)).symm

/-- Every buffer that is none of the region's arrays is as entered. -/
theorem hrest3 (c : Dev nD) : ∀ b, b ∉ Finset.univ.image (Pipeline.arrRef spec3) → V13 m (outs m) c b = U12 m c b :=
  fun b hb => V13_keeps m c b fun hmem => by
    simp only [List.mem_singleton] at hmem
    subst hmem; exact hb (Finset.mem_image.mpr ⟨2, Finset.mem_univ _, rfl⟩)

set_option backward.isDefEq.respectTransparency.types false in
/-- Region 3 as a segment: entered from every unscoped buffer at the contents before it, left at the contents after it; its
    arrays split out of the unscoped buffers and put back; the generator register passes through the invariant; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U12 m) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (U12 m c)
  hentry c := by
    rw [Pipeline.ownSems0_none, V12_outs m c]
    have hsplit := Pipeline.arrays_of_unscopedBufs (p := 3) (pcfgs (F := F)) adm (pdats m) launch3.win launch3.arr_whole c
      ((pdats m 3 c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U12 m c) (U13' m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- What the region leaves, read at a window's array. -/
theorem X18_arr (c : Dev nD) (w : Fin cfg4.W) :
    X18 m c (Proc.devRef .tc (Pipeline.arrRef spec4 w)) = (dat4 (U17 m) c).arrAt w cfg4.N := by
  unfold X18; exact Pipeline.withArrays_arr spec4 launch4.win.arr_inj c _ _ w

/-- After region 4 the buffer `main_v50` holds what the region's write-backs leave in it. -/
theorem V18_main_v50 (c : Dev nD) : V18 m (outs m) c main_v50 = X18 m c main_v50 := by
  simp only [V18, Function.update_self, outs_18]

/-- Region 4 changes none of the other buffers. -/
theorem V18_keeps (c : Dev nD) (b : Ref sig .tc) (h : b ∉ ([main_v50] : List (Ref sig .tc))) : V18 m (outs m) c b = U17 m c b :=
  (V18_of m (outs m) c b h).trans (congrFun (V17_outs m c) b)

set_option maxHeartbeats 4000000 in
/-- At the region's exit each of its arrays holds what the pipeline leaves in it: an input as entered, an output its write-backs. -/
theorem hF4 (c : Dev nD) (w : Fin cfg4.W) : (dat4 (U17 m) c).arrAt w cfg4.N = V18 m (outs m) c (Pipeline.arrRef spec4 w) := by
  match w with
  | ⟨0, _⟩ => exact ((dat4 (U17 m) c).arrAt_in 0 rfl _).trans ((A_eq4 (U17 m) c 0).trans (V18_keeps m c _ (by decide)).symm)
  | ⟨1, _⟩ => exact ((dat4 (U17 m) c).arrAt_in 1 rfl _).trans ((A_eq4 (U17 m) c 1).trans (V18_keeps m c _ (by decide)).symm)
  | ⟨2, _⟩ => exact ((V18_main_v50 m c).trans (X18_arr m c 2)).symm

/-- Every buffer that is none of the region's arrays is as entered. -/
theorem hrest4 (c : Dev nD) : ∀ b, b ∉ Finset.univ.image (Pipeline.arrRef spec4) → V18 m (outs m) c b = U17 m c b :=
  fun b hb => V18_keeps m c b fun hmem => by
    simp only [List.mem_singleton] at hmem
    subst hmem; exact hb (Finset.mem_image.mpr ⟨2, Finset.mem_univ _, rfl⟩)

set_option backward.isDefEq.respectTransparency.types false in
/-- Region 4 as a segment: entered from every unscoped buffer at the contents before it, left at the contents after it; its
    arrays split out of the unscoped buffers and put back; the generator register passes through the invariant; nothing owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U17 m) c).loose
  hwaits := Pipeline.hwaits_of_owed_zero _ _ _ _ L lv 4 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec4 c (U17 m c)
  hentry c := by
    rw [Pipeline.ownSems0_none, V17_outs m c]
    have hsplit := Pipeline.arrays_of_unscopedBufs (p := 4) (pcfgs (F := F)) adm (pdats m) launch4.win launch4.arr_whole c
      ((pdats m 4 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U17 m c) (U18' m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting, and every unscoped
    buffer of every core ends at the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V20 m (outs m) c b) := by
  refine Pipeline.θ_run_regions_kit_dev (pcfgs (F := F)) adm (pdats m) () cellOf_inj emb₁ defs₀ 𝒱₀ L lv m ρ main
    (segs m (outs m) 𝒱₀ L lv Efam () (pdats m) (reg0 m) (reg1 m) (reg2 m) (reg3 m) (reg4 m))
    (fun c Q => by
      rewrite [main_chain c, Seg.run_eq_chain,
        show (segs m (outs m) 𝒱₀ L lv Efam () (pdats m) (reg0 m) (reg1 m) (reg2 m) (reg3 m) (reg4 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()),
          StableHlo.seq hostOps5,
          StableHlo.seq hostOps5_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V20 m (outs m) c b)
    (hfin := fun c s' => by
      iintro ⟨Hh, HSI⟩
      unfold StableHlo.held
      imodintro
      iapply (pointsTo_read_all (Pipeline.ucRefs τ sig) (fun b => (((c : Thread nD τ)).1, b)) (V20 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance: @main runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (V20_main_arg0 m (outs m) c),
    (h c _ (mem_uc main_arg1 (by decide))).trans (V20_main_arg1 m (outs m) c),
    (h c _ (mem_uc main_arg2 (by decide))).trans (V20_main_arg2 m (outs m) c),
    (h c _ (mem_uc main_arg3 (by decide))).trans (V20_main_arg3 m (outs m) c),
    (h c _ (mem_uc main_arg4 (by decide))).trans (V20_main_arg4 m (outs m) c),
    (h c _ (mem_uc main_arg5 (by decide))).trans (V20_main_arg5 m (outs m) c),
    (h c _ (mem_uc main_arg6 (by decide))).trans (V20_main_arg6 m (outs m) c),
    (h c _ (mem_uc main_arg7 (by decide))).trans (V20_main_arg7 m (outs m) c),
    (h c _ (mem_uc main_arg8 (by decide))).trans (V20_main_arg8 m (outs m) c),
    (h c _ (mem_uc main_arg9 (by decide))).trans (V20_main_arg9 m (outs m) c)⟩) (run_all m ρ)

end Cert.Kernel.Hand

end
-- ==== Proof.KIBody0.lean ====
/- Region 0 of the program (the node projection, on a grid of 10 row blocks): the kernel body run on its staging
   buffers, and the pipeline's proof data and body obligation, at a parameter V for the buffer contents on entry.

   The body reads five inputs — a block X of 10000 rows of the node features, the weight matrices W_in, Wa, Wb and
   the bias row b — and fills three output blocks: E = X·W_in + b, A = E·Wa and B = E·Wb (the products taken on
   operands narrowed to bfloat16, accumulated in f32). Each output buffer is filled by ONE store through the whole
   buffer, so what the body leaves there is the store's payload, a function of the input blocks alone. -/
import proofs.«401021_j84602265796764_3_alg».proof.Proof.Gen.KernelIdeal.Launch
import proofs.«401021_j84602265796764_3_alg».proof.Proof.Gen.KernelIdeal.Skeleton
import proofs.«401021_j84602265796764_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window w's block at point t: the part of its array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block X is fetched at every point, so the buffer holds the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W_in is fetched once, at the first point; its block index never moves, and the body leaves the buffer as it
    found it, so at every point the buffer holds the (one) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Wa, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Wb, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_blk : Rect S10000x64 := Rect.unit (s := S10000x64) ![0, 0] S10000x64.size inb_S10000x64_S10000x64_0_0
abbrev r0_mat : Rect S64x64 := Rect.unit (s := S64x64) ![0, 0] S64x64.size inb_S64x64_S64x64_0_0
abbrev r0_row : Rect S1x64 := Rect.unit (s := S1x64) ![0, 0] S1x64.size inb_S1x64_S1x64_0_0

/-! ## What the body leaves in each output buffer -/

/-- The buffer of E after the body: its one store, of X·W_in + b. -/
def out0_5 (x0 : Vec F S10000x64 .f32) (x1 : Vec F S64x64 .f32) (x2 : Vec F S1x64 .f32) : Vec F S10000x64 .f32 :=
  View.canon [⟨r0_blk, k0_pay1 (View.ld x0 r0_blk) (View.ld x1 r0_mat) (View.ld x2 r0_row)⟩]

/-- The buffer of A after the body: its one store, of E·Wa. -/
def out0_6 (x0 : Vec F S10000x64 .f32) (x1 : Vec F S64x64 .f32) (x2 : Vec F S1x64 .f32) (x3 : Vec F S64x64 .f32) : Vec F S10000x64 .f32 :=
  View.canon [⟨r0_blk, k0_pay3 (View.ld x0 r0_blk) (View.ld x1 r0_mat) (View.ld x2 r0_row) (View.ld x3 r0_mat)⟩]

/-- The buffer of B after the body: its one store, of E·Wb. -/
def out0_7 (x0 : Vec F S10000x64 .f32) (x1 : Vec F S64x64 .f32) (x2 : Vec F S1x64 .f32) (x4 : Vec F S64x64 .f32) : Vec F S10000x64 .f32 :=
  View.canon [⟨r0_blk, k0_pay4 (View.ld x0 r0_blk) (View.ld x1 r0_mat) (View.ld x2 r0_row) (View.ld x4 r0_mat)⟩]

/-- A store through the whole buffer covers it. -/
theorem cover0_5 (p : Vec F S10000x64 .f32) (y : S10000x64.Idx) :
    ∃ pc ∈ ([⟨r0_blk, p⟩] : List (View.Piece (Elt F) S10000x64 .f32)), y ∈ pc.1.set :=
  View.cover_of_tiled [⟨r0_blk, p⟩] S10000x64.size (by rfl) y
theorem cover0_6 (p : Vec F S10000x64 .f32) (y : S10000x64.Idx) :
    ∃ pc ∈ ([⟨r0_blk, p⟩] : List (View.Piece (Elt F) S10000x64 .f32)), y ∈ pc.1.set :=
  cover0_5 p y
theorem cover0_7 (p : Vec F S10000x64 .f32) (y : S10000x64.Idx) :
    ∃ pc ∈ ([⟨r0_blk, p⟩] : List (View.Piece (Elt F) S10000x64 .f32)), y ∈ pc.1.set :=
  cover0_5 p y

/-! ## The body's triple -/

set_option maxHeartbeats 1000000 in
/-- The kernel body on whole staging buffers — the five inputs' at read contents x0 … x4, the three outputs' at
    anything — runs to the continuation holding the inputs' as they were and the outputs' at E, A, B of the inputs.
    Each output buffer is read once before it is written; what is read is not used. -/
theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S10000x64 .f32) (harg6 : arg6.IsWhole)
    (arg7 : Memref sig .tc .vmem S10000x64 .f32) (harg7 : arg7.IsWhole)
    (arg8 : Memref sig .tc .vmem S10000x64 .f32) (harg8 : arg8.IsWhole)
    (x0 : Vec F S10000x64 .f32) (x1 : Vec F S64x64 .f32) (x2 : Vec F S1x64 .f32)
    (x3 : Vec F S64x64 .f32) (x4 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2)
            ∗ owns (c : Thread nD τ) arg7 fullShare (out0_6 x0 x1 x2 x3)
            ∗ owns (c : Thread nD τ) arg8 fullShare (out0_7 x0 x1 x2 x4)) -∗ K ⟨⟩))
      ⊢ wp frame (wpE (defs₀ (F := F)) Variants.none c none) E
          (cc0__node_proj_kernel i arg1 harg1 arg2 harg2 arg3 harg3 arg4 harg4 arg5 harg5 arg6 harg6 arg7 harg7 arg8 harg8) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core c: the arrays as the region finds them; after the body at point t each
    input's buffer still at its block and the outputs' at E, A, B of the input blocks; the invariant holds the
    scoped rest and the generator register untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 4 t)
  Φ _ := Pipeline.ΦA spec0 c
  q _ := fullShare
  owed _ := 0

/-- The proof data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]
theorem after0_7 (c : Dev nD) (t : Fin cfg0.N) :
    (dat0 V c).after 7 t = out0_7 (iblk0 V c 0 t) (iblk0 V c 1 t) (iblk0 V c 2 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what is owed, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIBody1.lean ====
/- REGION 1 (the edge-mask kernel), its half of the frame, at any float family F.

   The kernel reads five staging buffers — two [10000,64] blocks of the projected node features (the rows gathered
   at the edges' two endpoints), the first layer's bias as a [1,64] row, the second layer's weights as a [1,64] row
   and its bias as a [1,1] cell — and writes one [10000,1] block: at each edge the logistic of the lane sum of
   relu(row + col + bias) * weights, plus the second bias. Here: what each window's block is at a grid point, what
   the body leaves in the output buffer as a function of the five input blocks, the body's triple, and the
   pipeline's proof data with its body obligation. All of it is stated at the contents V the region finds on entry. -/
import proofs.«401021_j84602265796764_3_alg».proof.Proof.Gen.KernelIdeal.Launch
import proofs.«401021_j84602265796764_3_alg».proof.Proof.Gen.KernelIdeal.Skeleton
import proofs.«401021_j84602265796764_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The blocks of the six windows -/

/-- The block of window w at grid point t: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds the window's block at EVERY point. Windows 0 and 1 (the edge blocks) are fetched
    at every point. Windows 2, 3, 4 (the two rows and the cell) have a constant index map and are fetched at the first
    point only; at a later point the index has not moved, so the buffer still holds the same block. One library lemma
    covers both situations; it asks that the window be an input, never idle, uncut, and that the body leave the block
    in place. Stated for any proof data over V's arrays whose body keeps the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each one the whole of its buffer -/

abbrev r1_edge : Rect S10000x64 := Rect.unit (s := S10000x64) ![0, 0] S10000x64.size inb_S10000x64_S10000x64_0_0
abbrev r1_row : Rect S1x64 := Rect.unit (s := S1x64) ![0, 0] S1x64.size inb_S1x64_S1x64_0_0
abbrev r1_cell : Rect S1x1 := Rect.unit (s := S1x1) ![0, 0] S1x1.size inb_S1x1_S1x1_0_0
abbrev r1_mask : Rect S10000x1 := Rect.unit (s := S10000x1) ![0, 0] S10000x1.size inb_S10000x1_S10000x1_0_0

/-! ## What the body leaves in the output buffer -/

/-- The mask block after the body, from the five input blocks: the one whole-buffer store, its payload, at each of
    the 10000 rows, logistic((sum over the 64 lanes of relu(x0 + x1 + x2) * x3) + x4), x2 and x3 broadcast down the
    rows and x4 to every row. -/
def out1_5 (x0 : Vec F S10000x64 .f32) (x1 : Vec F S10000x64 .f32) (x2 : Vec F S1x64 .f32) (x3 : Vec F S1x64 .f32) (x4 : Vec F S1x1 .f32) :
    Vec F S10000x1 .f32 :=
  View.canon [⟨r1_mask, k1_pay1 (View.ld x0 r1_edge) (View.ld x1 r1_edge) (View.ld x2 r1_row) (View.ld x3 r1_row) (View.ld x4 r1_cell)⟩]

/-- The one store is the whole buffer, so every index lies in it. -/
theorem cover1_5 (p0 : Vec F S10000x1 .f32) (y : S10000x1.Idx) :
    ∃ pc ∈ ([⟨r1_mask, p0⟩] : List (View.Piece (Elt F) S10000x1 .f32)), y ∈ pc.1.set :=
  View.cover_of_tiled [⟨r1_mask, p0⟩] S10000x1.size (by rfl) y

/-! ## The body's triple -/

set_option maxHeartbeats 1000000 in
/-- The kernel body on whole staging buffers — the five inputs at read contents x0..x4, the output at anything — runs
    to a state with the inputs as they were and the output at out1_5 of them. The body is its sequence of memory
    operations over the payload (five loads, one load of the output that nothing reads, one store); the grid
    coordinate is not read. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S10000x1 .f32) (harg6 : arg6.IsWhole)
    (x0 : Vec F S10000x64 .f32) (x1 : Vec F S10000x64 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__edge_mask_kernel i arg1 harg1 arg2 harg2 arg3 harg3 arg4 harg4 arg5 harg5 arg6 harg6) K := by
  simp only [cc1__edge_mask_kernel_eq_skeleton]; unfold cc1__edge_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the edge-mask pipeline on core c: the six arrays as the region finds them; after the body at
    point t each input's buffer still at its block and the mask's buffer at out1_5 of the five input blocks; the
    invariant is the class's (the scoped rest and the generator register, untouched); full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant and
    the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KIBody2.lean ====
/-
  Layer 0's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.KernelIdeal.Launch
import proofs.«401021_j84602265796764_3_alg».proof.Proof.Gen.KernelIdeal.Skeleton
import proofs.«401021_j84602265796764_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of node rows is in its staging buffer at every point: fetched there, or left there by the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight is fetched once and stays: its staging buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read and written whole -/

abbrev r2_h : Rect S10000x64 := Rect.unit (s := S10000x64) ![0, 0] S10000x64.size inb_S10000x64_S10000x64_0_0
abbrev r2_w : Rect S64x64 := Rect.unit (s := S64x64) ![0, 0] S64x64.size inb_S64x64_S64x64_0_0

/-- The output block after the body: the product of the node block and the weight, stored over the whole buffer. -/
def out2_2 (x0 : Vec F S10000x64 .f32) (x1 : Vec F S64x64 .f32) : Vec F S10000x64 .f32 :=
  View.canon [⟨r2_h, k2_pay1 (View.ld x0 r2_h) (View.ld x1 r2_w)⟩]

/-- The one store covers the buffer. -/
theorem cover2_2 (p0 : Vec F S10000x64 .f32) (y : S10000x64.Idx) :
    ∃ pc ∈ ([⟨r2_h, p0⟩] : List (View.Piece (Elt F) S10000x64 .f32)), y ∈ pc.1.set :=
  View.cover_of_tiled [⟨r2_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at a point each input's buffer at its block, the output's at the
    product of the two blocks; nothing owed, full shares, the invariant untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is handed at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIBody3.lean ====
/-
  Layer 1's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.KernelIdeal.Launch
import proofs.«401021_j84602265796764_3_alg».proof.Proof.Gen.KernelIdeal.Skeleton
import proofs.«401021_j84602265796764_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of node rows is in its staging buffer at every point: fetched there, or left there by the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight is fetched once and stays: its staging buffer holds it at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read and written whole -/

abbrev r3_h : Rect S10000x64 := Rect.unit (s := S10000x64) ![0, 0] S10000x64.size inb_S10000x64_S10000x64_0_0
abbrev r3_w : Rect S64x64 := Rect.unit (s := S64x64) ![0, 0] S64x64.size inb_S64x64_S64x64_0_0

/-- The output block after the body: the product of the node block and the weight, stored over the whole buffer. -/
def out3_2 (x0 : Vec F S10000x64 .f32) (x1 : Vec F S64x64 .f32) : Vec F S10000x64 .f32 :=
  View.canon [⟨r3_h, k3_pay1 (View.ld x0 r3_h) (View.ld x1 r3_w)⟩]

/-- The one store covers the buffer. -/
theorem cover3_2 (p0 : Vec F S10000x64 .f32) (y : S10000x64.Idx) :
    ∃ pc ∈ ([⟨r3_h, p0⟩] : List (View.Piece (Elt F) S10000x64 .f32)), y ∈ pc.1.set :=
  View.cover_of_tiled [⟨r3_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel3 (c : Dev nD) (E : Set ℕ) (i : grid3.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at a point each input's buffer at its block, the output's at the
    product of the two blocks; nothing owed, full shares, the invariant untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is handed at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIBody4.lean ====
/-
  Layer 2's dense product h · W, one block of 10000 node rows per grid point (10 points).

  At a point the body reads its block of h (10000 rows of 64) and the whole 64 × 64 weight, multiplies them into a zero
  accumulator and stores the product over the whole output block. Stated here, for any contents of the buffers at entry:
  what each window's staging buffer holds around the body (the inputs their blocks of the arrays, the output the product of
  those blocks), that the body run on such buffers leaves exactly that, and the pipeline's obligation at every point.
-/
import proofs.«401021_j84602265796764_3_alg».proof.Proof.Gen.KernelIdeal.Launch
import proofs.«401021_j84602265796764_3_alg».proof.Proof.Gen.KernelIdeal.Skeleton
import proofs.«401021_j84602265796764_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of node rows is in its staging buffer at every point: fetched there, or left there by the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight is fetched once and stays: its staging buffer holds it at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read and written whole -/

abbrev r4_h : Rect S10000x64 := Rect.unit (s := S10000x64) ![0, 0] S10000x64.size inb_S10000x64_S10000x64_0_0
abbrev r4_w : Rect S64x64 := Rect.unit (s := S64x64) ![0, 0] S64x64.size inb_S64x64_S64x64_0_0

/-- The output block after the body: the product of the node block and the weight, stored over the whole buffer. -/
def out4_2 (x0 : Vec F S10000x64 .f32) (x1 : Vec F S64x64 .f32) : Vec F S10000x64 .f32 :=
  View.canon [⟨r4_h, k4_pay1 (View.ld x0 r4_h) (View.ld x1 r4_w)⟩]

/-- The one store covers the buffer. -/
theorem cover4_2 (p0 : Vec F S10000x64 .f32) (y : S10000x64.Idx) :
    ∃ pc ∈ ([⟨r4_h, p0⟩] : List (View.Piece (Elt F) S10000x64 .f32)), y ∈ pc.1.set :=
  View.cover_of_tiled [⟨r4_h, p0⟩] S10000x64.size (by rfl) y

/-! ## The body's run -/

set_option maxHeartbeats 1000000 in
/-- On whole staging buffers, the inputs holding `x0` and `x1` and the output anything, the body runs to the end, leaves
    the inputs as they were and the output at the product. -/
theorem sound_kernel4 (c : Dev nD) (E : Set ℕ) (i : grid4.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_matmul_kernel i arg1 harg1 arg2 harg2 arg3 harg3) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the region finds them; after the body at a point each input's buffer at its block, the output's at the
    product of the two blocks; nothing owed, full shares, the invariant untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is handed at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIRun.lean ====
/-
  The whole program as a chain of segments: stretches of host operations and the five kernel regions, in @main's order.

  Between two segments a core holds every unscoped buffer at known contents: the launch contents, then each host stretch's
  operations applied, then, after a region, the region's output arrays at what its write-backs leave (`outs`) and every other
  buffer unchanged. Each region's proof data is stated at the contents the region is entered from, which depend only on the
  regions before it, so `outs` is built region by region. The run ends with every unscoped buffer at the last contents; the
  argument arrays among them are as launched, and the result buffer holds the last stretch's value.
-/
import proofs.«401021_j84602265796764_3_alg».proof.Proof.KIBody0
import proofs.«401021_j84602265796764_3_alg».proof.Proof.KIBody1
import proofs.«401021_j84602265796764_3_alg».proof.Proof.KIBody2
import proofs.«401021_j84602265796764_3_alg».proof.Proof.KIBody3
import proofs.«401021_j84602265796764_3_alg».proof.Proof.KIBody4
import proofs.«401021_j84602265796764_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave, region by region -/

/-- The buffers region 0 is entered from (they depend on no region). -/
abbrev U1 (c : Dev nD) (b : Ref sig .tc) : Buf (Elt F) ((c : Thread nD τ).loc b) := V1 m c b
/-- After region 0: its arrays at what the pipeline leaves, every other buffer as entered. -/
def X2 (c : Dev nD) : Valuation τ sig (Elt F) :=
  Pipeline.withArrays spec0 c (V1 m c) fun w => (dat0 (U1 m) c).arrAt w cfg0.N
/-- The regions' outputs so far: region 0's. -/
def o2 : Outs (F := F) := fun _ r c => X2 m c r

abbrev U5 (c : Dev nD) (b : Ref sig .tc) : Buf (Elt F) ((c : Thread nD τ).loc b) := V5 m (o2 m) c b
def X6 (c : Dev nD) : Valuation τ sig (Elt F) :=
  Pipeline.withArrays spec1 c (V5 m (o2 m) c) fun w => (dat1 (U5 m) c).arrAt w cfg1.N
def o6 : Outs (F := F) := fun J r c => if J < 6 then o2 m J r c else X6 m c r

abbrev U7 (c : Dev nD) (b : Ref sig .tc) : Buf (Elt F) ((c : Thread nD τ).loc b) := V7 m (o6 m) c b
def X8 (c : Dev nD) : Valuation τ sig (Elt F) :=
  Pipeline.withArrays spec2 c (V7 m (o6 m) c) fun w => (dat2 (U7 m) c).arrAt w cfg2.N
def o8 : Outs (F := F) := fun J r c => if J < 8 then o6 m J r c else X8 m c r

abbrev U12 (c : Dev nD) (b : Ref sig .tc) : Buf (Elt F) ((c : Thread nD τ).loc b) := V12 m (o8 m) c b
def X13 (c : Dev nD) : Valuation τ sig (Elt F) :=
  Pipeline.withArrays spec3 c (V12 m (o8 m) c) fun w => (dat3 (U12 m) c).arrAt w cfg3.N
def o13 : Outs (F := F) := fun J r c => if J < 13 then o8 m J r c else X13 m c r

abbrev U17 (c : Dev nD) (b : Ref sig .tc) : Buf (Elt F) ((c : Thread nD τ).loc b) := V17 m (o13 m) c b
def X18 (c : Dev nD) : Valuation τ sig (Elt F) :=
  Pipeline.withArrays spec4 c (V17 m (o13 m) c) fun w => (dat4 (U17 m) c).arrAt w cfg4.N
/-- What every region leaves. -/
def outs : Outs (F := F) := fun J r c => if J < 18 then o13 m J r c else X18 m c r

theorem outs_2 (r : Ref sig .tc) (c : Dev nD) : outs m 2 r c = X2 m c r := rfl
theorem outs_6 (r : Ref sig .tc) (c : Dev nD) : outs m 6 r c = X6 m c r := rfl
theorem outs_8 (r : Ref sig .tc) (c : Dev nD) : outs m 8 r c = X8 m c r := rfl
theorem outs_13 (r : Ref sig .tc) (c : Dev nD) : outs m 13 r c = X13 m c r := rfl
theorem outs_18 (r : Ref sig .tc) (c : Dev nD) : outs m 18 r c = X18 m c r := rfl

/-- The contents a region is entered from read only the regions before it. -/
theorem V5_outs (c : Dev nD) : V5 m (outs m) c = V5 m (o2 m) c := rfl
theorem V7_outs (c : Dev nD) : V7 m (outs m) c = V7 m (o6 m) c := rfl
theorem V12_outs (c : Dev nD) : V12 m (outs m) c = V12 m (o8 m) c := rfl
theorem V17_outs (c : Dev nD) : V17 m (outs m) c = V17 m (o13 m) c := rfl

/-- The contents after each region, read at the TensorCore's references. -/
abbrev U2' (c : Dev nD) (b : Ref sig .tc) : Buf (Elt F) ((c : Thread nD τ).loc b) := V2 m (outs m) c b
abbrev U6' (c : Dev nD) (b : Ref sig .tc) : Buf (Elt F) ((c : Thread nD τ).loc b) := V6 m (outs m) c b
abbrev U8' (c : Dev nD) (b : Ref sig .tc) : Buf (Elt F) ((c : Thread nD τ).loc b) := V8 m (outs m) c b
abbrev U13' (c : Dev nD) (b : Ref sig .tc) : Buf (Elt F) ((c : Thread nD τ).loc b) := V13 m (outs m) c b
abbrev U18' (c : Dev nD) (b : Ref sig .tc) : Buf (Elt F) ((c : Thread nD τ).loc b) := V18 m (outs m) c b

/-! ## The proof data family and what rides along -/

/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U5 m) c
  | ⟨2, _⟩ => fun c => dat2 (U7 m) c
  | ⟨3, _⟩ => fun c => dat3 (U12 m) c
  | ⟨4, _⟩ => fun c => dat4 (U17 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
abbrev Efam : Fin 6 → Dev nD → sProp 𝕄 := fun _ c => R c

/-! ## Region 0 -/

/-- What the region leaves, read at a window's array. -/
theorem X2_arr (c : Dev nD) (w : Fin cfg0.W) :
    X2 m c (Proc.devRef .tc (Pipeline.arrRef spec0 w)) = (dat0 (U1 m) c).arrAt w cfg0.N := by
  unfold X2; exact Pipeline.withArrays_arr spec0 launch0.win.arr_inj c _ _ w

/-- After region 0 the buffer `main_v7_0` holds what the region's write-backs leave in it. -/
theorem V2_main_v7_0 (c : Dev nD) : V2 m (outs m) c main_v7_0 = X2 m c main_v7_0 := by
  simp only [V2, Function.update_self, Function.update_of_ne (StableHlo.devRef_ne_of_ne (by decide) : (Proc.devRef .tc main_v7_0 : DevRef τ sig) ≠ Proc.devRef .tc main_v7_1), Function.update_of_ne (StableHlo.devRef_ne_of_ne (by decide) : (Proc.devRef .tc main_v7_0 : DevRef τ sig) ≠ Proc.devRef .tc main_v7_2), outs_2]
/-- After region 0 the buffer `main_v7_1` holds what the region's write-backs leave in it. -/
theorem V2_main_v7_1 (c : Dev nD) : V2 m (outs m) c main_v7_1 = X2 m c main_v7_1 := by
  simp only [V2, Function.update_self, Function.update_of_ne (StableHlo.devRef_ne_of_ne (by decide) : (Proc.devRef .tc main_v7_1 : DevRef τ sig) ≠ Proc.devRef .tc main_v7_0), Function.update_of_ne (StableHlo.devRef_ne_of_ne (by decide) : (Proc.devRef .tc main_v7_1 : DevRef τ sig) ≠ Proc.devRef .tc main_v7_2), outs_2]
/-- After region 0 the buffer `main_v7_2` holds what the region's write-backs leave in it. -/
theorem V2_main_v7_2 (c : Dev nD) : V2 m (outs m) c main_v7_2 = X2 m c main_v7_2 := by
  simp only [V2, Function.update_self, Function.update_of_ne (StableHlo.devRef_ne_of_ne (by decide) : (Proc.devRef .tc main_v7_2 : DevRef τ sig) ≠ Proc.devRef .tc main_v7_0), Function.update_of_ne (StableHlo.devRef_ne_of_ne (by decide) : (Proc.devRef .tc main_v7_2 : DevRef τ sig) ≠ Proc.devRef .tc main_v7_1), outs_2]

/-- Region 0 changes none of the other buffers. -/
theorem V2_keeps (c : Dev nD) (b : Ref sig .tc) (h : b ∉ ([main_v7_0, main_v7_1, main_v7_2] : List (Ref sig .tc))) : V2 m (outs m) c b = U1 m c b :=
  V2_of m (outs m) c b h

set_option maxHeartbeats 4000000 in
/-- At the region's exit each of its arrays holds what the pipeline leaves in it: an input as entered, an output its write-backs. -/
theorem hF0 (c : Dev nD) (w : Fin cfg0.W) : (dat0 (U1 m) c).arrAt w cfg0.N = V2 m (outs m) c (Pipeline.arrRef spec0 w) := by
  match w with
  | ⟨0, _⟩ => exact ((dat0 (U1 m) c).arrAt_in 0 rfl _).trans ((A_eq0 (U1 m) c 0).trans (V2_keeps m c _ (by decide)).symm)
  | ⟨1, _⟩ => exact ((dat0 (U1 m) c).arrAt_in 1 rfl _).trans ((A_eq0 (U1 m) c 1).trans (V2_keeps m c _ (by decide)).symm)
  | ⟨2, _⟩ => exact ((dat0 (U1 m) c).arrAt_in 2 rfl _).trans ((A_eq0 (U1 m) c 2).trans (V2_keeps m c _ (by decide)).symm)
  | ⟨3, _⟩ => exact ((dat0 (U1 m) c).arrAt_in 3 rfl _).trans ((A_eq0 (U1 m) c 3).trans (V2_keeps m c _ (by decide)).symm)
  | ⟨4, _⟩ => exact ((dat0 (U1 m) c).arrAt_in 4 rfl _).trans ((A_eq0 (U1 m) c 4).trans (V2_keeps m c _ (by decide)).symm)
  | ⟨5, _⟩ => exact ((V2_main_v7_0 m c).trans (X2_arr m c 5)).symm
  | ⟨6, _⟩ => exact ((V2_main_v7_1 m c).trans (X2_arr m c 6)).symm
  | ⟨7, _⟩ => exact ((V2_main_v7_2 m c).trans (X2_arr m c 7)).symm

/-- Every buffer that is none of the region's arrays is as entered. -/
theorem hrest0 (c : Dev nD) : ∀ b, b ∉ Finset.univ.image (Pipeline.arrRef spec0) → V2 m (outs m) c b = U1 m c b :=
  fun b hb => V2_keeps m c b fun hmem => by
    simp only [List.mem_cons, List.mem_singleton, List.not_mem_nil, or_false] at hmem
    rcases hmem with h | h | h
    · subst h; exact hb (Finset.mem_image.mpr ⟨5, Finset.mem_univ _, rfl⟩)
    · subst h; exact hb (Finset.mem_image.mpr ⟨6, Finset.mem_univ _, rfl⟩)
    · subst h; exact hb (Finset.mem_image.mpr ⟨7, Finset.mem_univ _, rfl⟩)

set_option backward.isDefEq.respectTransparency.types false in
/-- Region 0 as a segment: entered from every unscoped buffer at the contents before it, left at the contents after it; its
    arrays split out of the unscoped buffers and put back; the generator register passes through the invariant; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- What the region leaves, read at a window's array. -/
theorem X6_arr (c : Dev nD) (w : Fin cfg1.W) :
    X6 m c (Proc.devRef .tc (Pipeline.arrRef spec1 w)) = (dat1 (U5 m) c).arrAt w cfg1.N := by
  unfold X6; exact Pipeline.withArrays_arr spec1 launch1.win.arr_inj c _ _ w

/-- After region 1 the buffer `main_v14` holds what the region's write-backs leave in it. -/
theorem V6_main_v14 (c : Dev nD) : V6 m (outs m) c main_v14 = X6 m c main_v14 := by
  simp only [V6, Function.update_self, outs_6]

/-- Region 1 changes none of the other buffers. -/
theorem V6_keeps (c : Dev nD) (b : Ref sig .tc) (h : b ∉ ([main_v14] : List (Ref sig .tc))) : V6 m (outs m) c b = U5 m c b :=
  (V6_of m (outs m) c b h).trans (congrFun (V5_outs m c) b)

set_option maxHeartbeats 4000000 in
/-- At the region's exit each of its arrays holds what the pipeline leaves in it: an input as entered, an output its write-backs. -/
theorem hF1 (c : Dev nD) (w : Fin cfg1.W) : (dat1 (U5 m) c).arrAt w cfg1.N = V6 m (outs m) c (Pipeline.arrRef spec1 w) := by
  match w with
  | ⟨0, _⟩ => exact ((dat1 (U5 m) c).arrAt_in 0 rfl _).trans ((A_eq1 (U5 m) c 0).trans (V6_keeps m c _ (by decide)).symm)
  | ⟨1, _⟩ => exact ((dat1 (U5 m) c).arrAt_in 1 rfl _).trans ((A_eq1 (U5 m) c 1).trans (V6_keeps m c _ (by decide)).symm)
  | ⟨2, _⟩ => exact ((dat1 (U5 m) c).arrAt_in 2 rfl _).trans ((A_eq1 (U5 m) c 2).trans (V6_keeps m c _ (by decide)).symm)
  | ⟨3, _⟩ => exact ((dat1 (U5 m) c).arrAt_in 3 rfl _).trans ((A_eq1 (U5 m) c 3).trans (V6_keeps m c _ (by decide)).symm)
  | ⟨4, _⟩ => exact ((dat1 (U5 m) c).arrAt_in 4 rfl _).trans ((A_eq1 (U5 m) c 4).trans (V6_keeps m c _ (by decide)).symm)
  | ⟨5, _⟩ => exact ((V6_main_v14 m c).trans (X6_arr m c 5)).symm

/-- Every buffer that is none of the region's arrays is as entered. -/
theorem hrest1 (c : Dev nD) : ∀ b, b ∉ Finset.univ.image (Pipeline.arrRef spec1) → V6 m (outs m) c b = U5 m c b :=
  fun b hb => V6_keeps m c b fun hmem => by
    simp only [List.mem_singleton] at hmem
    subst hmem; exact hb (Finset.mem_image.mpr ⟨5, Finset.mem_univ _, rfl⟩)

set_option backward.isDefEq.respectTransparency.types false in
/-- Region 1 as a segment: entered from every unscoped buffer at the contents before it, left at the contents after it; its
    arrays split out of the unscoped buffers and put back; the generator register passes through the invariant; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none, V5_outs m c]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- What the region leaves, read at a window's array. -/
theorem X8_arr (c : Dev nD) (w : Fin cfg2.W) :
    X8 m c (Proc.devRef .tc (Pipeline.arrRef spec2 w)) = (dat2 (U7 m) c).arrAt w cfg2.N := by
  unfold X8; exact Pipeline.withArrays_arr spec2 launch2.win.arr_inj c _ _ w

/-- After region 2 the buffer `main_v18` holds what the region's write-backs leave in it. -/
theorem V8_main_v18 (c : Dev nD) : V8 m (outs m) c main_v18 = X8 m c main_v18 := by
  simp only [V8, Function.update_self, outs_8]

/-- Region 2 changes none of the other buffers. -/
theorem V8_keeps (c : Dev nD) (b : Ref sig .tc) (h : b ∉ ([main_v18] : List (Ref sig .tc))) : V8 m (outs m) c b = U7 m c b :=
  (V8_of m (outs m) c b h).trans (congrFun (V7_outs m c) b)

set_option maxHeartbeats 4000000 in
/-- At the region's exit each of its arrays holds what the pipeline leaves in it: an input as entered, an output its write-backs. -/
theorem hF2 (c : Dev nD) (w : Fin cfg2.W) : (dat2 (U7 m) c).arrAt w cfg2.N = V8 m (outs m) c (Pipeline.arrRef spec2 w) := by
  match w with
  | ⟨0, _⟩ => exact ((dat2 (U7 m) c).arrAt_in 0 rfl _).trans ((A_eq2 (U7 m) c 0).trans (V8_keeps m c _ (by decide)).symm)
  | ⟨1, _⟩ => exact ((dat2 (U7 m) c).arrAt_in 1 rfl _).trans ((A_eq2 (U7 m) c 1).trans (V8_keeps m c _ (by decide)).symm)
  | ⟨2, _⟩ => exact ((V8_main_v18 m c).trans (X8_arr m c 2)).symm

/-- Every buffer that is none of the region's arrays is as entered. -/
theorem hrest2 (c : Dev nD) : ∀ b, b ∉ Finset.univ.image (Pipeline.arrRef spec2) → V8 m (outs m) c b = U7 m c b :=
  fun b hb => V8_keeps m c b fun hmem => by
    simp only [List.mem_singleton] at hmem
    subst hmem; exact hb (Finset.mem_image.mpr ⟨2, Finset.mem_univ _, rfl⟩)

set_option backward.isDefEq.respectTransparency.types false in
/-- Region 2 as a segment: entered from every unscoped buffer at the contents before it, left at the contents after it; its
    arrays split out of the unscoped buffers and put back; the generator register passes through the invariant; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none, V7_outs m c]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- What the region leaves, read at a window's array. -/
theorem X13_arr (c : Dev nD) (w : Fin cfg3.W) :
    X13 m c (Proc.devRef .tc (Pipeline.arrRef spec3 w)) = (dat3 (U12 m) c).arrAt w cfg3.N := by
  unfold X13; exact Pipeline.withArrays_arr spec3 launch3.win.arr_inj c _ _ w

/-- After region 3 the buffer `main_v34` holds what the region's write-backs leave in it. -/
theorem V13_main_v34 (c : Dev nD) : V13 m (outs m) c main_v34 = X13 m c main_v34 := by
  simp only [V13, Function.update_self, outs_13]

/-- Region 3 changes none of the other buffers. -/
theorem V13_keeps (c : Dev nD) (b : Ref sig .tc) (h : b ∉ ([main_v34] : List (Ref sig .tc))) : V13 m (outs m) c b = U12 m c b :=
  (V13_of m (outs m) c b h).trans (congrFun (V12_outs m c) b)

set_option maxHeartbeats 4000000 in
/-- At the region's exit each of its arrays holds what the pipeline leaves in it: an input as entered, an output its write-backs. -/
theorem hF3 (c : Dev nD) (w : Fin cfg3.W) : (dat3 (U12 m) c).arrAt w cfg3.N = V13 m (outs m) c (Pipeline.arrRef spec3 w) := by
  match w with
  | ⟨0, _⟩ => exact ((dat3 (U12 m) c).arrAt_in 0 rfl _).trans ((A_eq3 (U12 m) c 0).trans (V13_keeps m c _ (by decide)).symm)
  | ⟨1, _⟩ => exact ((dat3 (U12 m) c).arrAt_in 1 rfl _).trans ((A_eq3 (U12 m) c 1).trans (V13_keeps m c _ (by decide)).symm)
  | ⟨2, _⟩ => exact ((V13_main_v34 m c).trans (X13_arr m c 2)).symm

/-- Every buffer that is none of the region's arrays is as entered. -/
theorem hrest3 (c : Dev nD) : ∀ b, b ∉ Finset.univ.image (Pipeline.arrRef spec3) → V13 m (outs m) c b = U12 m c b :=
  fun b hb => V13_keeps m c b fun hmem => by
    simp only [List.mem_singleton] at hmem
    subst hmem; exact hb (Finset.mem_image.mpr ⟨2, Finset.mem_univ _, rfl⟩)

set_option backward.isDefEq.respectTransparency.types false in
/-- Region 3 as a segment: entered from every unscoped buffer at the contents before it, left at the contents after it; its
    arrays split out of the unscoped buffers and put back; the generator register passes through the invariant; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U12 m) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (U12 m c)
  hentry c := by
    rw [Pipeline.ownSems0_none, V12_outs m c]
    have hsplit := Pipeline.arrays_of_unscopedBufs (p := 3) (pcfgs (F := F)) adm (pdats m) launch3.win launch3.arr_whole c
      ((pdats m 3 c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U12 m c) (U13' m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- What the region leaves, read at a window's array. -/
theorem X18_arr (c : Dev nD) (w : Fin cfg4.W) :
    X18 m c (Proc.devRef .tc (Pipeline.arrRef spec4 w)) = (dat4 (U17 m) c).arrAt w cfg4.N := by
  unfold X18; exact Pipeline.withArrays_arr spec4 launch4.win.arr_inj c _ _ w

/-- After region 4 the buffer `main_v50` holds what the region's write-backs leave in it. -/
theorem V18_main_v50 (c : Dev nD) : V18 m (outs m) c main_v50 = X18 m c main_v50 := by
  simp only [V18, Function.update_self, outs_18]

/-- Region 4 changes none of the other buffers. -/
theorem V18_keeps (c : Dev nD) (b : Ref sig .tc) (h : b ∉ ([main_v50] : List (Ref sig .tc))) : V18 m (outs m) c b = U17 m c b :=
  (V18_of m (outs m) c b h).trans (congrFun (V17_outs m c) b)

set_option maxHeartbeats 4000000 in
/-- At the region's exit each of its arrays holds what the pipeline leaves in it: an input as entered, an output its write-backs. -/
theorem hF4 (c : Dev nD) (w : Fin cfg4.W) : (dat4 (U17 m) c).arrAt w cfg4.N = V18 m (outs m) c (Pipeline.arrRef spec4 w) := by
  match w with
  | ⟨0, _⟩ => exact ((dat4 (U17 m) c).arrAt_in 0 rfl _).trans ((A_eq4 (U17 m) c 0).trans (V18_keeps m c _ (by decide)).symm)
  | ⟨1, _⟩ => exact ((dat4 (U17 m) c).arrAt_in 1 rfl _).trans ((A_eq4 (U17 m) c 1).trans (V18_keeps m c _ (by decide)).symm)
  | ⟨2, _⟩ => exact ((V18_main_v50 m c).trans (X18_arr m c 2)).symm

/-- Every buffer that is none of the region's arrays is as entered. -/
theorem hrest4 (c : Dev nD) : ∀ b, b ∉ Finset.univ.image (Pipeline.arrRef spec4) → V18 m (outs m) c b = U17 m c b :=
  fun b hb => V18_keeps m c b fun hmem => by
    simp only [List.mem_singleton] at hmem
    subst hmem; exact hb (Finset.mem_image.mpr ⟨2, Finset.mem_univ _, rfl⟩)

set_option backward.isDefEq.respectTransparency.types false in
/-- Region 4 as a segment: entered from every unscoped buffer at the contents before it, left at the contents after it; its
    arrays split out of the unscoped buffers and put back; the generator register passes through the invariant; nothing owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U17 m) c).loose
  hwaits := Pipeline.hwaits_of_owed_zero _ _ _ _ L lv 4 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec4 c (U17 m c)
  hentry c := by
    rw [Pipeline.ownSems0_none, V17_outs m c]
    have hsplit := Pipeline.arrays_of_unscopedBufs (p := 4) (pcfgs (F := F)) adm (pdats m) launch4.win launch4.arr_whole c
      ((pdats m 4 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U17 m c) (U18' m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting, and every unscoped
    buffer of every core ends at the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V20 m (outs m) c b) := by
  refine Pipeline.θ_run_regions_kit_dev (pcfgs (F := F)) adm (pdats m) () cellOf_inj emb₁ defs₀ 𝒱₀ L lv m ρ main
    (segs m (outs m) 𝒱₀ L lv Efam () (pdats m) (reg0 m) (reg1 m) (reg2 m) (reg3 m) (reg4 m))
    (fun c Q => by
      rewrite [main_chain c, Seg.run_eq_chain,
        show (segs m (outs m) 𝒱₀ L lv Efam () (pdats m) (reg0 m) (reg1 m) (reg2 m) (reg3 m) (reg4 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()),
          StableHlo.seq hostOps5,
          StableHlo.seq hostOps5_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V20 m (outs m) c b)
    (hfin := fun c s' => by
      iintro ⟨Hh, HSI⟩
      unfold StableHlo.held
      imodintro
      iapply (pointsTo_read_all (Pipeline.ucRefs τ sig) (fun b => (((c : Thread nD τ)).1, b)) (V20 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance: @main runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (V20_main_arg0 m (outs m) c),
    (h c _ (mem_uc main_arg1 (by decide))).trans (V20_main_arg1 m (outs m) c),
    (h c _ (mem_uc main_arg2 (by decide))).trans (V20_main_arg2 m (outs m) c),
    (h c _ (mem_uc main_arg3 (by decide))).trans (V20_main_arg3 m (outs m) c),
    (h c _ (mem_uc main_arg4 (by decide))).trans (V20_main_arg4 m (outs m) c),
    (h c _ (mem_uc main_arg5 (by decide))).trans (V20_main_arg5 m (outs m) c),
    (h c _ (mem_uc main_arg6 (by decide))).trans (V20_main_arg6 m (outs m) c),
    (h c _ (mem_uc main_arg7 (by decide))).trans (V20_main_arg7 m (outs m) c),
    (h c _ (mem_uc main_arg8 (by decide))).trans (V20_main_arg8 m (outs m) c),
    (h c _ (mem_uc main_arg9 (by decide))).trans (V20_main_arg9 m (outs m) c)⟩) (run_all m ρ)

end Cert.KernelIdeal.Hand

end
-- ==== Proof.PreFacts.lean ====
/-
  The index range read off the precondition. The precondition is a conjunction, by and over one-bit words, whose last
  two conjuncts are all(edge_index ≥ 0) and all(edge_index < 100000), both comparisons signed over 32-bit words. An
  and of one-bit words is 1 exactly when both are; a reduction by and into the one scalar position that is 1 met a 1 at
  every position of its operand; and a 32-bit word w with 0 ≤ w < 100000 read signed has its top bit clear, so read
  unsigned it is the same number, below 100000.
-/
import proofs.«401021_j84602265796764_3_alg».proof.Pre_finite_inputs
import Idealize.ShloMosaic.Lib.ReduceAll
import Idealize.ShloMosaic.Lib.StableHlo.Predicate

noncomputable section

namespace Cert.PreFacts

open Idealize.ShloMosaic
open Cert.Pre_finite_inputs

/-- The scalar shape has no axes, hence one index. -/
instance subsingleton_scalar_idx : Subsingleton S_.Idx := ⟨fun a b => funext fun d => d.elim0⟩

/-- A 32-bit word w with 0 ≤ w and w < 100000, both read signed, is below 100000 read unsigned: were its top bit set its
    signed value would be negative. -/
theorem toNat_lt_of_signed_range (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have z0 : (0#32 : BitVec 32).toInt = 0 := by decide
  have z1 : (100000#32 : BitVec 32).toInt = 100000 := by decide
  rw [z0] at h0
  rw [z1] at h1
  have hw := w.isLt
  rw [BitVec.toInt_eq_toNat_cond] at h0 h1
  split at h0 <;> omega

/-- Every entry of the edge-index table, read unsigned, is below 100000: the precondition's last two conjuncts at that
    entry. -/
theorem edge_index_lt {F : FTy → Type} [FloatOps F] [Cert.Pre_finite_inputs.Facts]
    (a0 : FVec F S100000x64 .f32) (a1 : IVec S2x1600000 32) (a2 : FVec F S64x64 .f32) (a3 : FVec F S64 .f32)
    (a4 : FVec F S128x64 .f32) (a5 : FVec F S64 .f32) (a6 : FVec F S64x1 .f32) (a7 : FVec F S1 .f32)
    (a8 : FVec F S3x64x64 .f32) (a9 : FVec F S3x64 .f32)
    (h : Cert.Pre_finite_inputs.fn (F := F) a0 a1 a2 a3 a4 a5 a6 a7 a8 a9 = fun _ => 1#1) :
    ∀ i : Cert.Pre_finite_inputs.S2x1600000.Idx, (a1 i).toNat < 100000 := by
  intro i
  have e := congrFun h (fun d => d.elim0)
  dsimp only [Cert.Pre_finite_inputs.fn, Cert.Pre_finite_inputs.fn_part1, Cert.Pre_finite_inputs.fn_part2,
    Cert.Pre_finite_inputs.fn_part3] at e
  obtain ⟨e1, hlt⟩ := IntOp.andi_eq_one.1 e
  obtain ⟨-, hge⟩ := IntOp.andi_eq_one.1 e1
  have g0 := Host.reduce_andi_all _ _ _ _ _ hge i
  have g1 := Host.reduce_andi_all _ _ _ _ _ hlt i
  exact toNat_lt_of_signed_range (a1 i) g0 g1

end Cert.PreFacts

end
-- ==== Proof.BridgeSmall.lean ====
/-
  THE SMALL HOST STRETCHES BETWEEN THE REGIONS: SLICES, RESHAPES AND BROADCASTS OF THE ARGUMENTS.

  Outside its five regions the kernel's program only cuts and relabels its arguments: it takes the two rows of the
  edge table [2, 1600000] apart into the edge sources and the edge targets, cuts the edge scorer's first weight
  [128, 64] into its upper and lower halves, lays the three bias vectors and the scorer's second weight out as rows
  [1, 64] (or as the one entry [1, 1]), flattens the edge mask column [1600000, 1] to a vector, and takes the layer
  weights [3, 64, 64] apart into three [64, 64] matrices. The reference performs the same cuts on the same arguments.

  This module reads each such buffer of the kernel's program, at the place in the program where it is final, either
  as the reference's stage that holds the same array (an equation of whole arrays: both sides are the same cut of
  the same argument), or entry by entry (a relabelling moves no entry: row-major position is kept).

  It also records, for the buffers that later items read, that nothing between the item that wrote them and the item
  that reads them writes them again: a host stretch changes only its own result buffers, a region only its outputs.
-/
import proofs.«401021_j84602265796764_3_alg».proof.Proof.Gen.KernelIdeal.Regions
import proofs.«401021_j84602265796764_3_alg».proof.Proof.Gen.ReferenceIdeal.Read

noncomputable section

namespace Cert.Bridge

open Idealize.ShloMosaic Idealize.ShloMosaic.TcCoe Idealize.ShloMosaic.ValueIdx
open Idealize.ShloMosaic.StableHlo
open Cert.KernelIdeal (nD τ sig main_arg1 main_arg3 main_arg4 main_arg5 main_arg6 main_arg7 main_arg8 main_arg9
  main_v1 main_v3 main_v4 main_v5 main_v6 main_v7_0 main_v11 main_v12 main_v13 main_v14 main_v15 main_v17 main_v31
  main_v33 main_v47 main_v49)
open Cert.KernelIdeal.Gen (Outs V0 V1 V2 V3 V4 V5 V6 V7 V8 V9 V10 V11 V12 V13 V14 V15 V16 V17 V18 V19 V20
  V1_of V2_of V3_of V4_of V5_of V6_of V7_of V8_of V9_of V10_of V11_of V12_of V13_of V14_of V15_of V16_of V17_of
  V18_of V19_of V20_of hostOps0 hostOps1_2 hostOps2 hostOps3_3 hostOps4_3)

variable (m : (ℓ : Loc nD τ sig) → Buf (Elt Ideal) ℓ) (outs : Outs (F := Ideal)) (c : Dev nD)

/-! ## What is written once and read later is not written in between -/

/-! ### The edge sources -/

theorem walk_main_v1_2 : V2 m outs c main_v1 = V1 m c main_v1 :=
  V2_of m outs c main_v1 (by decide)
theorem walk_main_v1_3 : V3 m outs c main_v1 = V1 m c main_v1 :=
  (V3_of m outs c main_v1 (by decide)).trans (walk_main_v1_2 m outs c)
theorem walk_main_v1_8 : V8 m outs c main_v1 = V1 m c main_v1 :=
  (V8_of m outs c main_v1 (by decide)).trans <| (V7_of m outs c main_v1 (by decide)).trans <|
  (V6_of m outs c main_v1 (by decide)).trans <| (V5_of m outs c main_v1 (by decide)).trans <|
  (V4_of m outs c main_v1 (by decide)).trans (walk_main_v1_3 m outs c)
theorem walk_main_v1_9 : V9 m outs c main_v1 = V1 m c main_v1 :=
  (V9_of m outs c main_v1 (by decide)).trans (walk_main_v1_8 m outs c)
theorem walk_main_v1_13 : V13 m outs c main_v1 = V1 m c main_v1 :=
  (V13_of m outs c main_v1 (by decide)).trans <| (V12_of m outs c main_v1 (by decide)).trans <|
  (V11_of m outs c main_v1 (by decide)).trans <| (V10_of m outs c main_v1 (by decide)).trans
  (walk_main_v1_9 m outs c)
theorem walk_main_v1_14 : V14 m outs c main_v1 = V1 m c main_v1 :=
  (V14_of m outs c main_v1 (by decide)).trans (walk_main_v1_13 m outs c)
theorem walk_main_v1_18 : V18 m outs c main_v1 = V1 m c main_v1 :=
  (V18_of m outs c main_v1 (by decide)).trans <| (V17_of m outs c main_v1 (by decide)).trans <|
  (V16_of m outs c main_v1 (by decide)).trans <| (V15_of m outs c main_v1 (by decide)).trans
  (walk_main_v1_14 m outs c)
theorem walk_main_v1_19 : V19 m outs c main_v1 = V1 m c main_v1 :=
  (V19_of m outs c main_v1 (by decide)).trans (walk_main_v1_18 m outs c)

/-! ### The edge targets -/

theorem walk_main_v3_3 : V3 m outs c main_v3 = V1 m c main_v3 :=
  (V3_of m outs c main_v3 (by decide)).trans (V2_of m outs c main_v3 (by decide))
theorem walk_main_v3_4 : V4 m outs c main_v3 = V1 m c main_v3 :=
  (V4_of m outs c main_v3 (by decide)).trans (walk_main_v3_3 m outs c)
theorem walk_main_v3_9 : V9 m outs c main_v3 = V1 m c main_v3 :=
  (V9_of m outs c main_v3 (by decide)).trans <| (V8_of m outs c main_v3 (by decide)).trans <|
  (V7_of m outs c main_v3 (by decide)).trans <| (V6_of m outs c main_v3 (by decide)).trans <|
  (V5_of m outs c main_v3 (by decide)).trans (walk_main_v3_4 m outs c)
theorem walk_main_v3_10 : V10 m outs c main_v3 = V1 m c main_v3 :=
  (V10_of m outs c main_v3 (by decide)).trans (walk_main_v3_9 m outs c)
theorem walk_main_v3_14 : V14 m outs c main_v3 = V1 m c main_v3 :=
  (V14_of m outs c main_v3 (by decide)).trans <| (V13_of m outs c main_v3 (by decide)).trans <|
  (V12_of m outs c main_v3 (by decide)).trans <| (V11_of m outs c main_v3 (by decide)).trans
  (walk_main_v3_10 m outs c)
theorem walk_main_v3_15 : V15 m outs c main_v3 = V1 m c main_v3 :=
  (V15_of m outs c main_v3 (by decide)).trans (walk_main_v3_14 m outs c)
theorem walk_main_v3_19 : V19 m outs c main_v3 = V1 m c main_v3 :=
  (V19_of m outs c main_v3 (by decide)).trans <| (V18_of m outs c main_v3 (by decide)).trans <|
  (V17_of m outs c main_v3 (by decide)).trans <| (V16_of m outs c main_v3 (by decide)).trans
  (walk_main_v3_15 m outs c)
theorem walk_main_v3_20 : V20 m outs c main_v3 = V1 m c main_v3 :=
  (V20_of m outs c main_v3 (by decide)).trans (walk_main_v3_19 m outs c)

/-! ### The flat edge mask -/

theorem walk_main_v15_9 : V9 m outs c main_v15 = V7 m outs c main_v15 :=
  (V9_of m outs c main_v15 (by decide)).trans (V8_of m outs c main_v15 (by decide))
theorem walk_main_v15_10 : V10 m outs c main_v15 = V7 m outs c main_v15 :=
  (V10_of m outs c main_v15 (by decide)).trans (walk_main_v15_9 m outs c)
theorem walk_main_v15_14 : V14 m outs c main_v15 = V7 m outs c main_v15 :=
  (V14_of m outs c main_v15 (by decide)).trans <| (V13_of m outs c main_v15 (by decide)).trans <|
  (V12_of m outs c main_v15 (by decide)).trans <| (V11_of m outs c main_v15 (by decide)).trans
  (walk_main_v15_10 m outs c)
theorem walk_main_v15_15 : V15 m outs c main_v15 = V7 m outs c main_v15 :=
  (V15_of m outs c main_v15 (by decide)).trans (walk_main_v15_14 m outs c)
theorem walk_main_v15_19 : V19 m outs c main_v15 = V7 m outs c main_v15 :=
  (V19_of m outs c main_v15 (by decide)).trans <| (V18_of m outs c main_v15 (by decide)).trans <|
  (V17_of m outs c main_v15 (by decide)).trans <| (V16_of m outs c main_v15 (by decide)).trans
  (walk_main_v15_15 m outs c)
theorem walk_main_v15_20 : V20 m outs c main_v15 = V7 m outs c main_v15 :=
  (V20_of m outs c main_v15 (by decide)).trans (walk_main_v15_19 m outs c)

/-! ### The layer biases, an argument -/

theorem walk_main_arg9_9 : V9 m outs c main_arg9 = m ((c : Thread nD τ).loc main_arg9) :=
  (V9_of m outs c main_arg9 (by decide)).trans <| (V8_of m outs c main_arg9 (by decide)).trans <|
  (V7_of m outs c main_arg9 (by decide)).trans <| (V6_of m outs c main_arg9 (by decide)).trans <|
  (V5_of m outs c main_arg9 (by decide)).trans <| (V4_of m outs c main_arg9 (by decide)).trans <|
  (V3_of m outs c main_arg9 (by decide)).trans <| (V2_of m outs c main_arg9 (by decide)).trans <|
  (V1_of m c main_arg9 (by decide)).trans rfl
theorem walk_main_arg9_14 : V14 m outs c main_arg9 = m ((c : Thread nD τ).loc main_arg9) :=
  (V14_of m outs c main_arg9 (by decide)).trans <| (V13_of m outs c main_arg9 (by decide)).trans <|
  (V12_of m outs c main_arg9 (by decide)).trans <| (V11_of m outs c main_arg9 (by decide)).trans <|
  (V10_of m outs c main_arg9 (by decide)).trans (walk_main_arg9_9 m outs c)
theorem walk_main_arg9_19 : V19 m outs c main_arg9 = m ((c : Thread nD τ).loc main_arg9) :=
  (V19_of m outs c main_arg9 (by decide)).trans <| (V18_of m outs c main_arg9 (by decide)).trans <|
  (V17_of m outs c main_arg9 (by decide)).trans <| (V16_of m outs c main_arg9 (by decide)).trans <|
  (V15_of m outs c main_arg9 (by decide)).trans (walk_main_arg9_14 m outs c)

/-! ### The projected node features the first region leaves -/

theorem walk_main_v7_0_7 : V7 m outs c main_v7_0 = V2 m outs c main_v7_0 :=
  (V7_of m outs c main_v7_0 (by decide)).trans <| (V6_of m outs c main_v7_0 (by decide)).trans <|
  (V5_of m outs c main_v7_0 (by decide)).trans <| (V4_of m outs c main_v7_0 (by decide)).trans
  (V3_of m outs c main_v7_0 (by decide))
theorem walk_main_v7_0_19 : V19 m outs c main_v7_0 = V2 m outs c main_v7_0 :=
  (V19_of m outs c main_v7_0 (by decide)).trans <| (V18_of m outs c main_v7_0 (by decide)).trans <|
  (V17_of m outs c main_v7_0 (by decide)).trans <| (V16_of m outs c main_v7_0 (by decide)).trans <|
  (V15_of m outs c main_v7_0 (by decide)).trans <| (V14_of m outs c main_v7_0 (by decide)).trans <|
  (V13_of m outs c main_v7_0 (by decide)).trans <| (V12_of m outs c main_v7_0 (by decide)).trans <|
  (V11_of m outs c main_v7_0 (by decide)).trans <| (V10_of m outs c main_v7_0 (by decide)).trans <|
  (V9_of m outs c main_v7_0 (by decide)).trans <| (V8_of m outs c main_v7_0 (by decide)).trans
  (walk_main_v7_0_7 m outs c)

/-! ### The first and the second layer's activations -/

theorem walk_main_v31_12 : V12 m outs c main_v31 = V11 m outs c main_v31 :=
  V12_of m outs c main_v31 (by decide)
theorem walk_main_v31_19 : V19 m outs c main_v31 = V11 m outs c main_v31 :=
  (V19_of m outs c main_v31 (by decide)).trans <| (V18_of m outs c main_v31 (by decide)).trans <|
  (V17_of m outs c main_v31 (by decide)).trans <| (V16_of m outs c main_v31 (by decide)).trans <|
  (V15_of m outs c main_v31 (by decide)).trans <| (V14_of m outs c main_v31 (by decide)).trans <|
  (V13_of m outs c main_v31 (by decide)).trans (walk_main_v31_12 m outs c)
theorem walk_main_v47_17 : V17 m outs c main_v47 = V16 m outs c main_v47 :=
  V17_of m outs c main_v47 (by decide)
theorem walk_main_v47_19 : V19 m outs c main_v47 = V16 m outs c main_v47 :=
  (V19_of m outs c main_v47 (by decide)).trans <| (V18_of m outs c main_v47 (by decide)).trans
  (walk_main_v47_17 m outs c)

/-! ### The other arguments the later stretches cut -/

theorem walk_main_arg8_6 : V6 m outs c main_arg8 = m ((c : Thread nD τ).loc main_arg8) :=
  (V6_of m outs c main_arg8 (by decide)).trans <| (V5_of m outs c main_arg8 (by decide)).trans <|
  (V4_of m outs c main_arg8 (by decide)).trans <| (V3_of m outs c main_arg8 (by decide)).trans <|
  (V2_of m outs c main_arg8 (by decide)).trans <| (V1_of m c main_arg8 (by decide)).trans rfl
theorem walk_main_arg8_11 : V11 m outs c main_arg8 = m ((c : Thread nD τ).loc main_arg8) :=
  (V11_of m outs c main_arg8 (by decide)).trans <| (V10_of m outs c main_arg8 (by decide)).trans <|
  (V9_of m outs c main_arg8 (by decide)).trans <| (V8_of m outs c main_arg8 (by decide)).trans <|
  (V7_of m outs c main_arg8 (by decide)).trans (walk_main_arg8_6 m outs c)
theorem walk_main_arg8_16 : V16 m outs c main_arg8 = m ((c : Thread nD τ).loc main_arg8) :=
  (V16_of m outs c main_arg8 (by decide)).trans <| (V15_of m outs c main_arg8 (by decide)).trans <|
  (V14_of m outs c main_arg8 (by decide)).trans <| (V13_of m outs c main_arg8 (by decide)).trans <|
  (V12_of m outs c main_arg8 (by decide)).trans (walk_main_arg8_11 m outs c)
theorem walk_main_arg5_4 : V4 m outs c main_arg5 = m ((c : Thread nD τ).loc main_arg5) :=
  (V4_of m outs c main_arg5 (by decide)).trans <| (V3_of m outs c main_arg5 (by decide)).trans <|
  (V2_of m outs c main_arg5 (by decide)).trans <| (V1_of m c main_arg5 (by decide)).trans rfl
theorem walk_main_arg6_4 : V4 m outs c main_arg6 = m ((c : Thread nD τ).loc main_arg6) :=
  (V4_of m outs c main_arg6 (by decide)).trans <| (V3_of m outs c main_arg6 (by decide)).trans <|
  (V2_of m outs c main_arg6 (by decide)).trans <| (V1_of m c main_arg6 (by decide)).trans rfl
theorem walk_main_arg7_4 : V4 m outs c main_arg7 = m ((c : Thread nD τ).loc main_arg7) :=
  (V4_of m outs c main_arg7 (by decide)).trans <| (V3_of m outs c main_arg7 (by decide)).trans <|
  (V2_of m outs c main_arg7 (by decide)).trans <| (V1_of m c main_arg7 (by decide)).trans rfl

/-! ## The cuts of the first stretch, as the reference's stages -/

/-- The edge sources: row 0 of the edge table, as a vector. -/
theorem row_eq : V1 m c main_v1
    = Cert.ReferenceIdeal.Read.val_main_v5 (F := Ideal) (m ((c : Thread nD τ).loc main_arg1)) := by
  show StableHlo.after hostOps0 (V0 m c) (Proc.devRef .tc main_v1) = _
  after_results
  unfold Cert.ReferenceIdeal.Read.val_main_v5 Cert.ReferenceIdeal.Read.val_main_v4
  rfl

/-- The edge targets: row 1 of the edge table, as a vector. -/
theorem col_eq : V1 m c main_v3
    = Cert.ReferenceIdeal.Read.val_main_v7 (F := Ideal) (m ((c : Thread nD τ).loc main_arg1)) := by
  show StableHlo.after hostOps0 (V0 m c) (Proc.devRef .tc main_v3) = _
  after_results
  unfold Cert.ReferenceIdeal.Read.val_main_v7 Cert.ReferenceIdeal.Read.val_main_v6
  rfl

/-- The upper half of the edge scorer's first weight. -/
theorem wa_eq : V1 m c main_v4
    = Cert.ReferenceIdeal.Read.val_main_v8 (F := Ideal) (m ((c : Thread nD τ).loc main_arg4)) := by
  show StableHlo.after hostOps0 (V0 m c) (Proc.devRef .tc main_v4) = _
  after_results
  unfold Cert.ReferenceIdeal.Read.val_main_v8
  rfl

/-- The lower half of the edge scorer's first weight. -/
theorem wb_eq : V1 m c main_v5
    = Cert.ReferenceIdeal.Read.val_main_v10 (F := Ideal) (m ((c : Thread nD τ).loc main_arg4)) := by
  show StableHlo.after hostOps0 (V0 m c) (Proc.devRef .tc main_v5) = _
  after_results
  unfold Cert.ReferenceIdeal.Read.val_main_v10
  rfl

/-! ## A vector laid out as a row, a column laid out as a vector: no entry moves -/

/-- A vector of 64 relabelled as a row [1, 64], read at (0, j): entry j. -/
theorem row_of_vec_apply (x : Vec Ideal Cert.KernelIdeal.S64 .f32) (h : Cert.KernelIdeal.S64.ShapeCasts Cert.KernelIdeal.S1x64)
    (j : Fin 64) : shapeCast Cert.KernelIdeal.S1x64 x h (ix2 (0 : Fin 1) j) = x (ix1 j) :=
  shapeCast_apply x h (ix2 (0 : Fin 1) j) (ix1 j)
    (by rewrite [Shape.rowMajor_val_one, Shape.rowMajor_val_two]; show j.val = 0 * 64 + j.val; omega)

/-- A column [64, 1] relabelled as a vector of 64, read at d: entry (d, 0). -/
theorem vec_of_col_apply (x : Vec Ideal Cert.KernelIdeal.S64x1 .f32) (h : Cert.KernelIdeal.S64x1.ShapeCasts Cert.KernelIdeal.S64)
    (d : Fin 64) : shapeCast Cert.KernelIdeal.S64 x h (ix1 d) = x (ix2 d (0 : Fin 1)) :=
  shapeCast_apply x h (ix1 d) (ix2 d (0 : Fin 1))
    (by rewrite [Shape.rowMajor_val_one, Shape.rowMajor_val_two]; show d.val * 1 + 0 = d.val; omega)

/-- The one entry [1] relabelled as [1, 1]. -/
theorem one_of_one_apply (x : Vec Ideal Cert.KernelIdeal.S1 .f32) (h : Cert.KernelIdeal.S1.ShapeCasts Cert.KernelIdeal.S1x1) :
    shapeCast Cert.KernelIdeal.S1x1 x h (ix2 (0 : Fin 1) (0 : Fin 1)) = x (ix1 (0 : Fin 1)) :=
  shapeCast_apply x h (ix2 (0 : Fin 1) (0 : Fin 1)) (ix1 (0 : Fin 1))
    (by rewrite [Shape.rowMajor_val_one, Shape.rowMajor_val_two]; rfl)

/-- A column [1600000, 1] relabelled as a vector, read at e: entry (e, 0). -/
theorem vec_of_edge_col_apply (x : Vec Ideal Cert.KernelIdeal.S1600000x1 .f32)
    (h : Cert.KernelIdeal.S1600000x1.ShapeCasts Cert.KernelIdeal.S1600000) (e : Fin 1600000) :
    shapeCast Cert.KernelIdeal.S1600000 x h (ix1 e) = x (ix2 e (0 : Fin 1)) :=
  shapeCast_apply x h (ix1 e) (ix2 e (0 : Fin 1))
    (by rewrite [Shape.rowMajor_val_one, Shape.rowMajor_val_two]; show e.val * 1 + 0 = e.val; omega)

/-- The first bias, laid out as a row for the first region: entry (0, j) is entry j of the argument. -/
theorem bin_apply (j : Fin 64) :
    (V1 m c main_v6 : Vec Ideal Cert.KernelIdeal.S1x64 .f32) (ix2 (0 : Fin 1) j)
      = (m ((c : Thread nD τ).loc main_arg3) : Vec Ideal Cert.KernelIdeal.S64 .f32) (ix1 j) := by
  have e : (V1 m c main_v6 : Vec Ideal Cert.KernelIdeal.S1x64 .f32)
      = shapeCast Cert.KernelIdeal.S1x64 (m ((c : Thread nD τ).loc main_arg3) : Vec Ideal Cert.KernelIdeal.S64 .f32)
          Cert.KernelIdeal.Gen.shapeCasts_S64_S1x64 := by
    show StableHlo.after hostOps0 (V0 m c) (Proc.devRef .tc main_v6) = _
    after_results
    rfl
  rw [e]
  exact row_of_vec_apply _ _ j

/-- The reference adds the first bias as a broadcast over the rows: entry (r, j) is entry j of the argument. -/
theorem ref_bin_apply (r : Fin 100000) (j : Fin 64) :
    Cert.ReferenceIdeal.Read.val_main_v2 (F := Ideal) (m ((c : Thread nD τ).loc main_arg3)) (ix2 r j)
      = (m ((c : Thread nD τ).loc main_arg3) : Vec Ideal Cert.KernelIdeal.S64 .f32) (ix1 j) := by
  rw [Cert.ReferenceIdeal.Read.val_main_v2_apply, Cert.ReferenceIdeal.Read.val_main_v1_apply]
  refine congrArg _ (funext fun a => ?_)
  match a with
  | ⟨0, _⟩ => rfl

/-! ## The rows the second region reads -/

/-- Whatever the buffers hold before it, the stretch leaves the first bias's buffer relabelled as a row. -/
theorem l1b_of (W : Valuation τ sig (Elt Ideal)) :
    (StableHlo.after hostOps1_2 W (Proc.devRef .tc main_v13) : Vec Ideal Cert.KernelIdeal.S1x64 .f32)
      = shapeCast Cert.KernelIdeal.S1x64 (W (Proc.devRef .tc main_arg5) : Vec Ideal Cert.KernelIdeal.S64 .f32)
          Cert.KernelIdeal.Gen.shapeCasts_S64_S1x64 := by
  after_results
  rfl

/-- The edge scorer's first bias as a row. -/
theorem l1b_apply (d : Fin 64) :
    (V5 m outs c main_v13 : Vec Ideal Cert.KernelIdeal.S1x64 .f32) (ix2 (0 : Fin 1) d)
      = (m ((c : Thread nD τ).loc main_arg5) : Vec Ideal Cert.KernelIdeal.S64 .f32) (ix1 d) := by
  have e : (V5 m outs c main_v13 : Vec Ideal Cert.KernelIdeal.S1x64 .f32)
      = shapeCast Cert.KernelIdeal.S1x64 (m ((c : Thread nD τ).loc main_arg5) : Vec Ideal Cert.KernelIdeal.S64 .f32)
          Cert.KernelIdeal.Gen.shapeCasts_S64_S1x64 :=
    (l1b_of (V4 m outs c)).trans (by rw [walk_main_arg5_4 m outs c])
  rw [e]
  exact row_of_vec_apply _ _ d

/-- Whatever the buffers hold before it, the stretch leaves the second weight's column flattened and laid out as a row. -/
theorem l2w_of (W : Valuation τ sig (Elt Ideal)) :
    (StableHlo.after hostOps1_2 W (Proc.devRef .tc main_v11) : Vec Ideal Cert.KernelIdeal.S1x64 .f32)
      = shapeCast Cert.KernelIdeal.S1x64
          (shapeCast Cert.KernelIdeal.S64 (W (Proc.devRef .tc main_arg6) : Vec Ideal Cert.KernelIdeal.S64x1 .f32)
            Cert.KernelIdeal.Gen.shapeCasts_S64x1_S64)
          Cert.KernelIdeal.Gen.shapeCasts_S64_S1x64 := by
  after_results
  rfl

/-- The edge scorer's second weight, a column [64, 1], flattened and laid out as a row. -/
theorem l2w_apply (d : Fin 64) :
    (V5 m outs c main_v11 : Vec Ideal Cert.KernelIdeal.S1x64 .f32) (ix2 (0 : Fin 1) d)
      = (m ((c : Thread nD τ).loc main_arg6) : Vec Ideal Cert.KernelIdeal.S64x1 .f32) (ix2 d (0 : Fin 1)) := by
  have e : (V5 m outs c main_v11 : Vec Ideal Cert.KernelIdeal.S1x64 .f32)
      = shapeCast Cert.KernelIdeal.S1x64
          (shapeCast Cert.KernelIdeal.S64 (m ((c : Thread nD τ).loc main_arg6) : Vec Ideal Cert.KernelIdeal.S64x1 .f32)
            Cert.KernelIdeal.Gen.shapeCasts_S64x1_S64)
          Cert.KernelIdeal.Gen.shapeCasts_S64_S1x64 :=
    (l2w_of (V4 m outs c)).trans (by rw [walk_main_arg6_4 m outs c])
  rw [e, row_of_vec_apply]
  exact vec_of_col_apply _ _ d

/-- Whatever the buffers hold before it, the stretch leaves the second bias's one entry relabelled as [1, 1]. -/
theorem l2b_of (W : Valuation τ sig (Elt Ideal)) :
    (StableHlo.after hostOps1_2 W (Proc.devRef .tc main_v12) : Vec Ideal Cert.KernelIdeal.S1x1 .f32)
      = shapeCast Cert.KernelIdeal.S1x1 (W (Proc.devRef .tc main_arg7) : Vec Ideal Cert.KernelIdeal.S1 .f32)
          Cert.KernelIdeal.Gen.shapeCasts_S1_S1x1 := by
  after_results
  rfl

/-- The edge scorer's second bias, one entry, as [1, 1]. -/
theorem l2b_apply :
    (V5 m outs c main_v12 : Vec Ideal Cert.KernelIdeal.S1x1 .f32) (ix2 (0 : Fin 1) (0 : Fin 1))
      = (m ((c : Thread nD τ).loc main_arg7) : Vec Ideal Cert.KernelIdeal.S1 .f32) (ix1 (0 : Fin 1)) := by
  have e : (V5 m outs c main_v12 : Vec Ideal Cert.KernelIdeal.S1x1 .f32)
      = shapeCast Cert.KernelIdeal.S1x1 (m ((c : Thread nD τ).loc main_arg7) : Vec Ideal Cert.KernelIdeal.S1 .f32)
          Cert.KernelIdeal.Gen.shapeCasts_S1_S1x1 :=
    (l2b_of (V4 m outs c)).trans (by rw [walk_main_arg7_4 m outs c])
  rw [e]
  exact one_of_one_apply _ _

/-! ## After the second region: the mask as a vector, and the layer weights -/

/-- The edge mask the second region leaves as a column, flattened: entry e is entry (e, 0). -/
theorem mask_flat_apply (e : Fin 1600000) :
    (V7 m outs c main_v15 : Vec Ideal Cert.KernelIdeal.S1600000 .f32) (ix1 e)
      = (V6 m outs c main_v14 : Vec Ideal Cert.KernelIdeal.S1600000x1 .f32) (ix2 e (0 : Fin 1)) := by
  have h : (V7 m outs c main_v15 : Vec Ideal Cert.KernelIdeal.S1600000 .f32)
      = shapeCast Cert.KernelIdeal.S1600000 (V6 m outs c main_v14 : Vec Ideal Cert.KernelIdeal.S1600000x1 .f32)
          Cert.KernelIdeal.Gen.shapeCasts_S1600000x1_S1600000 := by
    show StableHlo.after hostOps2 (V6 m outs c) (Proc.devRef .tc main_v15) = _
    after_results
    rfl
  rw [h]
  exact vec_of_edge_col_apply _ _ e

/-- The first layer's weight: slab 0 of the layer weights, as a matrix. -/
theorem w0_eq : V7 m outs c main_v17
    = Cert.ReferenceIdeal.Read.val_main_v43 (F := Ideal) (m ((c : Thread nD τ).loc main_arg8)) := by
  show StableHlo.after hostOps2 (V6 m outs c) (Proc.devRef .tc main_v17) = _
  after_results
  rw [walk_main_arg8_6 m outs c]
  unfold Cert.ReferenceIdeal.Read.val_main_v43 Cert.ReferenceIdeal.Read.val_main_v42
  rfl

/-- Whatever the buffers hold before it, the stretch cuts slab 1 of the layer weights, as the reference does. -/
theorem w1_of (W : Valuation τ sig (Elt Ideal)) :
    StableHlo.after hostOps3_3 W (Proc.devRef .tc main_v33)
      = Cert.ReferenceIdeal.Read.val_main_v65 (F := Ideal) (W (Proc.devRef .tc main_arg8)) := by
  after_results
  unfold Cert.ReferenceIdeal.Read.val_main_v65 Cert.ReferenceIdeal.Read.val_main_v64
  rfl

/-- The second layer's weight: slab 1. -/
theorem w1_eq : V12 m outs c main_v33
    = Cert.ReferenceIdeal.Read.val_main_v65 (F := Ideal) (m ((c : Thread nD τ).loc main_arg8)) :=
  (w1_of (V11 m outs c)).trans (by rw [walk_main_arg8_11 m outs c])

/-- Whatever the buffers hold before it, the stretch cuts slab 2 of the layer weights, as the reference does. -/
theorem w2_of (W : Valuation τ sig (Elt Ideal)) :
    StableHlo.after hostOps4_3 W (Proc.devRef .tc main_v49)
      = Cert.ReferenceIdeal.Read.val_main_v87 (F := Ideal) (W (Proc.devRef .tc main_arg8)) := by
  after_results
  unfold Cert.ReferenceIdeal.Read.val_main_v87 Cert.ReferenceIdeal.Read.val_main_v86
  rfl

/-- The third layer's weight: slab 2. -/
theorem w2_eq : V17 m outs c main_v49
    = Cert.ReferenceIdeal.Read.val_main_v87 (F := Ideal) (m ((c : Thread nD τ).loc main_arg8)) :=
  (w2_of (V16 m outs c)).trans (by rw [walk_main_arg8_16 m outs c])

end Cert.Bridge
-- ==== Proof.Spec.lean ====
/-
  The one irregular read of this program, as a pure function: the rows of a node array picked by an edge index vector.

  Both programs read, for every edge `e`, the row of a [100000, 64] node array that the edge's index word names. When every
  index word is a node number (below 100000) this read is the same function on both sides, whatever each side does with a
  word that is not one: `rowsAt A idx` is that function, made total by reducing the word modulo the number of nodes.
-/
import Idealize.ShloMosaic.PureOps.Ideal
import Idealize.ShloMosaic.Lib.ValueIdx

noncomputable section

namespace Cert.Spec

open Idealize.ShloMosaic Idealize.ShloMosaic.ValueIdx

/-- Row `e` of the result is row `idx[e]` of `A`. -/
def rowsAt (A : FVec Ideal (⟨2, ![100000, 64]⟩ : Shape) .f32) (idx : IVec (⟨1, ![1600000]⟩ : Shape) 32) :
    FVec Ideal (⟨2, ![1600000, 64]⟩ : Shape) .f32 :=
  fun i => A (ix2 (⟨(idx (ix1 (⟨(i 0).val, (i 0).isLt⟩ : Fin 1600000))).toNat % 100000, Nat.mod_lt _ (by decide)⟩ : Fin 100000)
    (⟨(i 1).val, (i 1).isLt⟩ : Fin 64))

/-- At an edge `e` whose index word is a node number `r`, and a column `j`, it reads `A` at `(r, j)`. -/
theorem rowsAt_apply (A : FVec Ideal (⟨2, ![100000, 64]⟩ : Shape) .f32) (idx : IVec (⟨1, ![1600000]⟩ : Shape) 32)
    (e : Fin 1600000) (j : Fin 64) (r : Fin 100000) (hr : (idx (ix1 e)).toNat = r.val) :
    rowsAt A idx (ix2 e j) = A (ix2 r j) := by
  unfold rowsAt
  refine congrArg A (funext fun a => Fin.ext ?_)
  match a with
  | ⟨0, _⟩ =>
    show (idx (ix1 (⟨e.val, _⟩ : Fin 1600000))).toNat % 100000 = r.val
    rw [show (⟨e.val, e.isLt⟩ : Fin 1600000) = e from rfl, hr]
    exact Nat.mod_eq_of_lt r.isLt
  | ⟨1, _⟩ => rfl

end Cert.Spec

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefGather.lean ====
/-
  THE REFERENCE'S ROW READ A[row], AS A ROW GATHER WHEN THE INDEX WORDS ARE NODE NUMBERS.

  The reference reads, for every edge e, the row of a [100000, 64] node array A that the edge's 32-bit index word
  names. It first wraps a negative word around (a word w that is negative when read signed becomes w + 100000,
  any other word is kept), lays the words out as a column [1600000, 1], and gathers the rows of A at those start
  indices, each read signed and clamped into [0, 99999].

  When every index word, read unsigned, is below 100000 (so below 2^31), each step is the identity on it: the word
  is not negative, so the wrap keeps it; read signed it is its unsigned value; and the clamp leaves a value that is
  already at most 99999. The whole read is then the function "row e of the result is row idx[e] of A".
-/
import proofs.«401021_j84602265796764_3_alg».proof.ReferenceIdeal
import proofs.«401021_j84602265796764_3_alg».proof.Proof.Spec
import proofs.«401021_j84602265796764_3_alg».proof.Proof.LibGatherScatter
import Idealize.ShloMosaic.Lib.Pipeline.Value
import Idealize.ShloMosaic.Lib.StableHlo.Predicate

noncomputable section

namespace Cert.ReferenceIdeal.RefGather

open Cert.ReferenceIdeal Idealize.ShloMosaic Idealize.ShloMosaic.ValueIdx Idealize.ShloMosaic.GatherScatter
open Idealize.ShloMosaic.StableHlo

variable [Facts₀]
open Facts₀

/-! ## One index word -/

/-- A word below 100000 is not negative: the wrap-around of negative words keeps it. -/
theorem wrap_keeps (w : BitVec 32) (hw : w.toNat < 100000) :
    Scalar.select (IntOp.cmpi .slt w 0#32) (IntOp.addi w 100000#32) w = w := by
  have hne : IntOp.cmpi .slt w 0#32 ≠ 1#1 := by
    intro h
    have := (Predicate.slt_iff_toNat (a := w) (b := 0#32) (by omega) (by decide)).mp h
    exact Nat.not_lt_zero _ this
  unfold Scalar.select
  exact if_neg hne

/-- A word below 100000, read signed and clamped into [0, 99999], is its unsigned value. -/
theorem clamp_keeps (w : BitVec 32) (hw : w.toNat < 100000) :
    min w.toInt.toNat (100000 - 1) = w.toNat := by
  rw [Predicate.toInt_eq_toNat_of_lt (a := w) (by omega), Int.toNat_natCast]
  exact Nat.min_eq_left (by omega)

/-! ## The start indices -/

/-- The column of start indices, read at (e, 0): the wrapped word of edge e. -/
theorem start_column_apply (v : IVec S1600000 32) (e : Fin 1600000) :
    broadcastInDim S1600000x1 ![0] bcast_S1600000_S1600000x1_0 v (ix2 e 0) = v (ix1 e) :=
  broadcastInDim_apply _ bcast_S1600000_S1600000x1_0 v (ix2 e 0) (ix1 e) (fun a => match a with
    | ⟨0, _⟩ => by show e.val = if (1600000 : Nat) = 1 then 0 else e.val; rw [if_neg (by decide)])

/-- The wrapped word of edge e, when the edge's word is below 100000, is that word. -/
theorem wrapped_apply (idx : IVec S1600000 32) (e : Fin 1600000) (he : (idx (ix1 e)).toNat < 100000) :
    select (cmpi .slt idx (broadcastInDim S1600000 ![] bcast_S_S1600000 (constantI S_ 32 0#32)))
        (addi idx (broadcastInDim S1600000 ![] bcast_S_S1600000 (constantI S_ 32 100000#32))) idx (ix1 e)
      = idx (ix1 e) :=
  wrap_keeps (idx (ix1 e)) he

/-! ## The gather -/

/-- The printed gather's dimension numbers are those of a gather of rows by a column of indices. -/
theorem gather_dims_eq :
    gather_S100000x64_S1600000x1_S1600000x64_1_0_n_n_0_1_164
      = rowGatherDims 100000 64 1600000 gather_S100000x64_S1600000x1_S1600000x64_1_0_n_n_0_1_164_wf := rfl

/-- THE READ AT (e, j): column j of the row of A that edge e's index word names. -/
theorem gather_rows_apply (A : FVec Ideal S100000x64 .f32) (idx : IVec S1600000 32) (e : Fin 1600000) (j : Fin 64)
    (he : (idx (ix1 e)).toNat < 100000) :
    Host.gather gather_S100000x64_S1600000x1_S1600000x64_1_0_n_n_0_1_164 A
        (broadcastInDim S1600000x1 ![0] bcast_S1600000_S1600000x1_0
          (select (cmpi .slt idx (broadcastInDim S1600000 ![] bcast_S_S1600000 (constantI S_ 32 0#32)))
                  (addi idx (broadcastInDim S1600000 ![] bcast_S_S1600000 (constantI S_ 32 100000#32))) idx)) (ix2 e j)
      = A (ix2 (⟨(idx (ix1 e)).toNat, he⟩ : Fin 100000) j) := by
  rw [gather_dims_eq, rowGather_apply (by decide)]
  refine congrArg A (congrArg (fun r : Fin 100000 => ix2 r j) (Fin.ext ?_))
  show min _ (100000 - 1) = (idx (ix1 e)).toNat
  rw [start_column_apply, wrapped_apply idx e he]
  exact clamp_keeps _ he

/-- THE WHOLE READ: with every index word a node number, the reference's A[idx] is the rows of A at idx. -/
theorem gather_rows (A : FVec Ideal S100000x64 .f32) (idx : IVec S1600000 32)
    (hidx : ∀ e : Fin 1600000, (idx (ix1 e)).toNat < 100000) :
    Host.gather gather_S100000x64_S1600000x1_S1600000x64_1_0_n_n_0_1_164 A
        (broadcastInDim S1600000x1 ![0] bcast_S1600000_S1600000x1_0
          (select (cmpi .slt idx (broadcastInDim S1600000 ![] bcast_S_S1600000 (constantI S_ 32 0#32)))
                  (addi idx (broadcastInDim S1600000 ![] bcast_S_S1600000 (constantI S_ 32 100000#32))) idx))
      = Cert.Spec.rowsAt A idx := by
  funext i
  obtain ⟨e, j, rfl⟩ : ∃ (e : Fin 1600000) (j : Fin 64), i = ix2 e j := ⟨i 0, i 1, eq_ix2 i⟩
  rw [gather_rows_apply A idx e j (hidx e)]
  exact (Cert.Spec.rowsAt_apply A idx e j ⟨(idx (ix1 e)).toNat, hidx e⟩ rfl).symm

end Cert.ReferenceIdeal.RefGather

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.TakeRows.lean ====
/-
  jnp.take ON THE HOST, READ AS A ROW GATHER WHEN THE INDICES ARE IN RANGE.

  Each of the program's five takes is the same 23 operations over its own buffers: the index word wrapped once (a
  negative word has the number of nodes added), the wrapped words laid as a column of start indices, the gather of the
  operand's rows at those starts (each start clamped into the operand), a per-edge flag "0 ≤ wrapped word ≤ 99999"
  reduced by `and` over the unit axis, and a select between the gathered row and a fill value. `takeFn` is that
  composition as one pure function of the operand and the index words, at any float instance, and `run1` … `run5` say
  that each stretch leaves it in its result buffer.

  At an edge whose word is a node number the word is not negative, so wrapping leaves it; it passes both bounds, so the
  flag is 1 and the select takes the gathered row; and the clamp leaves the start index, so the gathered row is the row
  the word names. Hence `takeFn_eq`: when every word is a node number the composition is the row read `Spec.rowsAt`;
  and per stretch `take1`, `take1_1`, `take3`, `take4`, `take5`.
-/
import proofs.«401021_j84602265796764_3_alg».proof.Proof.Gen.KernelIdeal.Launch
import proofs.«401021_j84602265796764_3_alg».proof.Proof.Spec
import proofs.«401021_j84602265796764_3_alg».proof.Proof.LibTRefCast
import proofs.«401021_j84602265796764_3_alg».proof.Proof.LibGatherScatter
import Idealize.ShloMosaic.Lib.StableHlo.Run
import Idealize.ShloMosaic.Lib.StableHlo.Predicate
import Idealize.ShloMosaic.Lib.ValueIdx
import Idealize.ShloMosaic.PureOps.Ideal
import Idealize.ShloMosaic.PureOps.Reduce

noncomputable section

namespace Cert.KernelIdeal.TakeRows

open Idealize.ShloMosaic Idealize.ShloMosaic.ValueIdx
open Cert.KernelIdeal Cert.KernelIdeal.Gen

/-! ## The pure composition -/

/-- The index word wrapped once: a negative word has the number of nodes added. -/
def wrapIdx (idx : IVec S1600000 32) : IVec S1600000 32 :=
  select (cmpi CmpIPredicate.slt idx (broadcastInDim S1600000 ![] bcast_S_S1600000 (constantI S_ 32 0#32)))
    (addi idx (broadcastInDim S1600000 ![] bcast_S_S1600000 (constantI S_ 32 100000#32))) idx

/-- The wrapped words as a column of start indices. -/
def startCol (idx : IVec S1600000 32) : IVec S1600000x1 32 :=
  broadcastInDim S1600000x1 ![0] bcast_S1600000_S1600000x1_0 (wrapIdx idx)

/-- Per edge, whether the wrapped word is a node number: both bounds, reduced by `and` over the unit axis. -/
def inRange (idx : IVec S1600000 32) : IVec S1600000 1 :=
  Host.reduce IntOp.andi
    (andi
      (cmpi CmpIPredicate.sge (startCol idx) (broadcastInDim S1600000x1 ![] bcast_S_S1600000x1 (constantI S_ 32 0#32)))
      (cmpi CmpIPredicate.sle (startCol idx)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `A` taken at the words `idx`: the gathered rows where the wrapped word is in range, the fill value
    elsewhere. -/
def takeFn {F : FTy → Type} [FloatOps F] (A : FVec F S100000x64 .f32) (idx : IVec S1600000 32) : FVec F S1600000x64 .f32 :=
  select (broadcastInDim S1600000x64 ![0] bcast_S1600000_S1600000x64_0 (inRange idx))
    (Host.gather gather_S100000x64_S1600000x1_S1600000x64_1_0_n_n_0_1_164 A (startCol idx))
    (broadcastInDim S1600000x64 ![] bcast_S_S1600000x64 (constant (F := F) S_ FTy.f32 2143289344#32))

/-! ## Reading the pieces at one edge -/

/-- A vector laid as a column reads, at row `e`, the vector at `e`. -/
theorem col_apply {α : Type} (w : (⟨1, ![1600000]⟩ : Shape).Idx → α) (e : Fin 1600000) (z : Fin 1) :
    broadcastInDim (⟨2, ![1600000, 1]⟩ : Shape) ![0] bcast_S1600000_S1600000x1_0 w (ix2 e z) = w (ix1 e) := by
  simp only [broadcastInDim]
  refine congrArg w (funext fun a => ?_)
  match a with
  | ⟨0, _⟩ =>
    apply Fin.ext
    split
    · next h1 => change (1600000 : Nat) = 1 at h1; omega
    · rfl

/-- A vector laid along the rows of a 64-column array reads, at `(e, j)`, the vector at `e`. -/
theorem rows_apply {α : Type} (w : (⟨1, ![1600000]⟩ : Shape).Idx → α) (e : Fin 1600000) (j : Fin 64) :
    broadcastInDim (⟨2, ![1600000, 64]⟩ : Shape) ![0] bcast_S1600000_S1600000x64_0 w (ix2 e j) = w (ix1 e) := by
  simp only [broadcastInDim]
  refine congrArg w (funext fun a => ?_)
  match a with
  | ⟨0, _⟩ =>
    apply Fin.ext
    split
    · next h1 => change (1600000 : Nat) = 1 at h1; omega
    · rfl

/-- A word that is a node number is not negative: wrapping leaves it. -/
theorem wrapIdx_apply (idx : IVec (⟨1, ![1600000]⟩ : Shape) 32) (e : Fin 1600000) (h : (idx (ix1 e)).toNat < 100000) :
    wrapIdx idx (ix1 e) = idx (ix1 e) := by
  show Scalar.select (IntOp.cmpi CmpIPredicate.slt (idx (ix1 e)) 0#32) (IntOp.addi (idx (ix1 e)) 100000#32) (idx (ix1 e))
    = idx (ix1 e)
  have hc : ¬ IntOp.cmpi CmpIPredicate.slt (idx (ix1 e)) 0#32 = 1#1 := fun hc => by
    have h0 := (StableHlo.Predicate.slt_iff_toNat (a := idx (ix1 e)) (b := 0#32) (by omega) (by decide)).1 hc
    exact Nat.not_lt_zero _ h0
  rw [eq_zero_of_ne_one hc, select_zero]

/-- The start index of edge `e` is its word. -/
theorem startCol_apply (idx : IVec (⟨1, ![1600000]⟩ : Shape) 32) (e : Fin 1600000) (z : Fin 1)
    (h : (idx (ix1 e)).toNat < 100000) : startCol idx (ix2 e z) = idx (ix1 e) := by
  unfold startCol
  rw [col_apply, wrapIdx_apply idx e h]

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- The `and` over the unit axis of a column of bits is 1 at an edge whose bit is 1. -/
theorem reduce_unit_one (x : IVec (⟨2, ![1600000, 1]⟩ : Shape) 1) (e : Fin 1600000) (hx : x (ix2 e 0) = 1#1) :
    Host.reduce IntOp.andi x (constantI S_ 1 1#1) reducesTo_S1600000x1_S1600000_d1 h_S_ (ix1 e) = 1#1 := by
  rw [Host.reduce_eq_foldl]
  refine foldl_andi_one x _ _ rfl ?_
  intro i hi
  have hd : reducesTo_S1600000x1_S1600000_d1.drop i = ix1 e := by
    have := (List.mem_filter.1 hi).2
    simpa using this
  have hv : ((reducesTo_S1600000x1_S1600000_d1.drop i) 0 : Nat) = i 0 :=
    Shape.ReducesTo.drop_apply_val reducesTo_S1600000x1_S1600000_d1 i 0
  have h0 : i 0 = e := by
    apply Fin.ext
    rw [← hv, hd]
  have h1 : i 1 = (0 : Fin 1) := Fin.ext (by have := idx2_lt1 i; show (i 1).val = 0; omega)
  have hi' : i = ix2 e 0 := (eq_ix2 i).trans (by rw [h0, h1]; rfl)
  rw [hi']
  exact hx

/-- At an edge whose word is a node number the in-range flag is 1. -/
theorem inRange_apply (idx : IVec (⟨1, ![1600000]⟩ : Shape) 32) (e : Fin 1600000) (h : (idx (ix1 e)).toNat < 100000) :
    inRange idx (ix1 e) = 1#1 := by
  unfold inRange
  refine reduce_unit_one _ e ?_
  show IntOp.andi (IntOp.cmpi CmpIPredicate.sge (startCol idx (ix2 e 0)) 0#32)
      (IntOp.cmpi CmpIPredicate.sle (startCol idx (ix2 e 0)) 99999#32) = 1#1
  rw [startCol_apply idx e 0 h]
  have h1 : IntOp.cmpi CmpIPredicate.sge (idx (ix1 e)) 0#32 = 1#1 :=
    (StableHlo.Predicate.sge_iff_toNat (a := idx (ix1 e)) (b := 0#32) (by omega) (by decide)).2 (Nat.zero_le _)
  have h2 : IntOp.cmpi CmpIPredicate.sle (idx (ix1 e)) 99999#32 = 1#1 :=
    (StableHlo.Predicate.sle_iff_toNat (a := idx (ix1 e)) (b := 99999#32) (by omega) (by decide)).2
      (by show (idx (ix1 e)).toNat ≤ 99999; omega)
  rw [h1, h2]
  rfl

/-! ## The composition is the row read -/

/-- When every word is a node number, the taken rows are the rows the words name. -/
theorem takeFn_eq (A : FVec Ideal (⟨2, ![100000, 64]⟩ : Shape) .f32) (idx : IVec (⟨1, ![1600000]⟩ : Shape) 32)
    (hidx : ∀ e : Fin 1600000, (idx (ix1 e)).toNat < 100000) : takeFn (F := Ideal) A idx = Cert.Spec.rowsAt A idx := by
  funext i
  obtain ⟨e, j, rfl⟩ : ∃ (e : Fin 1600000) (j : Fin 64), i = ix2 e j := ⟨i 0, i 1, eq_ix2 i⟩
  have h := hidx e
  rw [Cert.Spec.rowsAt_apply A idx e j ⟨(idx (ix1 e)).toNat, h⟩ rfl]
  have hg : gather_S100000x64_S1600000x1_S1600000x64_1_0_n_n_0_1_164
      = GatherScatter.rowGatherDims 100000 64 1600000 gather_S100000x64_S1600000x1_S1600000x64_1_0_n_n_0_1_164_wf := rfl
  unfold takeFn
  rw [select_apply, rows_apply, inRange_apply idx e h, select_one, hg, GatherScatter.rowGather_apply (by decide)]
  refine congrArg (fun r : Fin 100000 => A (ix2 r j)) (Fin.ext ?_)
  show min (startCol idx (ix2 e 0)).toInt.toNat (100000 - 1) = (idx (ix1 e)).toNat
  rw [startCol_apply idx e 0 h, StableHlo.Predicate.toInt_eq_toNat_of_lt (by omega), Int.toNat_natCast]
  omega

/-! ## The five stretches -/

section Runs
variable {F : FTy → Type} [FloatOps F]

/-- One stretch's run equation: fold the operations' results outermost first, drop each intermediate's round trip
    through its typed reference, and read the index buffer, the operand buffer and the result buffer at their own
    types (each the identity at a literal reference). -/
local macro "take_run" V:ident Fam:ident idx:ident A:ident out:ident : tactic =>
  `(tactic| (
    after_results_simp
    simp only [StableHlo.TRef.ofBuf_toBuf]
    unfold takeFn inRange startCol wrapIdx
    have e1 : ∀ p1 p2 p3, (StableHlo.TRef.of (T := ⟨S1600000, .i32⟩) $idx p1 p2 p3).ofBuf ($V (Proc.devRef .tc $idx))
        = $V (Proc.devRef .tc $idx) := fun _ _ _ => rfl
    have e2 : ∀ p1 p2 p3, (StableHlo.TRef.of (T := ⟨S100000x64, .f32⟩) $A p1 p2 p3).ofBuf ($V (Proc.devRef .tc $A))
        = $V (Proc.devRef .tc $A) := fun _ _ _ => rfl
    have e3 : ∀ p1 p2 p3 (v : FVec $Fam S1600000x64 .f32),
        (StableHlo.TRef.of (T := ⟨S1600000x64, .f32⟩) $out p1 p2 p3).toBuf (Val := Elt $Fam) v = v := fun _ _ _ _ => rfl
    rw [e3]
    simp only [e1, e2]))

set_option maxHeartbeats 4000000 in
/-- The first take (source rows of the first projection) computes the composition, at every float instance. -/
theorem run1 (V : Valuation τ sig (Elt F)) :
    StableHlo.after (hostOps1 (F := F)) V (Proc.devRef .tc main_v8)
      = takeFn (V (Proc.devRef .tc main_v7_1)) (V (Proc.devRef .tc main_v1)) := by
  show StableHlo.after hostOps1 V (Proc.devRef .tc main_v8) = _
  take_run V F main_v1 main_v7_1 main_v8

set_option maxHeartbeats 4000000 in
/-- The second take (the second projection at the other endpoint's words). -/
theorem run1_1 (V : Valuation τ sig (Elt F)) :
    StableHlo.after (hostOps1_1 (F := F)) V (Proc.devRef .tc main_v9)
      = takeFn (V (Proc.devRef .tc main_v7_2)) (V (Proc.devRef .tc main_v3)) := by
  show StableHlo.after hostOps1_1 V (Proc.devRef .tc main_v9) = _
  take_run V F main_v3 main_v7_2 main_v9

set_option maxHeartbeats 4000000 in
/-- The first layer's take. -/
theorem run3 (V : Valuation τ sig (Elt F)) :
    StableHlo.after (hostOps3 (F := F)) V (Proc.devRef .tc main_v19)
      = takeFn (V (Proc.devRef .tc main_v18)) (V (Proc.devRef .tc main_v1)) := by
  show StableHlo.after hostOps3 V (Proc.devRef .tc main_v19) = _
  take_run V F main_v1 main_v18 main_v19

set_option maxHeartbeats 4000000 in
/-- The second layer's take. -/
theorem run4 (V : Valuation τ sig (Elt F)) :
    StableHlo.after (hostOps4 (F := F)) V (Proc.devRef .tc main_v35)
      = takeFn (V (Proc.devRef .tc main_v34)) (V (Proc.devRef .tc main_v1)) := by
  show StableHlo.after hostOps4 V (Proc.devRef .tc main_v35) = _
  take_run V F main_v1 main_v34 main_v35

set_option maxHeartbeats 4000000 in
/-- The third layer's take. -/
theorem run5 (V : Valuation τ sig (Elt F)) :
    StableHlo.after (hostOps5 (F := F)) V (Proc.devRef .tc main_v51)
      = takeFn (V (Proc.devRef .tc main_v50)) (V (Proc.devRef .tc main_v1)) := by
  show StableHlo.after hostOps5 V (Proc.devRef .tc main_v51) = _
  take_run V F main_v1 main_v50 main_v51

end Runs

/-- After the first take, its result buffer holds the rows of the operand buffer that the index words name. -/
theorem take1 (V : Valuation τ sig (Elt Ideal))
    (hidx : ∀ e : Fin 1600000, ((V (Proc.devRef .tc main_v1) : IVec S1600000 32) (ix1 e)).toNat < 100000) :
    StableHlo.after (hostOps1 (F := Ideal)) V (Proc.devRef .tc main_v8)
      = Cert.Spec.rowsAt (V (Proc.devRef .tc main_v7_1)) (V (Proc.devRef .tc main_v1)) :=
  (run1 V).trans (takeFn_eq _ _ hidx)

/-- The same for the second take, over the other endpoint's words. -/
theorem take1_1 (V : Valuation τ sig (Elt Ideal))
    (hidx : ∀ e : Fin 1600000, ((V (Proc.devRef .tc main_v3) : IVec S1600000 32) (ix1 e)).toNat < 100000) :
    StableHlo.after (hostOps1_1 (F := Ideal)) V (Proc.devRef .tc main_v9)
      = Cert.Spec.rowsAt (V (Proc.devRef .tc main_v7_2)) (V (Proc.devRef .tc main_v3)) :=
  (run1_1 V).trans (takeFn_eq _ _ hidx)

/-- The same for the first layer's take. -/
theorem take3 (V : Valuation τ sig (Elt Ideal))
    (hidx : ∀ e : Fin 1600000, ((V (Proc.devRef .tc main_v1) : IVec S1600000 32) (ix1 e)).toNat < 100000) :
    StableHlo.after (hostOps3 (F := Ideal)) V (Proc.devRef .tc main_v19)
      = Cert.Spec.rowsAt (V (Proc.devRef .tc main_v18)) (V (Proc.devRef .tc main_v1)) :=
  (run3 V).trans (takeFn_eq _ _ hidx)

/-- The same for the second layer's take. -/
theorem take4 (V : Valuation τ sig (Elt Ideal))
    (hidx : ∀ e : Fin 1600000, ((V (Proc.devRef .tc main_v1) : IVec S1600000 32) (ix1 e)).toNat < 100000) :
    StableHlo.after (hostOps4 (F := Ideal)) V (Proc.devRef .tc main_v35)
      = Cert.Spec.rowsAt (V (Proc.devRef .tc main_v34)) (V (Proc.devRef .tc main_v1)) :=
  (run4 V).trans (takeFn_eq _ _ hidx)

/-- The same for the third layer's take. -/
theorem take5 (V : Valuation τ sig (Elt Ideal))
    (hidx : ∀ e : Fin 1600000, ((V (Proc.devRef .tc main_v1) : IVec S1600000 32) (ix1 e)).toNat < 100000) :
    StableHlo.after (hostOps5 (F := Ideal)) V (Proc.devRef .tc main_v51)
      = Cert.Spec.rowsAt (V (Proc.devRef .tc main_v50)) (V (Proc.devRef .tc main_v1)) :=
  (run5 V).trans (takeFn_eq _ _ hidx)

end Cert.KernelIdeal.TakeRows

end
-- ==== Proof.BridgeTake.lean ====
/-
  THE FIVE ROW READS, KERNEL PROGRAM AGAINST REFERENCE.

  Both programs read, five times, the rows of a [100000, 64] node array picked by an edge index vector: the two
  projections A and B of the embedding at the edges' row and column ends, and the product h W of each of the three
  layers at the row ends. The kernel program does each read in a host stretch of its own (wrap a negative word, gather
  with a clamp, and blank a row whose word is out of range); the reference does it with the wrap and the clamped gather
  alone. With every index word a node number, each of the two is the function "row e of the result is row idx[e] of
  the array" (Cert.Spec.rowsAt), so the two results are equal as soon as the arrays read and the index vectors are.

  Each statement below takes those two equalities (array and index vector, kernel buffer against reference stage) as
  hypotheses, together with the range of the reference's index words, and concludes the equality of the results.
-/
import proofs.«401021_j84602265796764_3_alg».proof.Proof.Gen.KernelIdeal.Regions
import proofs.«401021_j84602265796764_3_alg».proof.Proof.Gen.ReferenceIdeal.Read
import proofs.«401021_j84602265796764_3_alg».proof.Proof.RefGather
import proofs.«401021_j84602265796764_3_alg».proof.Proof.Spec
import proofs.«401021_j84602265796764_3_alg».proof.Proof.TakeRows

noncomputable section

namespace Cert.Bridge

open Idealize.ShloMosaic Idealize.ShloMosaic.TcCoe Idealize.ShloMosaic.ValueIdx Idealize.SL.Sem
open Cert.KernelIdeal (nD τ sig main_v1 main_v3 main_v7_1 main_v7_2 main_v8 main_v9 main_v18 main_v19 main_v34 main_v35
  main_v50 main_v51)
open Cert.KernelIdeal.Gen (Outs V2 V3 V4 V8 V9 V13 V14 V18 V19)
open Cert.ReferenceIdeal (S100000x64 S2x1600000 S64x64 S64 S128x64 S64x1 S1 S3x64x64 S3x64)
open Cert.ReferenceIdeal.Read (val_main_v5 val_main_v7 val_main_v9 val_main_v11 val_main_v18 val_main_v25 val_main_v44
  val_main_v51 val_main_v66 val_main_v73 val_main_v88 val_main_v95)

/-! ## The reference's five reads

Each is the wrap and the clamped gather of one array at one of the two index vectors: the rows of the array. -/

section Reference
variable (x0 : (⟨S100000x64, .f32⟩ : BufTy).Contents (Elt Ideal))
  (x1 : (⟨S2x1600000, .i32⟩ : BufTy).Contents (Elt Ideal))
  (x2 : (⟨S64x64, .f32⟩ : BufTy).Contents (Elt Ideal))
  (x3 : (⟨S64, .f32⟩ : BufTy).Contents (Elt Ideal))
  (x4 : (⟨S128x64, .f32⟩ : BufTy).Contents (Elt Ideal))
  (x5 : (⟨S64, .f32⟩ : BufTy).Contents (Elt Ideal))
  (x6 : (⟨S64x1, .f32⟩ : BufTy).Contents (Elt Ideal))
  (x7 : (⟨S1, .f32⟩ : BufTy).Contents (Elt Ideal))
  (x8 : (⟨S3x64x64, .f32⟩ : BufTy).Contents (Elt Ideal))
  (x9 : (⟨S3x64, .f32⟩ : BufTy).Contents (Elt Ideal))

/-- A at the row ends. -/
theorem ref_ar (hrow : ∀ e : Fin 1600000, ((val_main_v5 (F := Ideal) x1) (ix1 e)).toNat < 100000) :
    val_main_v18 (F := Ideal) x0 x1 x2 x3 x4
      = Cert.Spec.rowsAt (val_main_v9 (F := Ideal) x0 x2 x3 x4) (val_main_v5 (F := Ideal) x1) :=
  Cert.ReferenceIdeal.RefGather.gather_rows _ _ hrow

/-- B at the column ends. -/
theorem ref_bc (hcol : ∀ e : Fin 1600000, ((val_main_v7 (F := Ideal) x1) (ix1 e)).toNat < 100000) :
    val_main_v25 (F := Ideal) x0 x1 x2 x3 x4
      = Cert.Spec.rowsAt (val_main_v11 (F := Ideal) x0 x2 x3 x4) (val_main_v7 (F := Ideal) x1) :=
  Cert.ReferenceIdeal.RefGather.gather_rows _ _ hcol

/-- The first layer's product at the row ends. -/
theorem ref_rows0 (hrow : ∀ e : Fin 1600000, ((val_main_v5 (F := Ideal) x1) (ix1 e)).toNat < 100000) :
    val_main_v51 (F := Ideal) x0 x1 x2 x3 x8
      = Cert.Spec.rowsAt (val_main_v44 (F := Ideal) x0 x2 x3 x8) (val_main_v5 (F := Ideal) x1) :=
  Cert.ReferenceIdeal.RefGather.gather_rows _ _ hrow

/-- The second layer's product at the row ends. -/
theorem ref_rows1 (hrow : ∀ e : Fin 1600000, ((val_main_v5 (F := Ideal) x1) (ix1 e)).toNat < 100000) :
    val_main_v73 (F := Ideal) x0 x1 x2 x3 x4 x5 x6 x7 x8 x9
      = Cert.Spec.rowsAt (val_main_v66 (F := Ideal) x0 x1 x2 x3 x4 x5 x6 x7 x8 x9) (val_main_v5 (F := Ideal) x1) :=
  Cert.ReferenceIdeal.RefGather.gather_rows _ _ hrow

/-- The third layer's product at the row ends. -/
theorem ref_rows2 (hrow : ∀ e : Fin 1600000, ((val_main_v5 (F := Ideal) x1) (ix1 e)).toNat < 100000) :
    val_main_v95 (F := Ideal) x0 x1 x2 x3 x4 x5 x6 x7 x8 x9
      = Cert.Spec.rowsAt (val_main_v88 (F := Ideal) x0 x1 x2 x3 x4 x5 x6 x7 x8 x9) (val_main_v5 (F := Ideal) x1) :=
  Cert.ReferenceIdeal.RefGather.gather_rows _ _ hrow

end Reference

/-! ## One read on both sides -/

/-- A result that is the rows of \`VA\` at \`Vi\` whenever \`Vi\`'s words are node numbers, with \`VA\` and \`Vi\` equal to
    \`A\` and \`idx\` and \`idx\`'s words node numbers, is the rows of \`A\` at \`idx\`. -/
theorem rows_of_leaves {VA A : FVec Ideal (⟨2, ![100000, 64]⟩ : Shape) .f32} {Vi idx : IVec (⟨1, ![1600000]⟩ : Shape) 32}
    {out : FVec Ideal (⟨2, ![1600000, 64]⟩ : Shape) .f32}
    (hk : (∀ e : Fin 1600000, (Vi (ix1 e)).toNat < 100000) → out = Cert.Spec.rowsAt VA Vi)
    (hi : Vi = idx) (hA : VA = A) (hidx : ∀ e : Fin 1600000, (idx (ix1 e)).toNat < 100000) :
    out = Cert.Spec.rowsAt A idx := by
  subst hi
  subst hA
  exact hk hidx

/-! ## The five reads, kernel buffer against reference stage -/

section Bridge
variable (m : (ℓ : Loc nD τ sig) → Buf (Elt Ideal) ℓ) (outs : Outs (F := Ideal)) (c : Dev nD)
variable (x0 : (⟨S100000x64, .f32⟩ : BufTy).Contents (Elt Ideal))
  (x1 : (⟨S2x1600000, .i32⟩ : BufTy).Contents (Elt Ideal))
  (x2 : (⟨S64x64, .f32⟩ : BufTy).Contents (Elt Ideal))
  (x3 : (⟨S64, .f32⟩ : BufTy).Contents (Elt Ideal))
  (x4 : (⟨S128x64, .f32⟩ : BufTy).Contents (Elt Ideal))
  (x5 : (⟨S64, .f32⟩ : BufTy).Contents (Elt Ideal))
  (x6 : (⟨S64x1, .f32⟩ : BufTy).Contents (Elt Ideal))
  (x7 : (⟨S1, .f32⟩ : BufTy).Contents (Elt Ideal))
  (x8 : (⟨S3x64x64, .f32⟩ : BufTy).Contents (Elt Ideal))
  (x9 : (⟨S3x64, .f32⟩ : BufTy).Contents (Elt Ideal))

/-- A at the row ends. -/
theorem ar_eq (hrow : ∀ e : Fin 1600000, ((val_main_v5 (F := Ideal) x1) (ix1 e)).toNat < 100000)
    (hrowK : V2 m outs c main_v1 = val_main_v5 (F := Ideal) x1)
    (hA : V2 m outs c main_v7_1 = val_main_v9 (F := Ideal) x0 x2 x3 x4) :
    V3 m outs c main_v8 = val_main_v18 (F := Ideal) x0 x1 x2 x3 x4 :=
  (rows_of_leaves (Cert.KernelIdeal.TakeRows.take1 (V2 m outs c)) hrowK hA hrow).trans (ref_ar x0 x1 x2 x3 x4 hrow).symm

/-- B at the column ends. -/
theorem bc_eq (hcol : ∀ e : Fin 1600000, ((val_main_v7 (F := Ideal) x1) (ix1 e)).toNat < 100000)
    (hcolK : V3 m outs c main_v3 = val_main_v7 (F := Ideal) x1)
    (hB : V3 m outs c main_v7_2 = val_main_v11 (F := Ideal) x0 x2 x3 x4) :
    V4 m outs c main_v9 = val_main_v25 (F := Ideal) x0 x1 x2 x3 x4 :=
  (rows_of_leaves (Cert.KernelIdeal.TakeRows.take1_1 (V3 m outs c)) hcolK hB hcol).trans (ref_bc x0 x1 x2 x3 x4 hcol).symm

/-- The first layer's product at the row ends. -/
theorem rows0_eq (hrow : ∀ e : Fin 1600000, ((val_main_v5 (F := Ideal) x1) (ix1 e)).toNat < 100000)
    (hrowK : V8 m outs c main_v1 = val_main_v5 (F := Ideal) x1)
    (hhw : V8 m outs c main_v18 = val_main_v44 (F := Ideal) x0 x2 x3 x8) :
    V9 m outs c main_v19 = val_main_v51 (F := Ideal) x0 x1 x2 x3 x8 :=
  (rows_of_leaves (Cert.KernelIdeal.TakeRows.take3 (V8 m outs c)) hrowK hhw hrow).trans (ref_rows0 x0 x1 x2 x3 x8 hrow).symm

/-- The second layer's product at the row ends. -/
theorem rows1_eq (hrow : ∀ e : Fin 1600000, ((val_main_v5 (F := Ideal) x1) (ix1 e)).toNat < 100000)
    (hrowK : V13 m outs c main_v1 = val_main_v5 (F := Ideal) x1)
    (hhw : V13 m outs c main_v34 = val_main_v66 (F := Ideal) x0 x1 x2 x3 x4 x5 x6 x7 x8 x9) :
    V14 m outs c main_v35 = val_main_v73 (F := Ideal) x0 x1 x2 x3 x4 x5 x6 x7 x8 x9 :=
  (rows_of_leaves (Cert.KernelIdeal.TakeRows.take4 (V13 m outs c)) hrowK hhw hrow).trans
    (ref_rows1 x0 x1 x2 x3 x4 x5 x6 x7 x8 x9 hrow).symm

/-- The third layer's product at the row ends. -/
theorem rows2_eq (hrow : ∀ e : Fin 1600000, ((val_main_v5 (F := Ideal) x1) (ix1 e)).toNat < 100000)
    (hrowK : V18 m outs c main_v1 = val_main_v5 (F := Ideal) x1)
    (hhw : V18 m outs c main_v50 = val_main_v88 (F := Ideal) x0 x1 x2 x3 x4 x5 x6 x7 x8 x9) :
    V19 m outs c main_v51 = val_main_v95 (F := Ideal) x0 x1 x2 x3 x4 x5 x6 x7 x8 x9 :=
  (rows_of_leaves (Cert.KernelIdeal.TakeRows.take5 (V18 m outs c)) hrowK hhw hrow).trans
    (ref_rows2 x0 x1 x2 x3 x4 x5 x6 x7 x8 x9 hrow).symm

end Bridge

end Cert.Bridge

end
-- ==== Proof.BridgeLayer.lean ====
/-
  THE THREE MESSAGE-PASSING LAYERS AND THE FINAL MEAN: THE PROGRAM WITH KERNELS AGAINST THE REFERENCE.

  Outside its five kernels the program applies the reference's own array operations. One graph-convolution layer l,
  once the rows of h·W have been gathered per edge, is

      msg[e, :] = rows[e, :] * mask[e]                   (the mask broadcast along the 64 lanes)
      agg       = zeros[100000, 64] with msg[e, :] added into row col[e], over all edges e
      pre       = agg + bias[l, :]                        (row l of the bias table, broadcast over the nodes)
      out       = max(pre, 0)                             (layers 0 and 1; layer 2 has no activation)

  and the result is the mean of the four arrays emb0, out0, out1, pre2: each is laid out as [100000, 1, 64], the four
  are joined along the middle axis, summed over it from zero, and divided by 4.

  Each lemma takes as hypotheses that the arrays a stretch of operations reads (gathered rows, mask, target column,
  bias table; for the mean, the four layer outputs) hold the reference's corresponding stages, and concludes that the
  array the stretch writes holds the reference's stage. The stretch's operations are read off at the array they write;
  the hypotheses rewrite the arrays they read; what is left on the two sides is the same operations applied to the same
  arrays, equal by reflexivity, since the two programs spell the shapes and the dimension records with their own names,
  which unfold to the same literals. While a stretch is opened the contents before it are kept as one opaque function,
  so that nothing earlier in the program is unfolded.
-/
import proofs.«401021_j84602265796764_3_alg».proof.Proof.Gen.KernelIdeal.Regions
import proofs.«401021_j84602265796764_3_alg».proof.Proof.Gen.ReferenceIdeal.Read
import proofs.«401021_j84602265796764_3_alg».proof.Proof.LibTRefCast
import Idealize.ShloMosaic.Lib.StableHlo.Run
import Idealize.ShloMosaic.Lib.Pipeline.Frame

noncomputable section

namespace Cert.Bridge

open Idealize.ShloMosaic Idealize.ShloMosaic.TcCoe Idealize.ShloMosaic.StableHlo
open Idealize.SL.Sem

variable (m : (ℓ : Loc KernelIdeal.nD KernelIdeal.τ KernelIdeal.sig) → Buf (Elt Ideal) ℓ)
  (outs : KernelIdeal.Gen.Outs (F := Ideal)) (c : Dev KernelIdeal.nD)

variable (x0 : (⟨ReferenceIdeal.S100000x64, .f32⟩ : BufTy).Contents (Elt Ideal))
  (x1 : (⟨ReferenceIdeal.S2x1600000, .i32⟩ : BufTy).Contents (Elt Ideal))
  (x2 : (⟨ReferenceIdeal.S64x64, .f32⟩ : BufTy).Contents (Elt Ideal))
  (x3 : (⟨ReferenceIdeal.S64, .f32⟩ : BufTy).Contents (Elt Ideal))
  (x4 : (⟨ReferenceIdeal.S128x64, .f32⟩ : BufTy).Contents (Elt Ideal))
  (x5 : (⟨ReferenceIdeal.S64, .f32⟩ : BufTy).Contents (Elt Ideal))
  (x6 : (⟨ReferenceIdeal.S64x1, .f32⟩ : BufTy).Contents (Elt Ideal))
  (x7 : (⟨ReferenceIdeal.S1, .f32⟩ : BufTy).Contents (Elt Ideal))
  (x8 : (⟨ReferenceIdeal.S3x64x64, .f32⟩ : BufTy).Contents (Elt Ideal))
  (x9 : (⟨ReferenceIdeal.S3x64, .f32⟩ : BufTy).Contents (Elt Ideal))

/-! ## Layer 0 -/

/-- Layer 0 before its activation. The stretch multiplies each gathered row by its edge's mask value (the mask broadcast
    along the 64 lanes), adds the products into a zero [100000, 64] array at the edges' target nodes, and adds row 0 of
    the bias table to every node. The reference applies the same operations to the same four arrays. -/
theorem pre0_eq
    (hrows : KernelIdeal.Gen.V9 m outs c KernelIdeal.main_v19 = ReferenceIdeal.Read.val_main_v51 x0 x1 x2 x3 x8)
    (hmask : KernelIdeal.Gen.V9 m outs c KernelIdeal.main_v15 = ReferenceIdeal.Read.val_main_v41 x0 x1 x2 x3 x4 x5 x6 x7)
    (hcol : KernelIdeal.Gen.V9 m outs c KernelIdeal.main_v3 = ReferenceIdeal.Read.val_main_v7 x1)
    (hb : KernelIdeal.Gen.V9 m outs c KernelIdeal.main_arg9 = x9) :
    KernelIdeal.Gen.V10 m outs c KernelIdeal.main_v30 = ReferenceIdeal.Read.val_main_v62 x0 x1 x2 x3 x4 x5 x6 x7 x8 x9 := by
  show StableHlo.after KernelIdeal.Gen.hostOps3_1 (KernelIdeal.Gen.V9 m outs c) (Proc.devRef .tc KernelIdeal.main_v30) = _
  generalize hW : KernelIdeal.Gen.V9 m outs c = W at hrows hmask hcol hb ⊢
  after_results
  rw [hrows, hmask, hcol, hb]
  unfold ReferenceIdeal.Read.val_main_v62 ReferenceIdeal.Read.val_main_v61 ReferenceIdeal.Read.val_main_v60
    ReferenceIdeal.Read.val_main_v59 ReferenceIdeal.Read.val_main_v58 ReferenceIdeal.Read.val_main_v57
    ReferenceIdeal.Read.val_main_v56 ReferenceIdeal.Read.val_main_v55 ReferenceIdeal.Read.val_main_v54
    ReferenceIdeal.Read.val_main_v53 ReferenceIdeal.Read.val_main_v52 ReferenceIdeal.Read.val_main_cst_6
  rfl

/-- Layer 0: the maximum of the pre-activation with a zero array, on both sides. The activation's operations move their
    values between a value's type and its array's own along an equation of types; a value stored and read back is itself,
    and what is left of the moves is the identity at each literal array. -/
theorem layer0_eq
    (hrows : KernelIdeal.Gen.V9 m outs c KernelIdeal.main_v19 = ReferenceIdeal.Read.val_main_v51 x0 x1 x2 x3 x8)
    (hmask : KernelIdeal.Gen.V9 m outs c KernelIdeal.main_v15 = ReferenceIdeal.Read.val_main_v41 x0 x1 x2 x3 x4 x5 x6 x7)
    (hcol : KernelIdeal.Gen.V9 m outs c KernelIdeal.main_v3 = ReferenceIdeal.Read.val_main_v7 x1)
    (hb : KernelIdeal.Gen.V9 m outs c KernelIdeal.main_arg9 = x9) :
    KernelIdeal.Gen.V11 m outs c KernelIdeal.main_v31 = ReferenceIdeal.Read.val_main_v63 x0 x1 x2 x3 x4 x5 x6 x7 x8 x9 := by
  have hpre := pre0_eq m outs c x0 x1 x2 x3 x4 x5 x6 x7 x8 x9 hrows hmask hcol hb
  show StableHlo.after KernelIdeal.Gen.hostOps3_2 (KernelIdeal.Gen.V10 m outs c) (Proc.devRef .tc KernelIdeal.main_v31) = _
  generalize hW : KernelIdeal.Gen.V10 m outs c = W at hpre ⊢
  after_results
  simp only [StableHlo.TRef.ofBuf_toBuf]
  unfold ReferenceIdeal.Read.val_main_v63 ReferenceIdeal.Read.val_main_call1_v0 ReferenceIdeal.Read.val_main_call1_cst
  rw [← hpre]
  rfl

/-! ## Layer 1 -/

/-- Layer 1 before its activation: as layer 0, with row 1 of the bias table. -/
theorem pre1_eq
    (hrows : KernelIdeal.Gen.V14 m outs c KernelIdeal.main_v35 = ReferenceIdeal.Read.val_main_v73 x0 x1 x2 x3 x4 x5 x6 x7 x8 x9)
    (hmask : KernelIdeal.Gen.V14 m outs c KernelIdeal.main_v15 = ReferenceIdeal.Read.val_main_v41 x0 x1 x2 x3 x4 x5 x6 x7)
    (hcol : KernelIdeal.Gen.V14 m outs c KernelIdeal.main_v3 = ReferenceIdeal.Read.val_main_v7 x1)
    (hb : KernelIdeal.Gen.V14 m outs c KernelIdeal.main_arg9 = x9) :
    KernelIdeal.Gen.V15 m outs c KernelIdeal.main_v46 = ReferenceIdeal.Read.val_main_v84 x0 x1 x2 x3 x4 x5 x6 x7 x8 x9 := by
  show StableHlo.after KernelIdeal.Gen.hostOps4_1 (KernelIdeal.Gen.V14 m outs c) (Proc.devRef .tc KernelIdeal.main_v46) = _
  generalize hW : KernelIdeal.Gen.V14 m outs c = W at hrows hmask hcol hb ⊢
  after_results
  rw [hrows, hmask, hcol, hb]
  unfold ReferenceIdeal.Read.val_main_v84 ReferenceIdeal.Read.val_main_v83 ReferenceIdeal.Read.val_main_v82
    ReferenceIdeal.Read.val_main_v81 ReferenceIdeal.Read.val_main_v80 ReferenceIdeal.Read.val_main_v79
    ReferenceIdeal.Read.val_main_v78 ReferenceIdeal.Read.val_main_v77 ReferenceIdeal.Read.val_main_v76
    ReferenceIdeal.Read.val_main_v75 ReferenceIdeal.Read.val_main_v74 ReferenceIdeal.Read.val_main_cst_9
  rfl

/-- Layer 1: the maximum of the pre-activation with a zero array, on both sides. -/
theorem layer1_eq
    (hrows : KernelIdeal.Gen.V14 m outs c KernelIdeal.main_v35 = ReferenceIdeal.Read.val_main_v73 x0 x1 x2 x3 x4 x5 x6 x7 x8 x9)
    (hmask : KernelIdeal.Gen.V14 m outs c KernelIdeal.main_v15 = ReferenceIdeal.Read.val_main_v41 x0 x1 x2 x3 x4 x5 x6 x7)
    (hcol : KernelIdeal.Gen.V14 m outs c KernelIdeal.main_v3 = ReferenceIdeal.Read.val_main_v7 x1)
    (hb : KernelIdeal.Gen.V14 m outs c KernelIdeal.main_arg9 = x9) :
    KernelIdeal.Gen.V16 m outs c KernelIdeal.main_v47 = ReferenceIdeal.Read.val_main_v85 x0 x1 x2 x3 x4 x5 x6 x7 x8 x9 := by
  have hpre := pre1_eq m outs c x0 x1 x2 x3 x4 x5 x6 x7 x8 x9 hrows hmask hcol hb
  show StableHlo.after KernelIdeal.Gen.hostOps4_2 (KernelIdeal.Gen.V15 m outs c) (Proc.devRef .tc KernelIdeal.main_v47) = _
  generalize hW : KernelIdeal.Gen.V15 m outs c = W at hpre ⊢
  after_results
  simp only [StableHlo.TRef.ofBuf_toBuf]
  unfold ReferenceIdeal.Read.val_main_v85 ReferenceIdeal.Read.val_main_call2_v0 ReferenceIdeal.Read.val_main_call2_cst
  rw [← hpre]
  rfl

/-! ## Layer 2 -/

/-- Layer 2, which has no activation: as the pre-activation of layer 0, with row 2 of the bias table. The stretch that
    writes it goes on to the mean; the operations after the twelfth write other arrays and leave this one. -/
theorem layer2_eq
    (hrows : KernelIdeal.Gen.V19 m outs c KernelIdeal.main_v51 = ReferenceIdeal.Read.val_main_v95 x0 x1 x2 x3 x4 x5 x6 x7 x8 x9)
    (hmask : KernelIdeal.Gen.V19 m outs c KernelIdeal.main_v15 = ReferenceIdeal.Read.val_main_v41 x0 x1 x2 x3 x4 x5 x6 x7)
    (hcol : KernelIdeal.Gen.V19 m outs c KernelIdeal.main_v3 = ReferenceIdeal.Read.val_main_v7 x1)
    (hb : KernelIdeal.Gen.V19 m outs c KernelIdeal.main_arg9 = x9) :
    KernelIdeal.Gen.V20 m outs c KernelIdeal.main_v62 = ReferenceIdeal.Read.val_main_v106 x0 x1 x2 x3 x4 x5 x6 x7 x8 x9 := by
  show StableHlo.after KernelIdeal.Gen.hostOps5_1 (KernelIdeal.Gen.V19 m outs c) (Proc.devRef .tc KernelIdeal.main_v62) = _
  generalize hW : KernelIdeal.Gen.V19 m outs c = W at hrows hmask hcol hb ⊢
  after_results
  rw [hrows, hmask, hcol, hb]
  unfold ReferenceIdeal.Read.val_main_v106 ReferenceIdeal.Read.val_main_v105 ReferenceIdeal.Read.val_main_v104
    ReferenceIdeal.Read.val_main_v103 ReferenceIdeal.Read.val_main_v102 ReferenceIdeal.Read.val_main_v101
    ReferenceIdeal.Read.val_main_v100 ReferenceIdeal.Read.val_main_v99 ReferenceIdeal.Read.val_main_v98
    ReferenceIdeal.Read.val_main_v97 ReferenceIdeal.Read.val_main_v96 ReferenceIdeal.Read.val_main_cst_12
  rfl

/-! ## The mean -/

/-- The final stretch run in two parts: its first twelve operations (layer 2), then its last ten (the mean). -/
theorem V20_two_parts :
    KernelIdeal.Gen.V20 m outs c
      = StableHlo.after (List.drop 12 KernelIdeal.Gen.hostOps5_1)
          (StableHlo.after (List.take 12 KernelIdeal.Gen.hostOps5_1) (KernelIdeal.Gen.V19 m outs c)) :=
  (congrArg (fun l => StableHlo.after l (KernelIdeal.Gen.V19 m outs c))
      (List.take_append_drop 12 KernelIdeal.Gen.hostOps5_1).symm).trans
    (StableHlo.after_append (List.take 12 KernelIdeal.Gen.hostOps5_1) (List.drop 12 KernelIdeal.Gen.hostOps5_1)
      (KernelIdeal.Gen.V19 m outs c))

/-- An array the final stretch does not write is unchanged by its first twelve operations: a part of the stretch
    writes no more than the whole. -/
theorem first_part_keeps (r : Ref KernelIdeal.sig .tc) (h : r ∉ KernelIdeal.Gen.hostOps5_1_W) :
    StableHlo.after (List.take 12 KernelIdeal.Gen.hostOps5_1) (KernelIdeal.Gen.V19 m outs c) (Proc.devRef .tc r)
      = KernelIdeal.Gen.V19 m outs c (Proc.devRef .tc r) :=
  StableHlo.after_of_writes_sub (List.take 12 KernelIdeal.Gen.hostOps5_1) _
    (List.forall_iff_forall_mem.mpr fun op hop =>
      (List.forall_iff_forall_mem.mp KernelIdeal.Gen.hostOps5_1_writes) op (List.mem_of_mem_take hop)) h

/-- The mean of the four layer outputs: each is laid out as [100000, 1, 64], the four are joined along the middle axis,
    summed over it from zero, and divided by 4. The last layer's output is written by the first part of the same stretch,
    so its hypothesis is stated at the stretch's end; the three earlier outputs are not written by the stretch and pass
    through its first part. Only the last ten operations are opened, over the contents the first part leaves. -/
theorem mean_eq
    (h0 : KernelIdeal.Gen.V19 m outs c KernelIdeal.main_v7_0 = ReferenceIdeal.Read.val_main_v3 x0 x2 x3)
    (h1 : KernelIdeal.Gen.V19 m outs c KernelIdeal.main_v31 = ReferenceIdeal.Read.val_main_v63 x0 x1 x2 x3 x4 x5 x6 x7 x8 x9)
    (h2 : KernelIdeal.Gen.V19 m outs c KernelIdeal.main_v47 = ReferenceIdeal.Read.val_main_v85 x0 x1 x2 x3 x4 x5 x6 x7 x8 x9)
    (h3 : KernelIdeal.Gen.V20 m outs c KernelIdeal.main_v62 = ReferenceIdeal.Read.val_main_v106 x0 x1 x2 x3 x4 x5 x6 x7 x8 x9) :
    KernelIdeal.Gen.V20 m outs c KernelIdeal.main_v70 = ReferenceIdeal.Read.val_main_v114 x0 x1 x2 x3 x4 x5 x6 x7 x8 x9 := by
  rw [V20_two_parts] at h3 ⊢
  have g0 : StableHlo.after (List.take 12 KernelIdeal.Gen.hostOps5_1) (KernelIdeal.Gen.V19 m outs c)
      (Proc.devRef .tc KernelIdeal.main_v7_0) = _ :=
    (first_part_keeps m outs c KernelIdeal.main_v7_0 (by decide)).trans h0
  have g1 : StableHlo.after (List.take 12 KernelIdeal.Gen.hostOps5_1) (KernelIdeal.Gen.V19 m outs c)
      (Proc.devRef .tc KernelIdeal.main_v31) = _ :=
    (first_part_keeps m outs c KernelIdeal.main_v31 (by decide)).trans h1
  have g2 : StableHlo.after (List.take 12 KernelIdeal.Gen.hostOps5_1) (KernelIdeal.Gen.V19 m outs c)
      (Proc.devRef .tc KernelIdeal.main_v47) = _ :=
    (first_part_keeps m outs c KernelIdeal.main_v47 (by decide)).trans h2
  generalize hW : StableHlo.after (List.take 12 KernelIdeal.Gen.hostOps5_1) (KernelIdeal.Gen.V19 m outs c) = W
    at g0 g1 g2 h3 ⊢
  revert h3
  simp only [List.drop_succ_cons, List.drop_zero]
  simp only [StableHlo.after_cons, StableHlo.after_nil]
  -- each operation's result at the array it writes is its function's value, and at any other array what was there;
  -- the join of four arrays reads each operand at its own array
  repeat (first
    | rw [StableHlo.nullary_result] | rw [StableHlo.unary_result] | rw [StableHlo.binary_result]
    | rw [StableHlo.nary4_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  intro h3
  rw [h3, g0, g1, g2]
  unfold ReferenceIdeal.Read.val_main_v114 ReferenceIdeal.Read.val_main_v113 ReferenceIdeal.Read.val_main_v112
    ReferenceIdeal.Read.val_main_v111 ReferenceIdeal.Read.val_main_v110 ReferenceIdeal.Read.val_main_v109
    ReferenceIdeal.Read.val_main_v108 ReferenceIdeal.Read.val_main_v107 ReferenceIdeal.Read.val_main_cst_13
    ReferenceIdeal.Read.val_main_cst_14
  rfl

end Cert.Bridge
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.PayProj.lean ====
/-
  THE PROJECTION AND DENSE-PRODUCT VALUES READ AT AN INDEX, over the extended reals.

  Over the extended reals a change of float format is the identity and a cast of an array to its own shape is the identity.
  So each stored value of the node projection and of the three dense products is, entry by entry, a textbook expression:

    * the embedding           emb[p, j] = (∑ₖ x[p, k] · w[k, j]) + b[0, j]     (a product accumulated into zero, plus one row
                                                                                   broadcast over all rows);
    * its two projections     (emb · wa)[p, j] = ∑ₖ emb[p, k] · wa[k, j],  the same with wb;
    * a dense product         (h · w)[p, j] = ∑ₖ h[p, k] · w[k, j].

  Every product here has the dimension numbers of the plain [M, K] × [K, N] → [M, N] product (contract the left operand's
  columns with the right operand's rows, no batch axis), so its entry is the sum over the contraction index.
-/
import proofs.«401021_j84602265796764_3_alg».proof.Proof.Gen.KernelIdeal.Skeleton
import proofs.«401021_j84602265796764_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayProj

open Idealize.ShloMosaic Idealize.ShloMosaic.ValueIdx Cert.KernelIdeal Cert.KernelIdeal.Gen

/-- The dimension numbers of every product here are those of the plain [10000, 64] × [64, 64] product. -/
theorem dot_eq_plain : dot_S10000x64_S64x64_S10000x64_1_0_0_1_n_n = DotDims.plain 10000 64 64 := rfl

/-- A [10000, 64] × [64, 64] product accumulated into zero, at row p and column j: the sum over k of L[p, k] · R[k, j]. -/
theorem matmul_read {φ₁ φ₂ : FTy} (L : FVec Ideal S10000x64 φ₁) (R : FVec Ideal S64x64 φ₂) (p : Fin 10000) (j : Fin 64) :
    matmul (F := Ideal) dot_S10000x64_S64x64_S10000x64_1_0_0_1_n_n none L R (constant (F := Ideal) S10000x64 .f32 0x00000000#32) (ix2 p j)
      = ∑ k : Fin 64, L (ix2 p k) * R (ix2 k j) :=
  PlainDot.matmul_zero_apply 10000 64 64 none L R p j

/-- The embedding at (p, j): the product's entry plus the bias row's entry. -/
theorem k0_pay1_apply (x : Vec Ideal S10000x64 .f32) (w : Vec Ideal S64x64 .f32) (b : Vec Ideal S1x64 .f32) (p : Fin 10000) (j : Fin 64) :
    k0_pay1 (F := Ideal) x w b (ix2 p j) = (∑ k : Fin 64, x (ix2 p k) * w (ix2 k j)) + b (ix2 (0 : Fin 1) j) := by
  unfold k0_pay1
  refine (addf_apply _ _ (ix2 p j)).trans ?_
  refine congrArg₂ (· + ·) ?_ ?_
  · exact (matmul_read _ _ p j).trans (Finset.sum_congr rfl fun k _ => rfl)
  · refine (broadcastTo_1b_ab_apply _ _ p j).trans ?_
    exact congrFun (shapeCast_self b _) (ix2 (0 : Fin 1) j)

/-- The embedding's first projection at (p, j). -/
theorem k0_pay3_apply (x : Vec Ideal S10000x64 .f32) (w : Vec Ideal S64x64 .f32) (b : Vec Ideal S1x64 .f32) (wa : Vec Ideal S64x64 .f32)
    (p : Fin 10000) (j : Fin 64) :
    k0_pay3 (F := Ideal) x w b wa (ix2 p j) = ∑ k : Fin 64, k0_pay1 (F := Ideal) x w b (ix2 p k) * wa (ix2 k j) := by
  unfold k0_pay3
  refine (matmul_read _ _ p j).trans (Finset.sum_congr rfl fun k _ => ?_)
  exact congrArg₂ (· * ·) rfl (congrFun (shapeCast_self wa _) (ix2 k j))

/-- The embedding's second projection at (p, j). -/
theorem k0_pay4_apply (x : Vec Ideal S10000x64 .f32) (w : Vec Ideal S64x64 .f32) (b : Vec Ideal S1x64 .f32) (wb : Vec Ideal S64x64 .f32)
    (p : Fin 10000) (j : Fin 64) :
    k0_pay4 (F := Ideal) x w b wb (ix2 p j) = ∑ k : Fin 64, k0_pay1 (F := Ideal) x w b (ix2 p k) * wb (ix2 k j) := by
  unfold k0_pay4
  refine (matmul_read _ _ p j).trans (Finset.sum_congr rfl fun k _ => ?_)
  exact congrArg₂ (· * ·) rfl (congrFun (shapeCast_self wb _) (ix2 k j))

/-- The first dense product at (p, j). -/
theorem k2_pay1_apply (h : Vec Ideal S10000x64 .f32) (w : Vec Ideal S64x64 .f32) (p : Fin 10000) (j : Fin 64) :
    k2_pay1 (F := Ideal) h w (ix2 p j) = ∑ k : Fin 64, h (ix2 p k) * w (ix2 k j) := by
  unfold k2_pay1
  refine (matmul_read _ _ p j).trans (Finset.sum_congr rfl fun k _ => ?_)
  exact congrArg₂ (· * ·) (congrFun (shapeCast_self h _) (ix2 p k)) (congrFun (shapeCast_self w _) (ix2 k j))

/-- The second dense product at (p, j). -/
theorem k3_pay1_apply (h : Vec Ideal S10000x64 .f32) (w : Vec Ideal S64x64 .f32) (p : Fin 10000) (j : Fin 64) :
    k3_pay1 (F := Ideal) h w (ix2 p j) = ∑ k : Fin 64, h (ix2 p k) * w (ix2 k j) := by
  unfold k3_pay1
  refine (matmul_read _ _ p j).trans (Finset.sum_congr rfl fun k _ => ?_)
  exact congrArg₂ (· * ·) (congrFun (shapeCast_self h _) (ix2 p k)) (congrFun (shapeCast_self w _) (ix2 k j))

/-- The third dense product at (p, j). -/
theorem k4_pay1_apply (h : Vec Ideal S10000x64 .f32) (w : Vec Ideal S64x64 .f32) (p : Fin 10000) (j : Fin 64) :
    k4_pay1 (F := Ideal) h w (ix2 p j) = ∑ k : Fin 64, h (ix2 p k) * w (ix2 k j) := by
  unfold k4_pay1
  refine (matmul_read _ _ p j).trans (Finset.sum_congr rfl fun k _ => ?_)
  exact congrArg₂ (· * ·) (congrFun (shapeCast_self h _) (ix2 p k)) (congrFun (shapeCast_self w _) (ix2 k j))

end Cert.KernelIdeal.PayProj

end
-- ==== Proof.LibPlainDotRows.lean ====
/-
  A ROW BLOCK OF A PLAIN MATRIX PRODUCT IS THE PRODUCT'S ROWS, over the extended reals.

  For `[M, K] × [K, N] → [M, N]` (`DotDims.plain M K N`) the host's `dot_general` at row `r` and column `j` is the sum over
  `k` of `X[r, k] · W[k, j]` (`dotGeneral_apply`). A kernel that multiplies a block of `Mb` rows of `X` by the whole of `W`,
  accumulating into zero, computes at the block's row `p` the same sum as the whole product at the row of `X` that row `p` of the
  block is (`matmul_zero_rows_eq_dotGeneral`): every term of the two sums is the same product, so nothing of extended-real
  arithmetic beyond `0 + s = s` is used and the fact holds at the infinities too.
-/
import Idealize.ShloMosaic.PureOps.Ideal.Laws
import Idealize.ShloMosaic.Lib.ValueIdx
import Idealize.ShloMosaic.Lib.KernelVsHost
import proofs.«401021_j84602265796764_3_alg».proof.Proof.LibPlainDot

noncomputable section

open scoped BigOperators

namespace Idealize.ShloMosaic.PlainDot

open Idealize.ShloMosaic Idealize.ShloMosaic.ValueIdx

/-- THE HOST'S PRODUCT AT `(r, j)`: `∑ₖ X[r, k] · W[k, j]` (stated over `Host.dotGeneral`, the name a printed reference applies). -/
theorem dotGeneral_apply (M K N : Nat) {φ₁ φ₂ : FTy} (prec : Option ContractPrecision)
    (X : FVec Ideal (⟨2, ![M, K]⟩ : Shape) φ₁) (W : FVec Ideal (⟨2, ![K, N]⟩ : Shape) φ₂) (r : Fin M) (j : Fin N) :
    Host.dotGeneral (F := Ideal) (DotDims.plain M K N) prec X W (ix2 r j) = ∑ k : Fin K, X (ix2 r k) * W (ix2 k j) := by
  rw [← matmul_zero_eq_dotGeneral]
  exact matmul_zero_apply M K N prec X W r j

/-- A BLOCK OF ROWS: if row `p` of the block `Xb` is row `r` of `X` (`hrow`) and the block's right operand is `W` entry by entry
    (`hw`), the block's product accumulated into zero, at `(p, j)`, is the whole product at `(r, j)`. -/
theorem matmul_zero_rows_eq_dotGeneral (Mb M K N : Nat) {φ₁ φ₂ : FTy} (prec : Option ContractPrecision)
    (Xb : FVec Ideal (⟨2, ![Mb, K]⟩ : Shape) φ₁) (Wb : FVec Ideal (⟨2, ![K, N]⟩ : Shape) φ₂)
    (X : FVec Ideal (⟨2, ![M, K]⟩ : Shape) φ₁) (W : FVec Ideal (⟨2, ![K, N]⟩ : Shape) φ₂)
    (p : Fin Mb) (r : Fin M) (j : Fin N)
    (hrow : ∀ k : Fin K, Xb (ix2 p k) = X (ix2 r k)) (hw : ∀ k : Fin K, Wb (ix2 k j) = W (ix2 k j)) :
    matmul (F := Ideal) (DotDims.plain Mb K N) prec Xb Wb (constant (⟨2, ![Mb, N]⟩ : Shape) .f32 0x00000000#32) (ix2 p j)
      = Host.dotGeneral (F := Ideal) (DotDims.plain M K N) prec X W (ix2 r j) := by
  rw [matmul_zero_apply, dotGeneral_apply]
  exact Finset.sum_congr rfl fun k _ => by rw [hrow k, hw k]

end Idealize.ShloMosaic.PlainDot

end
-- ==== Proof.ValLayer0.lean ====
/-
  A dense layer's product h · W as one array.

  The region multiplies, at each of its 10 grid points, a block of 10000 node rows by the whole 64 × 64 weight and writes the
  product back over the same 10000 rows of the output. Point t's blocks of the node array and of the output start at row
  10000 · t, the weight's block is the whole weight. So what point t writes back is rows 10000 · t … 10000 · t + 9999 of ONE
  array, the product of the whole node array by the weight: at (r, j) the sum over k of h[r, k] · w[k, j]. Row r lies in the
  block of point r / 10000, so the blocks cover the output and the output ends holding that product.
-/
import proofs.«401021_j84602265796764_3_alg».proof.Proof.KIBody2
import proofs.«401021_j84602265796764_3_alg».proof.Proof.PayProj
import proofs.«401021_j84602265796764_3_alg».proof.Proof.LibPlainDotRows
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The region's three arrays: the node rows, the weight, the product. -/
abbrev arrH2 : Ref sig .tc := main_v7_0
abbrev arrW2 : Ref sig .tc := main_v17
abbrev arrO2 : Ref sig .tc := main_v18

theorem arrRef2_0 : Pipeline.arrRef spec2 0 = arrH2 := rfl
theorem arrRef2_1 : Pipeline.arrRef spec2 1 = arrW2 := rfl
theorem arrRef2_2 : Pipeline.arrRef spec2 2 = arrO2 := rfl

-- the contents of the TensorCore's buffers when the region is entered
variable (V : (c : Dev nD) → (b : Ref sig .tc) → Buf (Elt Ideal) ((c : Thread nD τ).loc b))

/-- The node array and the weight as the region finds them, at their literal types. -/
abbrev harr2 (c : Dev nD) : Vec Ideal S100000x64 .f32 := V c arrH2
abbrev warr2 (c : Dev nD) : Vec Ideal S64x64 .f32 := V c arrW2

/-- The product of the whole node array by the weight. -/
abbrev prod2 (c : Dev nD) : Vec Ideal S100000x64 .f32 :=
  fun i => ∑ k : Fin 64, harr2 V c (ix2 (i 0) k) * warr2 V c (ix2 k (i 1))

theorem hz_2 : (![0, 0] : Fin 2 → Nat) = fun _ => 0 := funext fun a => by fin_cases a <;> rfl

/-- The printed index maps over the grid: the node block and the output block of point t are block (t, 0), the weight's
    is block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row x₀ of point t's node block is row 10000 · t + x₀ of the node array. -/
theorem iblk2_0_apply (c : Dev nD) (t : Fin cfg2.N) (x : S10000x64.Idx) (i : S100000x64.Idx)
    (h0 : (i 0).val = t.val * 10000 + (x 0).val) (h1 : (i 1).val = (x 1).val) :
    (iblk2 V c 0 t : Vec Ideal S10000x64 .f32) x = harr2 V c i := by
  obtain ⟨e0, e1, -⟩ := idx_facts2 t
  unfold iblk2
  rw [View.read_apply]
  show V c arrH2 _ = V c arrH2 _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The weight's block at any point is the weight. -/
theorem iblk2_1_apply (c : Dev nD) (t : Fin cfg2.N) (x : S64x64.Idx) (i : S64x64.Idx)
    (h0 : (i 0).val = (x 0).val) (h1 : (i 1).val = (x 1).val) :
    (iblk2 V c 1 t : Vec Ideal S64x64 .f32) x = warr2 V c i := by
  obtain ⟨-, -, e0, e1, -⟩ := idx_facts2 t
  unfold iblk2
  rw [View.read_apply]
  show V c arrW2 _ = V c arrW2 _
  congr 1
  funext a
  apply Fin.ext
  match a with
  | ⟨0, _⟩ => show win2_1.index t (0 : Fin 2) * 64 + 1 * (x 0).val = (i 0).val; rw [e0, h0]; omega
  | ⟨1, _⟩ => show win2_1.index t (1 : Fin 2) * 64 + 1 * (x 1).val = (i 1).val; rw [e1, h1]; omega

/-- The body's product of a block of rows by a weight, at a position of the block, is the whole product at the position of the
    array the block's position is, when the block's row is that array row and the block's weight is that weight. -/
theorem pay2_at (x0 : Vec Ideal S10000x64 .f32) (x1 : Vec Ideal S64x64 .f32) (H : Vec Ideal S100000x64 .f32)
    (W : Vec Ideal S64x64 .f32) (y : S10000x64.Idx) (i : S100000x64.Idx)
    (hrow : ∀ k : Fin 64, x0 (ix2 (y 0) k) = H (ix2 (i 0) k)) (hw : ∀ k : Fin 64, x1 (ix2 k (y 1)) = W (ix2 k (i 1))) :
    k2_pay1 (F := Ideal) x0 x1 y = ∑ k : Fin 64, H (ix2 (i 0) k) * W (ix2 k (i 1)) :=
  (congrArg (k2_pay1 (F := Ideal) x0 x1) (eq_ix2 y)).trans
    ((PayProj.k2_pay1_apply x0 x1 (y 0) (y 1)).trans (Finset.sum_congr rfl fun k _ => by rw [hrow k, hw k]))

/-- WHAT POINT t WRITES BACK is block t of the whole product. -/
theorem flushed2_eq (c : Dev nD) (t : Fin cfg2.N) :
    (dat2 (F := Ideal) V c).flushed 2 t = ((cfg2.win 2).blk t).view.read (Elt Ideal) (prod2 V c) := by
  show (cfg2.win 2).cut (cfg2.grid.coords t) ((dat2 (F := Ideal) V c).after 2 t) = _
  rw [after2_2]
  unfold out2_2
  rw [View.canon_unit_zero hz_2]
  simp only [View.ld_unit_zero (S := S10000x64) hz_2, View.ld_unit_zero (S := S64x64) hz_2]
  obtain ⟨-, -, -, -, e0, e1⟩ := idx_facts2 t
  funext y
  show k2_pay1 (F := Ideal) (iblk2 V c 0 t) (iblk2 V c 1 t) y = prod2 V c (((cfg2.win 2).blk t).view.emb y)
  have hy0 : ((((cfg2.win 2).blk t).view.emb y) 0).val = t.val * 10000 + (y 0).val := by
    show win2_2.index t (0 : Fin 2) * 10000 + 1 * (y 0).val = _; rw [e0]; omega
  have hy1 : ((((cfg2.win 2).blk t).view.emb y) 1).val = (y 1).val := by
    show win2_2.index t (1 : Fin 2) * 64 + 1 * (y 1).val = _; rw [e1]; omega
  refine pay2_at (iblk2 V c 0 t) (iblk2 V c 1 t) (harr2 V c) (warr2 V c) y (((cfg2.win 2).blk t).view.emb y) (fun k => ?_) (fun k => ?_)
  · exact iblk2_0_apply V c t (ix2 (y 0) k) (ix2 ((((cfg2.win 2).blk t).view.emb y) 0) k) hy0 rfl
  · exact iblk2_1_apply V c t (ix2 k (y 1)) (ix2 k ((((cfg2.win 2).blk t).view.emb y) 1)) rfl hy1

/-- An index of the output is in point t's block iff its row is among the block's 10000 rows (and its column among all 64). -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole arrO2).slice (win2_2.rect t)).set ↔ _
  rw [View.set_slice_whole, Rect.mem_set_unit]
  exact Iff.rfl

/-- The blocks cover the output: row r is in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  have ht : t.val = (i 0).val / 10000 := rfl
  obtain ⟨-, -, -, -, e0, e1⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 64 ≤ (i 1).val ∧ (i 1).val < win2_2.index t (1 : Fin 2) * 64 + 64; rw [e1]; omega

/-- THE OUTPUT ARRAY after the region: the product of the node array by the weight. -/
theorem final2_prod (c : Dev nD) : (dat2 (F := Ideal) V c).arrAt 2 cfg2.N = prod2 V c :=
  (dat2 (F := Ideal) V c).arrAt_eq_of_cover 2 (prod2 V c) (fun t _ => flushed2_eq V c t) (cover2)

/-- The output at row r and column j: the sum over k of h[r, k] · w[k, j]. -/
theorem final2_apply (c : Dev nD) (r : Fin 100000) (j : Fin 64) :
    ((dat2 (F := Ideal) V c).arrAt 2 cfg2.N : Vec Ideal S100000x64 .f32) (ix2 r j)
      = ∑ k : Fin 64, harr2 V c (ix2 r k) * warr2 V c (ix2 k j) :=
  congrFun (final2_prod V c) (ix2 r j)

/-- The output is the host's plain [100000, 64] × [64, 64] product of the two input arrays. -/
theorem final2 (c : Dev nD) :
    ((dat2 (F := Ideal) V c).arrAt 2 cfg2.N : Vec Ideal S100000x64 .f32)
      = Host.dotGeneral (F := Ideal) (φ₁ := .f32) (φ₂ := .f32) (DotDims.plain 100000 64 64) none (harr2 V c) (warr2 V c) := by
  rw [final2_prod]
  funext i
  rw [eq_ix2 i]
  exact (PlainDot.dotGeneral_apply 100000 64 64 none (harr2 V c) (warr2 V c) (i 0) (i 1)).symm

end Cert.KernelIdeal.Val

end
-- ==== Proof.ValLayer1.lean ====
/-
  A dense layer's product h · W as one array.

  The region multiplies, at each of its 10 grid points, a block of 10000 node rows by the whole 64 × 64 weight and writes the
  product back over the same 10000 rows of the output. Point t's blocks of the node array and of the output start at row
  10000 · t, the weight's block is the whole weight. So what point t writes back is rows 10000 · t … 10000 · t + 9999 of ONE
  array, the product of the whole node array by the weight: at (r, j) the sum over k of h[r, k] · w[k, j]. Row r lies in the
  block of point r / 10000, so the blocks cover the output and the output ends holding that product.
-/
import proofs.«401021_j84602265796764_3_alg».proof.Proof.KIBody3
import proofs.«401021_j84602265796764_3_alg».proof.Proof.PayProj
import proofs.«401021_j84602265796764_3_alg».proof.Proof.LibPlainDotRows
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The region's three arrays: the node rows, the weight, the product. -/
abbrev arrH3 : Ref sig .tc := main_v31
abbrev arrW3 : Ref sig .tc := main_v33
abbrev arrO3 : Ref sig .tc := main_v34

theorem arrRef3_0 : Pipeline.arrRef spec3 0 = arrH3 := rfl
theorem arrRef3_1 : Pipeline.arrRef spec3 1 = arrW3 := rfl
theorem arrRef3_2 : Pipeline.arrRef spec3 2 = arrO3 := rfl

-- the contents of the TensorCore's buffers when the region is entered
variable (V : (c : Dev nD) → (b : Ref sig .tc) → Buf (Elt Ideal) ((c : Thread nD τ).loc b))

/-- The node array and the weight as the region finds them, at their literal types. -/
abbrev harr3 (c : Dev nD) : Vec Ideal S100000x64 .f32 := V c arrH3
abbrev warr3 (c : Dev nD) : Vec Ideal S64x64 .f32 := V c arrW3

/-- The product of the whole node array by the weight. -/
abbrev prod3 (c : Dev nD) : Vec Ideal S100000x64 .f32 :=
  fun i => ∑ k : Fin 64, harr3 V c (ix2 (i 0) k) * warr3 V c (ix2 k (i 1))

theorem hz_3 : (![0, 0] : Fin 2 → Nat) = fun _ => 0 := funext fun a => by fin_cases a <;> rfl

/-- The printed index maps over the grid: the node block and the output block of point t are block (t, 0), the weight's
    is block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row x₀ of point t's node block is row 10000 · t + x₀ of the node array. -/
theorem iblk3_0_apply (c : Dev nD) (t : Fin cfg3.N) (x : S10000x64.Idx) (i : S100000x64.Idx)
    (h0 : (i 0).val = t.val * 10000 + (x 0).val) (h1 : (i 1).val = (x 1).val) :
    (iblk3 V c 0 t : Vec Ideal S10000x64 .f32) x = harr3 V c i := by
  obtain ⟨e0, e1, -⟩ := idx_facts3 t
  unfold iblk3
  rw [View.read_apply]
  show V c arrH3 _ = V c arrH3 _
  congr 1
  funext a
  apply Fin.ext
  match a with
  | ⟨0, _⟩ => show win3_0.index t (0 : Fin 2) * 10000 + 1 * (x 0).val = (i 0).val; rw [e0, h0]; omega
  | ⟨1, _⟩ => show win3_0.index t (1 : Fin 2) * 64 + 1 * (x 1).val = (i 1).val; rw [e1, h1]; omega

/-- The weight's block at any point is the weight. -/
theorem iblk3_1_apply (c : Dev nD) (t : Fin cfg3.N) (x : S64x64.Idx) (i : S64x64.Idx)
    (h0 : (i 0).val = (x 0).val) (h1 : (i 1).val = (x 1).val) :
    (iblk3 V c 1 t : Vec Ideal S64x64 .f32) x = warr3 V c i := by
  obtain ⟨-, -, e0, e1, -⟩ := idx_facts3 t
  unfold iblk3
  rw [View.read_apply]
  show V c arrW3 _ = V c arrW3 _
  congr 1
  funext a
  apply Fin.ext
  match a with
  | ⟨0, _⟩ => show win3_1.index t (0 : Fin 2) * 64 + 1 * (x 0).val = (i 0).val; rw [e0, h0]; omega
  | ⟨1, _⟩ => show win3_1.index t (1 : Fin 2) * 64 + 1 * (x 1).val = (i 1).val; rw [e1, h1]; omega

/-- The body's product of a block of rows by a weight, at a position of the block, is the whole product at the position of the
    array the block's position is, when the block's row is that array row and the block's weight is that weight. -/
theorem pay3_at (x0 : Vec Ideal S10000x64 .f32) (x1 : Vec Ideal S64x64 .f32) (H : Vec Ideal S100000x64 .f32)
    (W : Vec Ideal S64x64 .f32) (y : S10000x64.Idx) (i : S100000x64.Idx)
    (hrow : ∀ k : Fin 64, x0 (ix2 (y 0) k) = H (ix2 (i 0) k)) (hw : ∀ k : Fin 64, x1 (ix2 k (y 1)) = W (ix2 k (i 1))) :
    k3_pay1 (F := Ideal) x0 x1 y = ∑ k : Fin 64, H (ix2 (i 0) k) * W (ix2 k (i 1)) :=
  (congrArg (k3_pay1 (F := Ideal) x0 x1) (eq_ix2 y)).trans
    ((PayProj.k3_pay1_apply x0 x1 (y 0) (y 1)).trans (Finset.sum_congr rfl fun k _ => by rw [hrow k, hw k]))

/-- WHAT POINT t WRITES BACK is block t of the whole product. -/
theorem flushed3_eq (c : Dev nD) (t : Fin cfg3.N) :
    (dat3 (F := Ideal) V c).flushed 2 t = ((cfg3.win 2).blk t).view.read (Elt Ideal) (prod3 V c) := by
  show (cfg3.win 2).cut (cfg3.grid.coords t) ((dat3 (F := Ideal) V c).after 2 t) = _
  rw [after3_2]
  unfold out3_2
  rw [View.canon_unit_zero hz_3]
  simp only [View.ld_unit_zero (S := S10000x64) hz_3, View.ld_unit_zero (S := S64x64) hz_3]
  obtain ⟨-, -, -, -, e0, e1⟩ := idx_facts3 t
  funext y
  show k3_pay1 (F := Ideal) (iblk3 V c 0 t) (iblk3 V c 1 t) y = prod3 V c (((cfg3.win 2).blk t).view.emb y)
  have hy0 : ((((cfg3.win 2).blk t).view.emb y) 0).val = t.val * 10000 + (y 0).val := by
    show win3_2.index t (0 : Fin 2) * 10000 + 1 * (y 0).val = _; rw [e0]; omega
  have hy1 : ((((cfg3.win 2).blk t).view.emb y) 1).val = (y 1).val := by
    show win3_2.index t (1 : Fin 2) * 64 + 1 * (y 1).val = _; rw [e1]; omega
  refine pay3_at (iblk3 V c 0 t) (iblk3 V c 1 t) (harr3 V c) (warr3 V c) y (((cfg3.win 2).blk t).view.emb y) (fun k => ?_) (fun k => ?_)
  · exact iblk3_0_apply V c t (ix2 (y 0) k) (ix2 ((((cfg3.win 2).blk t).view.emb y) 0) k) hy0 rfl
  · exact iblk3_1_apply V c t (ix2 k (y 1)) (ix2 k ((((cfg3.win 2).blk t).view.emb y) 1)) rfl hy1

/-- An index of the output is in point t's block iff its row is among the block's 10000 rows (and its column among all 64). -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole arrO3).slice (win3_2.rect t)).set ↔ _
  rw [View.set_slice_whole, Rect.mem_set_unit]
  exact Iff.rfl

/-- The blocks cover the output: row r is in the block of point r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  have ht : t.val = (i 0).val / 10000 := rfl
  obtain ⟨-, -, -, -, e0, e1⟩ := idx_facts3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; rw [e0, ht]; omega
  | ⟨1, _⟩ => show win3_2.index t (1 : Fin 2) * 64 ≤ (i 1).val ∧ (i 1).val < win3_2.index t (1 : Fin 2) * 64 + 64; rw [e1]; omega

/-- THE OUTPUT ARRAY after the region: the product of the node array by the weight. -/
theorem final3_prod (c : Dev nD) : (dat3 (F := Ideal) V c).arrAt 2 cfg3.N = prod3 V c :=
  (dat3 (F := Ideal) V c).arrAt_eq_of_cover 2 (prod3 V c) (fun t _ => flushed3_eq V c t) (cover3)

/-- The output at row r and column j: the sum over k of h[r, k] · w[k, j]. -/
theorem final3_apply (c : Dev nD) (r : Fin 100000) (j : Fin 64) :
    ((dat3 (F := Ideal) V c).arrAt 2 cfg3.N : Vec Ideal S100000x64 .f32) (ix2 r j)
      = ∑ k : Fin 64, harr3 V c (ix2 r k) * warr3 V c (ix2 k j) :=
  congrFun (final3_prod V c) (ix2 r j)

/-- The output is the host's plain [100000, 64] × [64, 64] product of the two input arrays. -/
theorem final3 (c : Dev nD) :
    ((dat3 (F := Ideal) V c).arrAt 2 cfg3.N : Vec Ideal S100000x64 .f32)
      = Host.dotGeneral (F := Ideal) (φ₁ := .f32) (φ₂ := .f32) (DotDims.plain 100000 64 64) none (harr3 V c) (warr3 V c) := by
  rw [final3_prod]
  funext i
  rw [eq_ix2 i]
  exact (PlainDot.dotGeneral_apply 100000 64 64 none (harr3 V c) (warr3 V c) (i 0) (i 1)).symm

end Cert.KernelIdeal.Val

end
-- ==== Proof.ValLayer2.lean ====
/-
  A dense layer's product h · W as one array.

  The region multiplies, at each of its 10 grid points, a block of 10000 node rows by the whole 64 × 64 weight and writes the
  product back over the same 10000 rows of the output. Point t's blocks of the node array and of the output start at row
  10000 · t, the weight's block is the whole weight. So what point t writes back is rows 10000 · t … 10000 · t + 9999 of ONE
  array, the product of the whole node array by the weight: at (r, j) the sum over k of h[r, k] · w[k, j]. Row r lies in the
  block of point r / 10000, so the blocks cover the output and the output ends holding that product.
-/
import proofs.«401021_j84602265796764_3_alg».proof.Proof.KIBody4
import proofs.«401021_j84602265796764_3_alg».proof.Proof.PayProj
import proofs.«401021_j84602265796764_3_alg».proof.Proof.LibPlainDotRows
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The region's three arrays: the node rows, the weight, the product. -/
abbrev arrH4 : Ref sig .tc := main_v47
abbrev arrW4 : Ref sig .tc := main_v49
abbrev arrO4 : Ref sig .tc := main_v50

theorem arrRef4_0 : Pipeline.arrRef spec4 0 = arrH4 := rfl
theorem arrRef4_1 : Pipeline.arrRef spec4 1 = arrW4 := rfl
theorem arrRef4_2 : Pipeline.arrRef spec4 2 = arrO4 := rfl

-- the contents of the TensorCore's buffers when the region is entered
variable (V : (c : Dev nD) → (b : Ref sig .tc) → Buf (Elt Ideal) ((c : Thread nD τ).loc b))

/-- The node array and the weight as the region finds them, at their literal types. -/
abbrev harr4 (c : Dev nD) : Vec Ideal S100000x64 .f32 := V c arrH4
abbrev warr4 (c : Dev nD) : Vec Ideal S64x64 .f32 := V c arrW4

/-- The product of the whole node array by the weight. -/
abbrev prod4 (c : Dev nD) : Vec Ideal S100000x64 .f32 :=
  fun i => ∑ k : Fin 64, harr4 V c (ix2 (i 0) k) * warr4 V c (ix2 k (i 1))

theorem hz_4 : (![0, 0] : Fin 2 → Nat) = fun _ => 0 := funext fun a => by fin_cases a <;> rfl

/-- The printed index maps over the grid: the node block and the output block of point t are block (t, 0), the weight's
    is block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row x₀ of point t's node block is row 10000 · t + x₀ of the node array. -/
theorem iblk4_0_apply (c : Dev nD) (t : Fin cfg4.N) (x : S10000x64.Idx) (i : S100000x64.Idx)
    (h0 : (i 0).val = t.val * 10000 + (x 0).val) (h1 : (i 1).val = (x 1).val) :
    (iblk4 V c 0 t : Vec Ideal S10000x64 .f32) x = harr4 V c i := by
  obtain ⟨e0, e1, -⟩ := idx_facts4 t
  unfold iblk4
  rw [View.read_apply]
  show V c arrH4 _ = V c arrH4 _
  congr 1
  funext a
  apply Fin.ext
  match a with
  | ⟨0, _⟩ => show win4_0.index t (0 : Fin 2) * 10000 + 1 * (x 0).val = (i 0).val; rw [e0, h0]; omega
  | ⟨1, _⟩ => show win4_0.index t (1 : Fin 2) * 64 + 1 * (x 1).val = (i 1).val; rw [e1, h1]; omega

/-- The weight's block at any point is the weight. -/
theorem iblk4_1_apply (c : Dev nD) (t : Fin cfg4.N) (x : S64x64.Idx) (i : S64x64.Idx)
    (h0 : (i 0).val = (x 0).val) (h1 : (i 1).val = (x 1).val) :
    (iblk4 V c 1 t : Vec Ideal S64x64 .f32) x = warr4 V c i := by
  obtain ⟨-, -, e0, e1, -⟩ := idx_facts4 t
  unfold iblk4
  rw [View.read_apply]
  show V c arrW4 _ = V c arrW4 _
  congr 1
  funext a
  apply Fin.ext
  match a with
  | ⟨0, _⟩ => show win4_1.index t (0 : Fin 2) * 64 + 1 * (x 0).val = (i 0).val; rw [e0, h0]; omega
  | ⟨1, _⟩ => show win4_1.index t (1 : Fin 2) * 64 + 1 * (x 1).val = (i 1).val; rw [e1, h1]; omega

/-- The body's product of a block of rows by a weight, at a position of the block, is the whole product at the position of the
    array the block's position is, when the block's row is that array row and the block's weight is that weight. -/
theorem pay4_at (x0 : Vec Ideal S10000x64 .f32) (x1 : Vec Ideal S64x64 .f32) (H : Vec Ideal S100000x64 .f32)
    (W : Vec Ideal S64x64 .f32) (y : S10000x64.Idx) (i : S100000x64.Idx)
    (hrow : ∀ k : Fin 64, x0 (ix2 (y 0) k) = H (ix2 (i 0) k)) (hw : ∀ k : Fin 64, x1 (ix2 k (y 1)) = W (ix2 k (i 1))) :
    k4_pay1 (F := Ideal) x0 x1 y = ∑ k : Fin 64, H (ix2 (i 0) k) * W (ix2 k (i 1)) :=
  (congrArg (k4_pay1 (F := Ideal) x0 x1) (eq_ix2 y)).trans
    ((PayProj.k4_pay1_apply x0 x1 (y 0) (y 1)).trans (Finset.sum_congr rfl fun k _ => by rw [hrow k, hw k]))

/-- WHAT POINT t WRITES BACK is block t of the whole product. -/
theorem flushed4_eq (c : Dev nD) (t : Fin cfg4.N) :
    (dat4 (F := Ideal) V c).flushed 2 t = ((cfg4.win 2).blk t).view.read (Elt Ideal) (prod4 V c) := by
  show (cfg4.win 2).cut (cfg4.grid.coords t) ((dat4 (F := Ideal) V c).after 2 t) = _
  rw [after4_2]
  unfold out4_2
  rw [View.canon_unit_zero hz_4]
  simp only [View.ld_unit_zero (S := S10000x64) hz_4, View.ld_unit_zero (S := S64x64) hz_4]
  obtain ⟨-, -, -, -, e0, e1⟩ := idx_facts4 t
  funext y
  show k4_pay1 (F := Ideal) (iblk4 V c 0 t) (iblk4 V c 1 t) y = prod4 V c (((cfg4.win 2).blk t).view.emb y)
  have hy0 : ((((cfg4.win 2).blk t).view.emb y) 0).val = t.val * 10000 + (y 0).val := by
    show win4_2.index t (0 : Fin 2) * 10000 + 1 * (y 0).val = _; rw [e0]; omega
  have hy1 : ((((cfg4.win 2).blk t).view.emb y) 1).val = (y 1).val := by
    show win4_2.index t (1 : Fin 2) * 64 + 1 * (y 1).val = _; rw [e1]; omega
  refine pay4_at (iblk4 V c 0 t) (iblk4 V c 1 t) (harr4 V c) (warr4 V c) y (((cfg4.win 2).blk t).view.emb y) (fun k => ?_) (fun k => ?_)
  · exact iblk4_0_apply V c t (ix2 (y 0) k) (ix2 ((((cfg4.win 2).blk t).view.emb y) 0) k) hy0 rfl
  · exact iblk4_1_apply V c t (ix2 k (y 1)) (ix2 k ((((cfg4.win 2).blk t).view.emb y) 1)) rfl hy1

/-- An index of the output is in point t's block iff its row is among the block's 10000 rows (and its column among all 64). -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole arrO4).slice (win4_2.rect t)).set ↔ _
  rw [View.set_slice_whole, Rect.mem_set_unit]
  exact Iff.rfl

/-- The blocks cover the output: row r is in the block of point r / 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  have ht : t.val = (i 0).val / 10000 := rfl
  obtain ⟨-, -, -, -, e0, e1⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; rw [e0, ht]; omega
  | ⟨1, _⟩ => show win4_2.index t (1 : Fin 2) * 64 ≤ (i 1).val ∧ (i 1).val < win4_2.index t (1 : Fin 2) * 64 + 64; rw [e1]; omega

/-- THE OUTPUT ARRAY after the region: the product of the node array by the weight. -/
theorem final4_prod (c : Dev nD) : (dat4 (F := Ideal) V c).arrAt 2 cfg4.N = prod4 V c :=
  (dat4 (F := Ideal) V c).arrAt_eq_of_cover 2 (prod4 V c) (fun t _ => flushed4_eq V c t) (cover4)

/-- The output at row r and column j: the sum over k of h[r, k] · w[k, j]. -/
theorem final4_apply (c : Dev nD) (r : Fin 100000) (j : Fin 64) :
    ((dat4 (F := Ideal) V c).arrAt 2 cfg4.N : Vec Ideal S100000x64 .f32) (ix2 r j)
      = ∑ k : Fin 64, harr4 V c (ix2 r k) * warr4 V c (ix2 k j) :=
  congrFun (final4_prod V c) (ix2 r j)

/-- The output is the host's plain [100000, 64] × [64, 64] product of the two input arrays. -/
theorem final4 (c : Dev nD) :
    ((dat4 (F := Ideal) V c).arrAt 2 cfg4.N : Vec Ideal S100000x64 .f32)
      = Host.dotGeneral (F := Ideal) (φ₁ := .f32) (φ₂ := .f32) (DotDims.plain 100000 64 64) none (harr4 V c) (warr4 V c) := by
  rw [final4_prod]
  funext i
  rw [eq_ix2 i]
  exact (PlainDot.dotGeneral_apply 100000 64 64 none (harr4 V c) (warr4 V c) (i 0) (i 1)).symm

end Cert.KernelIdeal.Val

end
-- ==== Proof.ValProj.lean ====
/-
  THE THREE PROJECTED ARRAYS.

  The node projection multiplies, at each of its 10 grid points, a block of 10000 node rows X by the whole 64 × 64 weight W,
  adds the bias row b, and multiplies the result E by the two 64 × 64 weights Wa and Wb; it writes E, E · Wa and E · Wb back
  over the same 10000 rows of its three outputs. Point t's blocks of the node array and of the outputs start at row
  10000 · t; the blocks of the weights and of the bias row are the whole arrays. So what point t writes back is rows
  10000 · t … 10000 · t + 9999 of ONE array each: at (r, j)

      E[r, j] = (∑ₖ X[r, k] · W[k, j]) + b[0, j],      A[r, j] = ∑ₖ E[r, k] · Wa[k, j],      B[r, j] = ∑ₖ E[r, k] · Wb[k, j].

  Row r lies in the block of point r / 10000, so the blocks cover each output and the outputs end holding E, A and B.
-/
import proofs.«401021_j84602265796764_3_alg».proof.Proof.KIBody0
import proofs.«401021_j84602265796764_3_alg».proof.Proof.PayProj
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The region's arrays -/

theorem arrRef0_0 : Pipeline.arrRef spec0 0 = main_arg0 := rfl
theorem arrRef0_1 : Pipeline.arrRef spec0 1 = main_arg2 := rfl
theorem arrRef0_2 : Pipeline.arrRef spec0 2 = main_v6 := rfl
theorem arrRef0_3 : Pipeline.arrRef spec0 3 = main_v4 := rfl
theorem arrRef0_4 : Pipeline.arrRef spec0 4 = main_v5 := rfl
theorem arrRef0_5 : Pipeline.arrRef spec0 5 = main_v7_0 := rfl
theorem arrRef0_6 : Pipeline.arrRef spec0 6 = main_v7_1 := rfl
theorem arrRef0_7 : Pipeline.arrRef spec0 7 = main_v7_2 := rfl

-- the contents of the TensorCore's buffers when the region is entered
variable (V : (c : Dev nD) → (b : Ref sig .tc) → Buf (Elt Ideal) ((c : Thread nD τ).loc b))

/-- The five input arrays as the region finds them, at their literal types: the node rows, the input weight, the bias row and
    the two projection weights. -/
abbrev xarr0 (c : Dev nD) : Vec Ideal S100000x64 .f32 := V c main_arg0
abbrev warr0 (c : Dev nD) : Vec Ideal S64x64 .f32 := V c main_arg2
abbrev barr0 (c : Dev nD) : Vec Ideal S1x64 .f32 := V c main_v6
abbrev waarr0 (c : Dev nD) : Vec Ideal S64x64 .f32 := V c main_v4
abbrev wbarr0 (c : Dev nD) : Vec Ideal S64x64 .f32 := V c main_v5

/-- The embedding of the whole node array: X · W plus the bias row on every row. -/
abbrev embArr (X : Vec Ideal S100000x64 .f32) (W : Vec Ideal S64x64 .f32) (B : Vec Ideal S1x64 .f32) : Vec Ideal S100000x64 .f32 :=
  fun i => (∑ k : Fin 64, X (ix2 (i 0) k) * W (ix2 k (i 1))) + B (ix2 (0 : Fin 1) (i 1))

/-- A projection of the embedding: (X · W + b) · P. -/
abbrev projArr (X : Vec Ideal S100000x64 .f32) (W : Vec Ideal S64x64 .f32) (B : Vec Ideal S1x64 .f32) (P : Vec Ideal S64x64 .f32) :
    Vec Ideal S100000x64 .f32 :=
  fun i => ∑ k : Fin 64, ((∑ k' : Fin 64, X (ix2 (i 0) k') * W (ix2 k' k)) + B (ix2 (0 : Fin 1) k)) * P (ix2 k (i 1))

theorem hz_0 : (![0, 0] : Fin 2 → Nat) = fun _ => 0 := funext fun a => by fin_cases a <;> rfl

/-! ## The blocks, read off the arrays -/

/-- The index maps over the grid: the node block and the three output blocks of point t are block (t, 0); the blocks of the
    two-dimensional weights and of the bias row are block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row x₀ of point t's node block is row 10000 · t + x₀ of the node array. -/
theorem iblk0_0_apply (c : Dev nD) (t : Fin cfg0.N) (x : S10000x64.Idx) (i : S100000x64.Idx)
    (h0 : (i 0).val = t.val * 10000 + (x 0).val) (h1 : (i 1).val = (x 1).val) :
    (iblk0 V c 0 t : Vec Ideal S10000x64 .f32) x = xarr0 V c i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 64 + 1 * (x 1).val = (i 1).val; rw [e1, h1]; omega

/-- The input weight's block at any point is the input weight. -/
theorem iblk0_1_apply (c : Dev nD) (t : Fin cfg0.N) (x : S64x64.Idx) (i : S64x64.Idx)
    (h0 : (i 0).val = (x 0).val) (h1 : (i 1).val = (x 1).val) :
    (iblk0 V c 1 t : Vec Ideal S64x64 .f32) x = warr0 V c i := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 64 + 1 * (x 0).val = (i 0).val; rw [e0, h0]; omega
  | ⟨1, _⟩ => show win0_1.index t (1 : Fin 2) * 64 + 1 * (x 1).val = (i 1).val; rw [e1, h1]; omega

/-- The bias row's block at any point is the bias row. -/
theorem iblk0_2_apply (c : Dev nD) (t : Fin cfg0.N) (x : S1x64.Idx) (i : S1x64.Idx)
    (h0 : (i 0).val = (x 0).val) (h1 : (i 1).val = (x 1).val) :
    (iblk0 V c 2 t : Vec Ideal S1x64 .f32) x = barr0 V c i := by
  obtain ⟨-, -, -, -, e0, e1, -⟩ := idx_facts0 t
  unfold iblk0
  rw [View.read_apply]
  show V c main_v6 _ = V c main_v6 _
  congr 1
  funext a
  apply Fin.ext
  match a with
  | ⟨0, _⟩ => show win0_2.index t (0 : Fin 2) * 1 + 1 * (x 0).val = (i 0).val; rw [e0, h0]; omega
  | ⟨1, _⟩ => show win0_2.index t (1 : Fin 2) * 64 + 1 * (x 1).val = (i 1).val; rw [e1, h1]; omega

/-- The first projection weight's block at any point is that weight. -/
theorem iblk0_3_apply (c : Dev nD) (t : Fin cfg0.N) (x : S64x64.Idx) (i : S64x64.Idx)
    (h0 : (i 0).val = (x 0).val) (h1 : (i 1).val = (x 1).val) :
    (iblk0 V c 3 t : Vec Ideal S64x64 .f32) x = waarr0 V c i := by
  obtain ⟨-, -, -, -, -, -, e0, e1, -⟩ := idx_facts0 t
  unfold iblk0
  rw [View.read_apply]
  show V c main_v4 _ = V c main_v4 _
  congr 1
  funext a
  apply Fin.ext
  match a with
  | ⟨0, _⟩ => show win0_3.index t (0 : Fin 2) * 64 + 1 * (x 0).val = (i 0).val; rw [e0, h0]; omega
  | ⟨1, _⟩ => show win0_3.index t (1 : Fin 2) * 64 + 1 * (x 1).val = (i 1).val; rw [e1, h1]; omega

/-- The second projection weight's block at any point is that weight. -/
theorem iblk0_4_apply (c : Dev nD) (t : Fin cfg0.N) (x : S64x64.Idx) (i : S64x64.Idx)
    (h0 : (i 0).val = (x 0).val) (h1 : (i 1).val = (x 1).val) :
    (iblk0 V c 4 t : Vec Ideal S64x64 .f32) x = wbarr0 V c i := by
  obtain ⟨-, -, -, -, -, -, -, -, e0, e1, -⟩ := idx_facts0 t
  unfold iblk0
  rw [View.read_apply]
  show V c main_v5 _ = V c main_v5 _
  congr 1
  funext a
  apply Fin.ext
  match a with
  | ⟨0, _⟩ => show win0_4.index t (0 : Fin 2) * 64 + 1 * (x 0).val = (i 0).val; rw [e0, h0]; omega
  | ⟨1, _⟩ => show win0_4.index t (1 : Fin 2) * 64 + 1 * (x 1).val = (i 1).val; rw [e1, h1]; omega

/-! ## The body's three stored values at a position of the block, as entries of the whole arrays -/

/-- The block's embedding at a position is the whole embedding at the position of the array the block's position is, when the
    block's row is that array row and the block's weight and bias row are the whole ones. -/
theorem proj_pay1_at (x0 : Vec Ideal S10000x64 .f32) (x1 : Vec Ideal S64x64 .f32) (x2 : Vec Ideal S1x64 .f32)
    (X : Vec Ideal S100000x64 .f32) (W : Vec Ideal S64x64 .f32) (B : Vec Ideal S1x64 .f32) (y : S10000x64.Idx) (i : S100000x64.Idx)
    (hrow : ∀ k : Fin 64, x0 (ix2 (y 0) k) = X (ix2 (i 0) k)) (hw : ∀ k : Fin 64, x1 (ix2 k (y 1)) = W (ix2 k (i 1)))
    (hb : x2 (ix2 (0 : Fin 1) (y 1)) = B (ix2 (0 : Fin 1) (i 1))) :
    k0_pay1 (F := Ideal) x0 x1 x2 y = embArr X W B i :=
  (congrArg (k0_pay1 (F := Ideal) x0 x1 x2) (eq_ix2 y)).trans
    ((PayProj.k0_pay1_apply x0 x1 x2 (y 0) (y 1)).trans
      (congrArg₂ (· + ·) (Finset.sum_congr rfl fun k _ => by rw [hrow k, hw k]) hb))

/-- The block's first projection at a position is the whole first projection there, likewise. -/
theorem proj_pay3_at (x0 : Vec Ideal S10000x64 .f32) (x1 : Vec Ideal S64x64 .f32) (x2 : Vec Ideal S1x64 .f32) (x3 : Vec Ideal S64x64 .f32)
    (X : Vec Ideal S100000x64 .f32) (W : Vec Ideal S64x64 .f32) (B : Vec Ideal S1x64 .f32) (P : Vec Ideal S64x64 .f32)
    (y : S10000x64.Idx) (i : S100000x64.Idx)
    (hrow : ∀ k : Fin 64, x0 (ix2 (y 0) k) = X (ix2 (i 0) k)) (hw : ∀ k' k : Fin 64, x1 (ix2 k' k) = W (ix2 k' k))
    (hb : ∀ k : Fin 64, x2 (ix2 (0 : Fin 1) k) = B (ix2 (0 : Fin 1) k)) (hp : ∀ k : Fin 64, x3 (ix2 k (y 1)) = P (ix2 k (i 1))) :
    k0_pay3 (F := Ideal) x0 x1 x2 x3 y = projArr X W B P i :=
  (congrArg (k0_pay3 (F := Ideal) x0 x1 x2 x3) (eq_ix2 y)).trans
    ((PayProj.k0_pay3_apply x0 x1 x2 x3 (y 0) (y 1)).trans
      (Finset.sum_congr rfl fun k _ => congrArg₂ (· * ·)
        ((PayProj.k0_pay1_apply x0 x1 x2 (y 0) k).trans
          (congrArg₂ (· + ·) (Finset.sum_congr rfl fun k' _ => by rw [hrow k', hw k' k]) (hb k)))
        (hp k)))

/-- The block's second projection at a position is the whole second projection there, likewise. -/
theorem proj_pay4_at (x0 : Vec Ideal S10000x64 .f32) (x1 : Vec Ideal S64x64 .f32) (x2 : Vec Ideal S1x64 .f32) (x4 : Vec Ideal S64x64 .f32)
    (X : Vec Ideal S100000x64 .f32) (W : Vec Ideal S64x64 .f32) (B : Vec Ideal S1x64 .f32) (P : Vec Ideal S64x64 .f32)
    (y : S10000x64.Idx) (i : S100000x64.Idx)
    (hrow : ∀ k : Fin 64, x0 (ix2 (y 0) k) = X (ix2 (i 0) k)) (hw : ∀ k' k : Fin 64, x1 (ix2 k' k) = W (ix2 k' k))
    (hb : ∀ k : Fin 64, x2 (ix2 (0 : Fin 1) k) = B (ix2 (0 : Fin 1) k)) (hp : ∀ k : Fin 64, x4 (ix2 k (y 1)) = P (ix2 k (i 1))) :
    k0_pay4 (F := Ideal) x0 x1 x2 x4 y = projArr X W B P i :=
  (congrArg (k0_pay4 (F := Ideal) x0 x1 x2 x4) (eq_ix2 y)).trans
    ((PayProj.k0_pay4_apply x0 x1 x2 x4 (y 0) (y 1)).trans
      (Finset.sum_congr rfl fun k _ => congrArg₂ (· * ·)
        ((PayProj.k0_pay1_apply x0 x1 x2 (y 0) k).trans
          (congrArg₂ (· + ·) (Finset.sum_congr rfl fun k' _ => by rw [hrow k', hw k' k]) (hb k)))
        (hp k)))

/-! ## What a point writes back -/

/-- WHAT POINT t WRITES BACK to the first output is block t of the whole embedding. -/
theorem flushed0_5_eq (c : Dev nD) (t : Fin cfg0.N) :
    (dat0 (F := Ideal) V c).flushed 5 t
      = ((cfg0.win 5).blk t).view.read (Elt Ideal) (embArr (xarr0 V c) (warr0 V c) (barr0 V c)) := by
  show (cfg0.win 5).cut (cfg0.grid.coords t) ((dat0 (F := Ideal) V c).after 5 t) = _
  rw [after0_5]
  unfold out0_5
  rw [View.canon_unit_zero hz_0]
  simp only [View.ld_unit_zero (S := S10000x64) hz_0, View.ld_unit_zero (S := S64x64) hz_0, View.ld_unit_zero (S := S1x64) hz_0]
  obtain ⟨-, -, -, -, -, -, -, -, -, -, e0, e1, -⟩ := idx_facts0 t
  funext y
  show k0_pay1 (F := Ideal) (iblk0 V c 0 t) (iblk0 V c 1 t) (iblk0 V c 2 t) y
    = embArr (xarr0 V c) (warr0 V c) (barr0 V c) (((cfg0.win 5).blk t).view.emb y)
  have hy0 : ((((cfg0.win 5).blk t).view.emb y) 0).val = t.val * 10000 + (y 0).val := by
    show win0_5.index t (0 : Fin 2) * 10000 + 1 * (y 0).val = _; rw [e0]; omega
  have hy1 : ((((cfg0.win 5).blk t).view.emb y) 1).val = (y 1).val := by
    show win0_5.index t (1 : Fin 2) * 64 + 1 * (y 1).val = _; rw [e1]; omega
  refine proj_pay1_at (iblk0 V c 0 t) (iblk0 V c 1 t) (iblk0 V c 2 t) (xarr0 V c) (warr0 V c) (barr0 V c) y
    (((cfg0.win 5).blk t).view.emb y) (fun k => ?_) (fun k => ?_) ?_
  · exact iblk0_0_apply V c t (ix2 (y 0) k) (ix2 ((((cfg0.win 5).blk t).view.emb y) 0) k) hy0 rfl
  · exact iblk0_1_apply V c t (ix2 k (y 1)) (ix2 k ((((cfg0.win 5).blk t).view.emb y) 1)) rfl hy1
  · exact iblk0_2_apply V c t (ix2 (0 : Fin 1) (y 1)) (ix2 (0 : Fin 1) ((((cfg0.win 5).blk t).view.emb y) 1)) rfl hy1

/-- WHAT POINT t WRITES BACK to the second output is block t of the whole first projection. -/
theorem flushed0_6_eq (c : Dev nD) (t : Fin cfg0.N) :
    (dat0 (F := Ideal) V c).flushed 6 t
      = ((cfg0.win 6).blk t).view.read (Elt Ideal) (projArr (xarr0 V c) (warr0 V c) (barr0 V c) (waarr0 V c)) := by
  show (cfg0.win 6).cut (cfg0.grid.coords t) ((dat0 (F := Ideal) V c).after 6 t) = _
  rw [after0_6]
  unfold out0_6
  rw [View.canon_unit_zero hz_0]
  simp only [View.ld_unit_zero (S := S10000x64) hz_0, View.ld_unit_zero (S := S64x64) hz_0, View.ld_unit_zero (S := S1x64) hz_0]
  obtain ⟨-, -, -, -, -, -, -, -, -, -, -, -, e0, e1, -⟩ := idx_facts0 t
  funext y
  show k0_pay3 (F := Ideal) (iblk0 V c 0 t) (iblk0 V c 1 t) (iblk0 V c 2 t) (iblk0 V c 3 t) y
    = projArr (xarr0 V c) (warr0 V c) (barr0 V c) (waarr0 V c) (((cfg0.win 6).blk t).view.emb y)
  have hy0 : ((((cfg0.win 6).blk t).view.emb y) 0).val = t.val * 10000 + (y 0).val := by
    show win0_6.index t (0 : Fin 2) * 10000 + 1 * (y 0).val = _; rw [e0]; omega
  have hy1 : ((((cfg0.win 6).blk t).view.emb y) 1).val = (y 1).val := by
    show win0_6.index t (1 : Fin 2) * 64 + 1 * (y 1).val = _; rw [e1]; omega
  refine proj_pay3_at (iblk0 V c 0 t) (iblk0 V c 1 t) (iblk0 V c 2 t) (iblk0 V c 3 t) (xarr0 V c) (warr0 V c) (barr0 V c) (waarr0 V c) y
    (((cfg0.win 6).blk t).view.emb y) (fun k => ?_) (fun k' k => ?_) (fun k => ?_) (fun k => ?_)
  · exact iblk0_0_apply V c t (ix2 (y 0) k) (ix2 ((((cfg0.win 6).blk t).view.emb y) 0) k) hy0 rfl
  · exact iblk0_1_apply V c t (ix2 k' k) (ix2 k' k) rfl rfl
  · exact iblk0_2_apply V c t (ix2 (0 : Fin 1) k) (ix2 (0 : Fin 1) k) rfl rfl
  · exact iblk0_3_apply V c t (ix2 k (y 1)) (ix2 k ((((cfg0.win 6).blk t).view.emb y) 1)) rfl hy1

/-- WHAT POINT t WRITES BACK to the third output is block t of the whole second projection. -/
theorem flushed0_7_eq (c : Dev nD) (t : Fin cfg0.N) :
    (dat0 (F := Ideal) V c).flushed 7 t
      = ((cfg0.win 7).blk t).view.read (Elt Ideal) (projArr (xarr0 V c) (warr0 V c) (barr0 V c) (wbarr0 V c)) := by
  show (cfg0.win 7).cut (cfg0.grid.coords t) ((dat0 (F := Ideal) V c).after 7 t) = _
  rw [after0_7]
  unfold out0_7
  rw [View.canon_unit_zero hz_0]
  simp only [View.ld_unit_zero (S := S10000x64) hz_0, View.ld_unit_zero (S := S64x64) hz_0, View.ld_unit_zero (S := S1x64) hz_0]
  obtain ⟨-, -, -, -, -, -, -, -, -, -, -, -, -, -, e0, e1⟩ := idx_facts0 t
  funext y
  show k0_pay4 (F := Ideal) (iblk0 V c 0 t) (iblk0 V c 1 t) (iblk0 V c 2 t) (iblk0 V c 4 t) y
    = projArr (xarr0 V c) (warr0 V c) (barr0 V c) (wbarr0 V c) (((cfg0.win 7).blk t).view.emb y)
  have hy0 : ((((cfg0.win 7).blk t).view.emb y) 0).val = t.val * 10000 + (y 0).val := by
    show win0_7.index t (0 : Fin 2) * 10000 + 1 * (y 0).val = _; rw [e0]; omega
  have hy1 : ((((cfg0.win 7).blk t).view.emb y) 1).val = (y 1).val := by
    show win0_7.index t (1 : Fin 2) * 64 + 1 * (y 1).val = _; rw [e1]; omega
  refine proj_pay4_at (iblk0 V c 0 t) (iblk0 V c 1 t) (iblk0 V c 2 t) (iblk0 V c 4 t) (xarr0 V c) (warr0 V c) (barr0 V c) (wbarr0 V c) y
    (((cfg0.win 7).blk t).view.emb y) (fun k => ?_) (fun k' k => ?_) (fun k => ?_) (fun k => ?_)
  · exact iblk0_0_apply V c t (ix2 (y 0) k) (ix2 ((((cfg0.win 7).blk t).view.emb y) 0) k) hy0 rfl
  · exact iblk0_1_apply V c t (ix2 k' k) (ix2 k' k) rfl rfl
  · exact iblk0_2_apply V c t (ix2 (0 : Fin 1) k) (ix2 (0 : Fin 1) k) rfl rfl
  · exact iblk0_4_apply V c t (ix2 k (y 1)) (ix2 k ((((cfg0.win 7).blk t).view.emb y) 1)) rfl hy1

/-! ## The blocks cover the outputs -/

/-- An index of the first output is in point t's block iff its row is among the block's 10000 rows (and its column among all 64). -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v7_0).slice (win0_5.rect t)).set ↔ _
  rw [View.set_slice_whole, Rect.mem_set_unit]
  exact Iff.rfl

theorem mem_blk0_6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v7_1).slice (win0_6.rect t)).set ↔ _
  rw [View.set_slice_whole, Rect.mem_set_unit]
  exact Iff.rfl

theorem mem_blk0_7 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v7_2).slice (win0_7.rect t)).set ↔ _
  rw [View.set_slice_whole, Rect.mem_set_unit]
  exact Iff.rfl

/-- The blocks cover the first output: row r is in the block of point r / 10000. -/
theorem cover0_5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, -, -, -, -, -, -, e0, e1, -⟩ := idx_facts0 t
  refine ⟨t, flush0_5 t, ?_⟩
  rw [mem_blk0_5]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

/-- The blocks cover the second output. -/
theorem cover0_6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, -, -, -, -, -, -, -, -, e0, e1, -⟩ := idx_facts0 t
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; rw [e0, ht]; omega
  | ⟨1, _⟩ => show win0_6.index t (1 : Fin 2) * 64 ≤ (i 1).val ∧ (i 1).val < win0_6.index t (1 : Fin 2) * 64 + 64; rw [e1]; omega

/-- The blocks cover the third output. -/
theorem cover0_7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, -, -, -, -, -, -, -, -, -, -, e0, e1⟩ := idx_facts0 t
  refine ⟨t, flush0_7 t, ?_⟩
  rw [mem_blk0_7]
  intro a
  match a with
  | ⟨0, _⟩ => show win0_7.index t (0 : Fin 2) * 10000 ≤ (i 0).val ∧ (i 0).val < win0_7.index t (0 : Fin 2) * 10000 + 10000; rw [e0, ht]; omega
  | ⟨1, _⟩ => show win0_7.index t (1 : Fin 2) * 64 ≤ (i 1).val ∧ (i 1).val < win0_7.index t (1 : Fin 2) * 64 + 64; rw [e1]; omega

/-! ## The three arrays after the region -/

/-- THE FIRST OUTPUT after the region: the embedding of the node array. -/
theorem final0_emb (c : Dev nD) :
    (dat0 (F := Ideal) V c).arrAt 5 cfg0.N = embArr (xarr0 V c) (warr0 V c) (barr0 V c) :=
  (dat0 (F := Ideal) V c).arrAt_eq_of_cover 5 (embArr (xarr0 V c) (warr0 V c) (barr0 V c)) (fun t _ => flushed0_5_eq V c t) cover0_5

/-- THE SECOND OUTPUT after the region: the embedding's first projection. -/
theorem final0_a (c : Dev nD) :
    (dat0 (F := Ideal) V c).arrAt 6 cfg0.N = projArr (xarr0 V c) (warr0 V c) (barr0 V c) (waarr0 V c) :=
  (dat0 (F := Ideal) V c).arrAt_eq_of_cover 6 (projArr (xarr0 V c) (warr0 V c) (barr0 V c) (waarr0 V c)) (fun t _ => flushed0_6_eq V c t) cover0_6

/-- THE THIRD OUTPUT after the region: the embedding's second projection. -/
theorem final0_b (c : Dev nD) :
    (dat0 (F := Ideal) V c).arrAt 7 cfg0.N = projArr (xarr0 V c) (warr0 V c) (barr0 V c) (wbarr0 V c) :=
  (dat0 (F := Ideal) V c).arrAt_eq_of_cover 7 (projArr (xarr0 V c) (warr0 V c) (barr0 V c) (wbarr0 V c)) (fun t _ => flushed0_7_eq V c t) cover0_7

/-- The first output at row r and column j. -/
theorem emb_apply (c : Dev nD) (r : Fin 100000) (j : Fin 64) :
    ((dat0 (F := Ideal) V c).arrAt 5 cfg0.N : Vec Ideal S100000x64 .f32) (ix2 r j)
      = (∑ k : Fin 64, xarr0 V c (ix2 r k) * warr0 V c (ix2 k j)) + barr0 V c (ix2 (0 : Fin 1) j) :=
  congrFun (final0_emb V c) (ix2 r j)

/-- The second output at row r and column j. -/
theorem a_apply (c : Dev nD) (r : Fin 100000) (j : Fin 64) :
    ((dat0 (F := Ideal) V c).arrAt 6 cfg0.N : Vec Ideal S100000x64 .f32) (ix2 r j)
      = ∑ k : Fin 64, ((∑ k' : Fin 64, xarr0 V c (ix2 r k') * warr0 V c (ix2 k' k)) + barr0 V c (ix2 (0 : Fin 1) k)) * waarr0 V c (ix2 k j) :=
  congrFun (final0_a V c) (ix2 r j)

/-- The third output at row r and column j. -/
theorem b_apply (c : Dev nD) (r : Fin 100000) (j : Fin 64) :
    ((dat0 (F := Ideal) V c).arrAt 7 cfg0.N : Vec Ideal S100000x64 .f32) (ix2 r j)
      = ∑ k : Fin 64, ((∑ k' : Fin 64, xarr0 V c (ix2 r k') * warr0 V c (ix2 k' k)) + barr0 V c (ix2 (0 : Fin 1) k)) * wbarr0 V c (ix2 k j) :=
  congrFun (final0_b V c) (ix2 r j)

end Cert.KernelIdeal.Val

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.PayMask.lean ====
/-
  The edge-mask body's stored value, read at an index, over the extended reals.

  For row p of a block of 10000 edges, with ar and bc the gathered projections of the edge's two endpoints, l1b the first
  layer's bias row, l2w the second layer's weight row and l2b its bias cell, the stored column at (p, u) is

      logistic ( (∑ d < 64, max (ar(p,d) + bc(p,d) + l1b(0,d)) 0 * l2w(0,d)) + l2b(0,0) ).

  Reading the body from the outside in: the logistic and the outer sum act pointwise; the [10000] vector cast to a
  [10000, 1] column reads the vector at p; the sum along the second axis from the neutral accumulator is the sum over the
  64 lanes; products, maxima and sums act pointwise; a row [1, 64] broadcast over 10000 rows reads its one row at the same
  lane, and a cell [1, 1] broadcast over 10000 rows reads its one cell; a cast between equal shapes is the identity; the
  constant with all bits zero is the real number zero.
-/
import proofs.«401021_j84602265796764_3_alg».proof.Proof.Gen.KernelIdeal.Skeleton
import proofs.«401021_j84602265796764_3_alg».proof.Proof.LibKeepdimsColumn
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.PayMask

open Idealize.ShloMosaic Idealize.SL.Sem Idealize.ShloMosaic.ValueIdx
open Cert.KernelIdeal Cert.KernelIdeal.Gen

/-- The stored mask at row `p` (and the unit column `u`): the logistic of the second layer's affine form of the rectified
    first-layer sums along the 64 lanes. -/
theorem k1_pay1_apply (ar bc : Vec Ideal S10000x64 .f32) (l1b l2w : Vec Ideal S1x64 .f32) (l2b : Vec Ideal S1x1 .f32)
    (p : Fin 10000) (u : Fin 1) :
    k1_pay1 (F := Ideal) ar bc l1b l2w l2b (ix2 p u)
      = Ideal.logistic ((∑ d : Fin 64, max (ar (ix2 p d) + bc (ix2 p d) + l1b (ix2 (0 : Fin 1) d)) 0 * l2w (ix2 (0 : Fin 1) d))
          + l2b (ix2 (0 : Fin 1) (0 : Fin 1))) := by
  unfold k1_pay1
  -- the logistic, then the outer sum, act pointwise
  refine congrArg Ideal.logistic ?_
  refine congrArg₂ (· + ·) ?_ ?_
  · -- the column at (p, u) is the vector at p, which is the sum over the lanes of row p
    refine (KeepdimsColumn.shapeCast_a_a1_apply _ _ p u).trans ?_
    refine (KeepdimsColumn.laneSum_ab_apply _ _ _ _ _ p).trans ?_
    refine Finset.sum_congr rfl fun d _ => ?_
    -- at lane d: the rectified first-layer sum times the weight row's entry
    refine congrArg₂ (· * ·) ?_ ?_
    · refine congrArg₂ max ?_ Ideal.ofBits_zero_f32
      refine congrArg₂ (· + ·) (congrArg₂ (· + ·) ?_ ?_) ?_
      · exact congrFun (shapeCast_self ar _) _
      · exact congrFun (shapeCast_self bc _) _
      · refine (broadcastTo_1b_ab_apply _ _ p d).trans ?_
        exact congrFun (shapeCast_self l1b _) _
    · refine (broadcastTo_1b_ab_apply _ _ p d).trans ?_
      exact congrFun (shapeCast_self l2w _) _
  · -- the bias cell, broadcast over the rows; the unit coordinate is 0
    refine (broadcastTo_1b_ab_apply _ _ p u).trans ?_
    refine (congrFun (shapeCast_self l2b _) _).trans ?_
    exact congrArg l2b (congrArg (ix2 (0 : Fin 1)) (Subsingleton.elim u 0))

end Cert.KernelIdeal.PayMask

end
-- ==== Proof.ValMask.lean ====
/-
  The edge mask as one array: after the edge-mask region, the [1600000, 1] mask array is, at every edge, the logistic of
  the lane sum.

  The region runs over 160 grid points; point t handles edges 10000 t … 10000 t + 9999. Its body reads the block t of
  the two gathered projections (10000 rows of 64), the whole first-layer bias row, the whole second-layer weight row and
  the second-layer bias cell, and stores over the whole mask block, at row p,

      logistic ( (∑ d < 64, max (A(10000 t + p, d) + B(10000 t + p, d) + l1b(0, d)) 0 * l2w(0, d)) + l2b(0, 0) ).

  So what point t writes back is block t of ONE function of the five arrays, the function `mask` below; the 160 blocks
  tile the mask array (edge r lies in the block of point r / 10000); hence after the region the array is `mask` of the
  five arrays as the region finds them.
-/
import proofs.«401021_j84602265796764_3_alg».proof.Proof.KIBody1
import proofs.«401021_j84602265796764_3_alg».proof.Proof.PayMask
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

-- the contents of the TensorCore's buffers when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The mask of every edge as one function of the five arrays: at edge `i 0`, the logistic of the second layer's affine
    form of the rectified first-layer sums along the 64 lanes. -/
def mask (A B : Vec Ideal S1600000x64 .f32) (l1b l2w : Vec Ideal S1x64 .f32) (l2b : Vec Ideal S1x1 .f32) :
    Vec Ideal S1600000x1 .f32 :=
  fun i => Ideal.logistic ((∑ d : Fin 64, max (A (ix2 (n0 := 1600000) (i 0) d) + B (ix2 (n0 := 1600000) (i 0) d)
      + l1b (ix2 (0 : Fin 1) d)) 0 * l2w (ix2 (0 : Fin 1) d)) + l2b (ix2 (0 : Fin 1) (0 : Fin 1)))

/-- The index maps over the grid: the two edge windows and the mask window are at block t along the rows, the two rows
    and the cell stay at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the mask of the arrays as the region finds them. -/
theorem flushed_eq (c : Dev nD) (t : Fin cfg1.N) :
    (Hand.dat1 (F := Ideal) V c).flushed 5 t
      = ((cfg1.win 5).blk t).view.read (Elt Ideal) (mask (V c main_v8) (V c main_v9) (V c main_v13) (V c main_v11) (V c main_v12)) := by
  show (cfg1.win 5).cut (grid1.coords t) ((Hand.dat1 V c).after 5 t) = _
  rw [Hand.after1_5]
  unfold Hand.out1_5
  rw [View.canon_unit_zero zero_offsets]
  simp only [View.ld_unit_zero (S := S10000x64) zero_offsets, View.ld_unit_zero (S := S1x64) zero_offsets,
    View.ld_unit_zero (S := S1x1) zero_offsets]
  obtain ⟨e00, e01, e10, e11, e20, e21, e30, e31, e40, e41, e50, e51⟩ := index_facts t
  funext j
  obtain ⟨p, u, rfl⟩ : ∃ (p : Fin 10000) (u : Fin 1), j = ix2 p u := ⟨j 0, j 1, eq_ix2 j⟩
  show k1_pay1 (F := Ideal) (Hand.iblk1 V c 0 t) (Hand.iblk1 V c 1 t) (Hand.iblk1 V c 2 t) (Hand.iblk1 V c 3 t) (Hand.iblk1 V c 4 t) (ix2 p u)
    = mask (V c main_v8) (V c main_v9) (V c main_v13) (V c main_v11) (V c main_v12) (((cfg1.win 5).blk t).view.emb (ix2 p u))
  refine (PayMask.k1_pay1_apply _ _ _ _ _ p u).trans ?_
  refine congrArg Ideal.logistic (congrArg₂ (· + ·) (Finset.sum_congr rfl fun d _ => ?_) ?_)
  · refine congrArg₂ (· * ·) (congrArg₂ max (congrArg₂ (· + ·) (congrArg₂ (· + ·) ?_ ?_) ?_) rfl) ?_
    · show V c main_v8 (((cfg1.win 0).blk t).view.emb (ix2 p d))
        = V c main_v8 (ix2 (n0 := 1600000) ((((cfg1.win 5).blk t).view.emb (ix2 p u)) 0) d)
      refine congrArg (V c main_v8) (funext fun a => Fin.ext ?_)
      match a with
      | ⟨0, _⟩ => show win1_0.index t (0 : Fin 2) * 10000 + 1 * p.val = win1_5.index t (0 : Fin 2) * 10000 + 1 * p.val; rw [e00, e50]
      | ⟨1, _⟩ => show win1_0.index t (1 : Fin 2) * 64 + 1 * d.val = d.val; rw [e01]; omega
    · show V c main_v9 (((cfg1.win 1).blk t).view.emb (ix2 p d))
        = V c main_v9 (ix2 (n0 := 1600000) ((((cfg1.win 5).blk t).view.emb (ix2 p u)) 0) d)
      refine congrArg (V c main_v9) (funext fun a => Fin.ext ?_)
      match a with
      | ⟨0, _⟩ => show win1_1.index t (0 : Fin 2) * 10000 + 1 * p.val = win1_5.index t (0 : Fin 2) * 10000 + 1 * p.val; rw [e10, e50]
      | ⟨1, _⟩ => show win1_1.index t (1 : Fin 2) * 64 + 1 * d.val = d.val; rw [e11]; omega
    · show V c main_v13 (((cfg1.win 2).blk t).view.emb (ix2 (0 : Fin 1) d)) = V c main_v13 (ix2 (0 : Fin 1) d)
      refine congrArg (V c main_v13) (funext fun a => Fin.ext ?_)
      match a with
      | ⟨0, _⟩ => show win1_2.index t (0 : Fin 2) * 1 + 1 * 0 = 0; rw [e20]
      | ⟨1, _⟩ => show win1_2.index t (1 : Fin 2) * 64 + 1 * d.val = d.val; rw [e21]; omega
    · show V c main_v11 (((cfg1.win 3).blk t).view.emb (ix2 (0 : Fin 1) d)) = V c main_v11 (ix2 (0 : Fin 1) d)
      refine congrArg (V c main_v11) (funext fun a => Fin.ext ?_)
      match a with
      | ⟨0, _⟩ => show win1_3.index t (0 : Fin 2) * 1 + 1 * 0 = 0; rw [e30]
      | ⟨1, _⟩ => show win1_3.index t (1 : Fin 2) * 64 + 1 * d.val = d.val; rw [e31]; omega
  · show V c main_v12 (((cfg1.win 4).blk t).view.emb (ix2 (0 : Fin 1) (0 : Fin 1))) = V c main_v12 (ix2 (0 : Fin 1) (0 : Fin 1))
    refine congrArg (V c main_v12) (funext fun a => Fin.ext ?_)
    match a with
    | ⟨0, _⟩ => show win1_4.index t (0 : Fin 2) * 1 + 1 * 0 = 0; rw [e40]
    | ⟨1, _⟩ => show win1_4.index t (1 : Fin 2) * 1 + 1 * 0 = 0; rw [e41]

/-- An index of the mask array is in point t's block iff each coordinate is in the block's range on its axis. -/
theorem mem_blk (t : Fin cfg1.N) (i : S1600000x1.Idx) :
    i ∈ ((cfg1.win 5).blk t).view.set
      ↔ ∀ a : Fin 2, win1_5.index t a * S10000x1.size a ≤ (i a).val ∧ (i a).val < win1_5.index t a * S10000x1.size a + S10000x1.size a := by
  show i ∈ ((View.whole main_v14).slice (win1_5.rect t)).set ↔ _
  rw [View.set_slice_whole, Rect.mem_set_unit]
  exact Iff.rfl

/-- Every edge is in some point's block: edge r in the block of point r / 10000. -/
theorem cover (i : S1600000x1.Idx) :
    ∃ t : Fin cfg1.N, (cfg1.win 5).flush t = true ∧ i ∈ ((cfg1.win 5).blk t).view.set := by
  have hi0 : (i 0).val < 1600000 := (i 0).isLt
  have hi1 : (i 1).val < 1 := (i 1).isLt
  have hN : cfg1.N = 160 := N_1
  have ht : (i 0).val / 10000 < cfg1.N := by rw [hN]; omega
  obtain ⟨-, -, -, -, -, -, -, -, -, -, e50, e51⟩ := index_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, ht⟩ (1 : Fin 2) * 1 ≤ (i 1).val
      ∧ (i 1).val < win1_5.index ⟨(i 0).val / 10000, ht⟩ (1 : Fin 2) * 1 + 1
    rw [e51]; omega

/-- After the region the mask array is the mask of the arrays as the region finds them. -/
theorem final1 (c : Dev nD) :
    (Hand.dat1 (F := Ideal) V c).arrAt 5 cfg1.N = mask (V c main_v8) (V c main_v9) (V c main_v13) (V c main_v11) (V c main_v12) :=
  (Hand.dat1 (F := Ideal) V c).arrAt_eq_of_cover 5 _ (fun t _ => flushed_eq V c t) cover

/-- The mask read at edge e (and the unit column u). -/
theorem mask_apply (A B : Vec Ideal S1600000x64 .f32) (l1b l2w : Vec Ideal S1x64 .f32) (l2b : Vec Ideal S1x1 .f32)
    (e : Fin 1600000) (u : Fin 1) :
    mask A B l1b l2w l2b (ix2 e u)
      = Ideal.logistic ((∑ d : Fin 64, max (A (ix2 e d) + B (ix2 e d) + l1b (ix2 (0 : Fin 1) d)) 0 * l2w (ix2 (0 : Fin 1) d))
          + l2b (ix2 (0 : Fin 1) (0 : Fin 1))) := rfl

/-- After the region the mask array, read at edge e: the logistic of the second layer's affine form of the rectified
    first-layer sums along the 64 lanes, of the five arrays as the region finds them (named A, B, l1b, l2w, l2b at their
    literal shapes). -/
theorem final1_apply (c : Dev nD) (A B : Vec Ideal S1600000x64 .f32) (l1b l2w : Vec Ideal S1x64 .f32) (l2b : Vec Ideal S1x1 .f32)
    (hA : A = V c main_v8) (hB : B = V c main_v9) (hl1b : l1b = V c main_v13) (hl2w : l2w = V c main_v11)
    (hl2b : l2b = V c main_v12) (e : Fin 1600000) (u : Fin 1) :
    (Hand.dat1 (F := Ideal) V c).arrAt 5 cfg1.N (ix2 e u)
      = Ideal.logistic ((∑ d : Fin 64, max (A (ix2 e d) + B (ix2 e d) + l1b (ix2 (0 : Fin 1) d)) 0 * l2w (ix2 (0 : Fin 1) d))
          + l2b (ix2 (0 : Fin 1) (0 : Fin 1))) := by
  subst hA hB hl1b hl2w hl2b
  exact (congrFun (final1 V c) (ix2 e u)).trans (mask_apply _ _ _ _ _ e u)

end Cert.KernelIdeal.Val

end
-- ==== Proof.BridgeRegion.lean ====
/- EACH REGION'S OUTPUT ARRAY AGAINST THE REFERENCE'S STAGE, over the extended reals.

   The kernel's program computes the graph network in five regions; the reference computes the same arrays one
   operation at a time. Region 0 leaves the embedding emb = x0 x2 + x3 and its two edge projections A = emb Wa,
   B = emb Wb (Wa, Wb the two halves of x4); region 1 leaves the edge mask, the logistic of
   (sum over lanes of relu(A[row] + B[col] + x5) * x6) + x7; regions 2, 3, 4 leave a layer's product h W. Each is shown
   equal to the reference's stage for the same array, given that the region's operand buffers hold the reference's
   arguments or earlier stages. First the reference's stages read at an index, as sums over plain coordinates; then an
   array known entry by entry (or as one product) against the stage; last the regions' arrays themselves. -/
import proofs.«401021_j84602265796764_3_alg».proof.Proof.Gen.ReferenceIdeal.Read
import proofs.«401021_j84602265796764_3_alg».proof.Proof.ValLayer0
import proofs.«401021_j84602265796764_3_alg».proof.Proof.ValLayer1
import proofs.«401021_j84602265796764_3_alg».proof.Proof.ValLayer2
import proofs.«401021_j84602265796764_3_alg».proof.Proof.ValProj
import proofs.«401021_j84602265796764_3_alg».proof.Proof.ValMask
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx

section Core
open Cert.ReferenceIdeal Cert.ReferenceIdeal.Read

/-- The f32 pattern of 1.0 denotes 1. -/
theorem ofBits_one_f32 : Ideal.ofBits .f32 0x3F800000#32 = 1 := by
  simp [Ideal.ofBits, Ideal.ieee, -EReal.coe_mul]; norm_num

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S128x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))
  (x8 : (⟨S3x64x64, .f32⟩ : BufTy).Contents (Elt Ideal)) (x9 : (⟨S3x64, .f32⟩ : BufTy).Contents (Elt Ideal))

/-- The projected embedding at row r, column j: the row of x0 against the column of x2, plus the bias x3 at j. -/
theorem emb_point (r : Fin 100000) (j : Fin 64) :
    val_main_v3 (F := Ideal) x0 x2 x3 (ix2 r j) = (∑ k : Fin 64, x0 (ix2 r k) * x2 (ix2 k j)) + x3 (ix1 j) := by
  rw [val_main_v3_apply, val_main_v0_apply, val_main_v2_apply, val_main_v1_apply, Ideal.addf_def]
  have el : ∀ k : Fin 64, lidx_main_v0 (ix2 r j) k = ix2 r k := fun k => funext fun a => Fin.ext (by
    match a with
    | ⟨0, _⟩ => rfl
    | ⟨1, _⟩ => rfl)
  have er : ∀ k : Fin 64, ridx_main_v0 (ix2 r j) k = ix2 k j := fun k => funext fun a => Fin.ext (by
    match a with
    | ⟨0, _⟩ => rfl
    | ⟨1, _⟩ => rfl)
  have eb : idx_main_v1 (idx_main_v2 (ix2 r j)) = ix1 j := funext fun a => Fin.ext (by
    match a with
    | ⟨0, _⟩ => rfl)
  simp only [el, er, eb]

/-- The first edge projection A at row r, column j: the embedding's row r against column j of the upper half of x4. -/
theorem a_point (r : Fin 100000) (j : Fin 64) :
    val_main_v9 (F := Ideal) x0 x2 x3 x4 (ix2 r j)
      = ∑ k : Fin 64, ((∑ k' : Fin 64, x0 (ix2 r k') * x2 (ix2 k' k)) + x3 (ix1 k)) * val_main_v8 (F := Ideal) x4 (ix2 k j) := by
  rw [val_main_v9_apply]
  refine Finset.sum_congr rfl fun k _ => ?_
  have el : lidx_main_v9 (ix2 r j) k = ix2 r k := funext fun a => Fin.ext (by
    match a with
    | ⟨0, _⟩ => rfl
    | ⟨1, _⟩ => rfl)
  have er : ridx_main_v9 (ix2 r j) k = ix2 k j := funext fun a => Fin.ext (by
    match a with
    | ⟨0, _⟩ => rfl
    | ⟨1, _⟩ => rfl)
  rw [el, er, emb_point]

/-- The second edge projection B: the same against the lower half of x4. -/
theorem b_point (r : Fin 100000) (j : Fin 64) :
    val_main_v11 (F := Ideal) x0 x2 x3 x4 (ix2 r j)
      = ∑ k : Fin 64, ((∑ k' : Fin 64, x0 (ix2 r k') * x2 (ix2 k' k)) + x3 (ix1 k)) * val_main_v10 (F := Ideal) x4 (ix2 k j) := by
  rw [val_main_v11_apply]
  refine Finset.sum_congr rfl fun k _ => ?_
  have el : lidx_main_v11 (ix2 r j) k = ix2 r k := funext fun a => Fin.ext (by
    match a with
    | ⟨0, _⟩ => rfl
    | ⟨1, _⟩ => rfl)
  have er : ridx_main_v11 (ix2 r j) k = ix2 k j := funext fun a => Fin.ext (by
    match a with
    | ⟨0, _⟩ => rfl
    | ⟨1, _⟩ => rfl)
  rw [el, er, emb_point]

/-- The second bias, reshaped to a scalar and broadcast along the edges, is x7's one entry at every edge. -/
theorem l2b_point (e : Fin 1600000) : val_main_v34 (F := Ideal) x7 (ix1 e) = x7 (ix1 (0 : Fin 1)) := by
  rw [val_main_v34_apply]
  unfold val_main_v33
  exact shapeCast_apply x7 _ _ (ix1 (0 : Fin 1))
    ((Shape.rowMajor_val_one _).trans (Shape.rowMajorPi_zero _ _).symm)

/-- The edge mask at edge e: the logistic, spelt 1 / (1 + exp (-z)), of z = (sum over the 64 lanes of
    relu(Ar + Bc + x5) * x6) + x7, Ar and Bc the gathered projections. -/
theorem mask_point (e : Fin 1600000) :
    val_main_v41 (F := Ideal) x0 x1 x2 x3 x4 x5 x6 x7 (ix1 e)
      = Ideal.logistic ((∑ d : Fin 64, max (val_main_v18 (F := Ideal) x0 x1 x2 x3 x4 (ix2 e d)
            + val_main_v25 (F := Ideal) x0 x1 x2 x3 x4 (ix2 e d) + x5 (ix1 d)) 0 * x6 (ix2 d (0 : Fin 1)))
          + x7 (ix1 (0 : Fin 1))) := by
  rw [val_main_v41_apply, val_main_v40_apply, val_main_cst_3_apply, val_main_v39_apply, val_main_v38_apply, val_main_cst_apply,
    val_main_v37_apply, val_main_v36_apply, val_main_v35_apply, l2b_point, val_main_v32_apply, val_main_v31_apply]
  have e32 : idx_main_v32 (ix1 e) = ix2 e (0 : Fin 1) := funext fun a => Fin.ext (by
    match a with
    | ⟨0, _⟩ => exact Nat.div_one _
    | ⟨1, _⟩ => rfl)
  rw [e32]
  have el : ∀ k : Fin 64, lidx_main_v31 (ix2 e (0 : Fin 1)) k = ix2 e k := fun k => funext fun a => Fin.ext (by
    match a with
    | ⟨0, _⟩ => rfl
    | ⟨1, _⟩ => rfl)
  have er : ∀ k : Fin 64, ridx_main_v31 (ix2 e (0 : Fin 1)) k = ix2 k (0 : Fin 1) := fun k => funext fun a => Fin.ext (by
    match a with
    | ⟨0, _⟩ => rfl
    | ⟨1, _⟩ => rfl)
  have eb : ∀ k : Fin 64, idx_main_v27 (idx_main_v28 (ix2 e k)) = ix1 k := fun k => funext fun a => Fin.ext (by
    match a with
    | ⟨0, _⟩ => rfl)
  simp only [el, er, val_main_v30_apply, val_main_v29_apply, val_main_v26_apply, val_main_v28_apply, val_main_v27_apply, eb,
    val_main_call0_v0_apply, val_main_call0_cst_apply, Ideal.hostDivf_def, Ideal.hostUnary_exp_def, Ideal.hostNegf_def,
    Ideal.negf_def, Ideal.addf_def, Ideal.maximumf_def, Ideal.ofBits_def, ofBits_one_f32, Ideal.ofBits_zero_f32]
  rfl

/-- The record of the reference's [100000,64] x [64,64] product is the plain one: the same lists, and a proof. -/
theorem dot_plain_eq : DotDims.plain 100000 64 64 = dot_S100000x64_S64x64_S100000x64_1_0_0_1_n_n := rfl

/-! ## An array given entry by entry, or as one product, against the reference's stage

The array A stands for a region's output; hval (or hfin) is what the kernel's value lemma says of it over the region's
operand buffers a0, w, b, …; the remaining hypotheses identify those buffers with the reference's arguments or stages. -/

theorem emb_eq_of (A a0 : (⟨S100000x64, .f32⟩ : BufTy).Contents (Elt Ideal)) (w : (⟨S64x64, .f32⟩ : BufTy).Contents (Elt Ideal))
    (b : (⟨⟨2, ![1, 64]⟩, .f32⟩ : BufTy).Contents (Elt Ideal))
    (hval : ∀ (r : Fin 100000) (j : Fin 64), A (ix2 r j) = (∑ k : Fin 64, a0 (ix2 r k) * w (ix2 k j)) + b (ix2 (0 : Fin 1) j))
    (hx : a0 = x0) (hw : w = x2) (hb : ∀ j : Fin 64, b (ix2 (0 : Fin 1) j) = x3 (ix1 j)) :
    A = val_main_v3 (F := Ideal) x0 x2 x3 := by
  subst hx hw
  funext i
  obtain ⟨r, j, rfl⟩ : ∃ (r : Fin 100000) (j : Fin 64), i = ix2 r j := ⟨i 0, i 1, eq_ix2 i⟩
  rw [hval, emb_point, hb]

theorem a_eq_of (A a0 : (⟨S100000x64, .f32⟩ : BufTy).Contents (Elt Ideal)) (w wa : (⟨S64x64, .f32⟩ : BufTy).Contents (Elt Ideal))
    (b : (⟨⟨2, ![1, 64]⟩, .f32⟩ : BufTy).Contents (Elt Ideal))
    (hval : ∀ (r : Fin 100000) (j : Fin 64), A (ix2 r j)
      = ∑ k : Fin 64, ((∑ k' : Fin 64, a0 (ix2 r k') * w (ix2 k' k)) + b (ix2 (0 : Fin 1) k)) * wa (ix2 k j))
    (hx : a0 = x0) (hw : w = x2) (hb : ∀ j : Fin 64, b (ix2 (0 : Fin 1) j) = x3 (ix1 j)) (hwa : wa = val_main_v8 (F := Ideal) x4) :
    A = val_main_v9 (F := Ideal) x0 x2 x3 x4 := by
  subst hx hw hwa
  funext i
  obtain ⟨r, j, rfl⟩ : ∃ (r : Fin 100000) (j : Fin 64), i = ix2 r j := ⟨i 0, i 1, eq_ix2 i⟩
  rw [hval, a_point]
  exact Finset.sum_congr rfl fun k _ => by rw [hb]

theorem b_eq_of (A a0 : (⟨S100000x64, .f32⟩ : BufTy).Contents (Elt Ideal)) (w wb : (⟨S64x64, .f32⟩ : BufTy).Contents (Elt Ideal))
    (b : (⟨⟨2, ![1, 64]⟩, .f32⟩ : BufTy).Contents (Elt Ideal))
    (hval : ∀ (r : Fin 100000) (j : Fin 64), A (ix2 r j)
      = ∑ k : Fin 64, ((∑ k' : Fin 64, a0 (ix2 r k') * w (ix2 k' k)) + b (ix2 (0 : Fin 1) k)) * wb (ix2 k j))
    (hx : a0 = x0) (hw : w = x2) (hb : ∀ j : Fin 64, b (ix2 (0 : Fin 1) j) = x3 (ix1 j)) (hwb : wb = val_main_v10 (F := Ideal) x4) :
    A = val_main_v11 (F := Ideal) x0 x2 x3 x4 := by
  subst hx hw hwb
  funext i
  obtain ⟨r, j, rfl⟩ : ∃ (r : Fin 100000) (j : Fin 64), i = ix2 r j := ⟨i 0, i 1, eq_ix2 i⟩
  rw [hval, b_point]
  exact Finset.sum_congr rfl fun k _ => by rw [hb]

/-- A layer's product h W, given as the plain product of two buffers that hold the reference's stages y0 and y1, is the
    reference's product of those stages. -/
theorem hw_eq_of (A h y0 : (⟨S100000x64, .f32⟩ : BufTy).Contents (Elt Ideal)) (W y1 : (⟨S64x64, .f32⟩ : BufTy).Contents (Elt Ideal))
    (hfin : A = Host.dotGeneral (F := Ideal) (φ₁ := .f32) (φ₂ := .f32) (DotDims.plain 100000 64 64) none h W) (hh : h = y0) (hW : W = y1) :
    A = Host.dotGeneral (F := Ideal) (φ₁ := .f32) (φ₂ := .f32) dot_S100000x64_S64x64_S100000x64_1_0_0_1_n_n none y0 y1 := by
  subst hh hW hfin
  exact congrArg (fun d => Host.dotGeneral (F := Ideal) (φ₁ := .f32) (φ₂ := .f32) d none h W) dot_plain_eq

theorem mask_eq_of (M : (⟨S1600000x1, .f32⟩ : BufTy).Contents (Elt Ideal)) (ar bc : (⟨S1600000x64, .f32⟩ : BufTy).Contents (Elt Ideal))
    (l1b l2w : (⟨⟨2, ![1, 64]⟩, .f32⟩ : BufTy).Contents (Elt Ideal)) (l2b : (⟨⟨2, ![1, 1]⟩, .f32⟩ : BufTy).Contents (Elt Ideal))
    (hval : ∀ (e : Fin 1600000) (u : Fin 1), M (ix2 e u)
      = Ideal.logistic ((∑ d : Fin 64, max (ar (ix2 e d) + bc (ix2 e d) + l1b (ix2 (0 : Fin 1) d)) 0 * l2w (ix2 (0 : Fin 1) d))
          + l2b (ix2 (0 : Fin 1) (0 : Fin 1))))
    (hAr : ar = val_main_v18 (F := Ideal) x0 x1 x2 x3 x4) (hBc : bc = val_main_v25 (F := Ideal) x0 x1 x2 x3 x4)
    (hl1b : ∀ d : Fin 64, l1b (ix2 (0 : Fin 1) d) = x5 (ix1 d)) (hl2w : ∀ d : Fin 64, l2w (ix2 (0 : Fin 1) d) = x6 (ix2 d (0 : Fin 1)))
    (hl2b : l2b (ix2 (0 : Fin 1) (0 : Fin 1)) = x7 (ix1 (0 : Fin 1))) (e : Fin 1600000) :
    M (ix2 e (0 : Fin 1)) = val_main_v41 (F := Ideal) x0 x1 x2 x3 x4 x5 x6 x7 (ix1 e) := by
  subst hAr hBc
  rw [hval, mask_point, hl2b]
  simp only [hl1b, hl2w]

end Core

section Regions
open Cert.KernelIdeal Cert.KernelIdeal.Gen Cert.KernelIdeal.Hand Cert.KernelIdeal.Val
open Cert.ReferenceIdeal.Read
open Idealize.ShloMosaic.TcCoe

/-! ## The regions' arrays: Vin is what the region finds in core c's buffers on entry -/

variable (Vin : (c : Dev nD) → (b : Ref sig .tc) → Buf (Elt Ideal) ((c : Thread nD τ).loc b)) (c : Dev nD)
variable (x0 : (⟨Cert.ReferenceIdeal.S100000x64, .f32⟩ : BufTy).Contents (Elt Ideal)) (x1 : (⟨Cert.ReferenceIdeal.S2x1600000, .i32⟩ : BufTy).Contents (Elt Ideal))
  (x2 : (⟨Cert.ReferenceIdeal.S64x64, .f32⟩ : BufTy).Contents (Elt Ideal)) (x3 : (⟨Cert.ReferenceIdeal.S64, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))
  (x6 : (⟨Cert.ReferenceIdeal.S64x1, .f32⟩ : BufTy).Contents (Elt Ideal)) (x7 : (⟨Cert.ReferenceIdeal.S1, .f32⟩ : BufTy).Contents (Elt Ideal))
  (x8 : (⟨Cert.ReferenceIdeal.S3x64x64, .f32⟩ : BufTy).Contents (Elt Ideal)) (x9 : (⟨Cert.ReferenceIdeal.S3x64, .f32⟩ : BufTy).Contents (Elt Ideal))

/-- Region 0's first output is the embedding x0 x2 + x3. -/
theorem emb_eq (hx : (Vin c main_arg0 : Vec Ideal S100000x64 .f32) = x0) (hw : (Vin c main_arg2 : Vec Ideal S64x64 .f32) = x2)
    (hb : ∀ j : Fin 64, (Vin c main_v6 : Vec Ideal S1x64 .f32) (ix2 (0 : Fin 1) j) = x3 (ix1 j)) :
    ((dat0 (F := Ideal) Vin c).arrAt 5 cfg0.N : Vec Ideal S100000x64 .f32) = val_main_v3 (F := Ideal) x0 x2 x3 :=
  emb_eq_of x0 x2 x3 _ _ _ _ (emb_apply Vin c) hx hw hb

/-- Region 0's second output is the first edge projection, the embedding times the upper half of x4. -/
theorem a_eq (hx : (Vin c main_arg0 : Vec Ideal S100000x64 .f32) = x0) (hw : (Vin c main_arg2 : Vec Ideal S64x64 .f32) = x2)
    (hb : ∀ j : Fin 64, (Vin c main_v6 : Vec Ideal S1x64 .f32) (ix2 (0 : Fin 1) j) = x3 (ix1 j))
    (hwa : (Vin c main_v4 : Vec Ideal S64x64 .f32) = val_main_v8 (F := Ideal) x4) :
    ((dat0 (F := Ideal) Vin c).arrAt 6 cfg0.N : Vec Ideal S100000x64 .f32) = val_main_v9 (F := Ideal) x0 x2 x3 x4 :=
  a_eq_of x0 x2 x3 x4 _ _ _ _ _ (a_apply Vin c) hx hw hb hwa

/-- Region 0's third output is the second edge projection, the embedding times the lower half of x4. -/
theorem b_eq (hx : (Vin c main_arg0 : Vec Ideal S100000x64 .f32) = x0) (hw : (Vin c main_arg2 : Vec Ideal S64x64 .f32) = x2)
    (hb : ∀ j : Fin 64, (Vin c main_v6 : Vec Ideal S1x64 .f32) (ix2 (0 : Fin 1) j) = x3 (ix1 j))
    (hwb : (Vin c main_v5 : Vec Ideal S64x64 .f32) = val_main_v10 (F := Ideal) x4) :
    ((dat0 (F := Ideal) Vin c).arrAt 7 cfg0.N : Vec Ideal S100000x64 .f32) = val_main_v11 (F := Ideal) x0 x2 x3 x4 :=
  b_eq_of x0 x2 x3 x4 _ _ _ _ _ (b_apply Vin c) hx hw hb hwb

/-- Region 2's output is the first layer's product: the embedding times the first slice of x8. -/
theorem hw0_eq (hh : (Vin c main_v7_0 : Vec Ideal S100000x64 .f32) = val_main_v3 (F := Ideal) x0 x2 x3)
    (hW : (Vin c main_v17 : Vec Ideal S64x64 .f32) = val_main_v43 (F := Ideal) x8) :
    ((dat2 (F := Ideal) Vin c).arrAt 2 cfg2.N : Vec Ideal S100000x64 .f32) = val_main_v44 (F := Ideal) x0 x2 x3 x8 :=
  hw_eq_of _ _ (val_main_v3 (F := Ideal) x0 x2 x3) _ (val_main_v43 (F := Ideal) x8) (final2 Vin c) hh hW

/-- Region 3's output is the second layer's product: the first layer's activation times the second slice of x8. -/
theorem hw1_eq (hh : (Vin c main_v31 : Vec Ideal S100000x64 .f32) = val_main_v63 (F := Ideal) x0 x1 x2 x3 x4 x5 x6 x7 x8 x9)
    (hW : (Vin c main_v33 : Vec Ideal S64x64 .f32) = val_main_v65 (F := Ideal) x8) :
    ((dat3 (F := Ideal) Vin c).arrAt 2 cfg3.N : Vec Ideal S100000x64 .f32) = val_main_v66 (F := Ideal) x0 x1 x2 x3 x4 x5 x6 x7 x8 x9 :=
  hw_eq_of _ _ (val_main_v63 (F := Ideal) x0 x1 x2 x3 x4 x5 x6 x7 x8 x9) _ (val_main_v65 (F := Ideal) x8) (final3 Vin c) hh hW

/-- Region 4's output is the third layer's product: the second layer's activation times the third slice of x8. -/
theorem hw2_eq (hh : (Vin c main_v47 : Vec Ideal S100000x64 .f32) = val_main_v85 (F := Ideal) x0 x1 x2 x3 x4 x5 x6 x7 x8 x9)
    (hW : (Vin c main_v49 : Vec Ideal S64x64 .f32) = val_main_v87 (F := Ideal) x8) :
    ((dat4 (F := Ideal) Vin c).arrAt 2 cfg4.N : Vec Ideal S100000x64 .f32) = val_main_v88 (F := Ideal) x0 x1 x2 x3 x4 x5 x6 x7 x8 x9 :=
  hw_eq_of _ _ (val_main_v85 (F := Ideal) x0 x1 x2 x3 x4 x5 x6 x7 x8 x9) _ (val_main_v87 (F := Ideal) x8) (final4 Vin c) hh hW

/-- Region 1's output at edge e is the reference's edge mask there. The five operand arrays are named by variables
    of their vector types, each equal to the buffer the region reads. -/
theorem mask_eq_vars (A B : Vec Ideal S1600000x64 .f32) (l1b l2w : Vec Ideal S1x64 .f32) (l2b : Vec Ideal S1x1 .f32)
    (hA : A = Vin c main_v8) (hB : B = Vin c main_v9) (h1 : l1b = Vin c main_v13) (h2 : l2w = Vin c main_v11) (h3 : l2b = Vin c main_v12)
    (hAr : A = val_main_v18 (F := Ideal) x0 x1 x2 x3 x4) (hBc : B = val_main_v25 (F := Ideal) x0 x1 x2 x3 x4)
    (hl1b : ∀ d : Fin 64, l1b (ix2 (0 : Fin 1) d) = x5 (ix1 d)) (hl2w : ∀ d : Fin 64, l2w (ix2 (0 : Fin 1) d) = x6 (ix2 d (0 : Fin 1)))
    (hl2b : l2b (ix2 (0 : Fin 1) (0 : Fin 1)) = x7 (ix1 (0 : Fin 1))) (e : Fin 1600000) :
    ((dat1 (F := Ideal) Vin c).arrAt 5 cfg1.N : Vec Ideal S1600000x1 .f32) (ix2 e (0 : Fin 1))
      = val_main_v41 (F := Ideal) x0 x1 x2 x3 x4 x5 x6 x7 (ix1 e) :=
  mask_eq_of x0 x1 x2 x3 x4 x5 x6 x7 ((dat1 (F := Ideal) Vin c).arrAt 5 cfg1.N) A B l1b l2w l2b
    (fun e u => final1_apply Vin c A B l1b l2w l2b hA hB h1 h2 h3 e u) hAr hBc hl1b hl2w hl2b e

/-- The same with the buffers named directly. -/
theorem mask_eq (hAr : (Vin c main_v8 : Vec Ideal S1600000x64 .f32) = val_main_v18 (F := Ideal) x0 x1 x2 x3 x4)
    (hBc : (Vin c main_v9 : Vec Ideal S1600000x64 .f32) = val_main_v25 (F := Ideal) x0 x1 x2 x3 x4)
    (hl1b : ∀ d : Fin 64, (Vin c main_v13 : Vec Ideal S1x64 .f32) (ix2 (0 : Fin 1) d) = x5 (ix1 d))
    (hl2w : ∀ d : Fin 64, (Vin c main_v11 : Vec Ideal S1x64 .f32) (ix2 (0 : Fin 1) d) = x6 (ix2 d (0 : Fin 1)))
    (hl2b : (Vin c main_v12 : Vec Ideal S1x1 .f32) (ix2 (0 : Fin 1) (0 : Fin 1)) = x7 (ix1 (0 : Fin 1))) (e : Fin 1600000) :
    ((dat1 (F := Ideal) Vin c).arrAt 5 cfg1.N : Vec Ideal S1600000x1 .f32) (ix2 e (0 : Fin 1))
      = val_main_v41 (F := Ideal) x0 x1 x2 x3 x4 x5 x6 x7 (ix1 e) :=
  mask_eq_vars Vin c x0 x1 x2 x3 x4 x5 x6 x7 (Vin c main_v8) (Vin c main_v9) (Vin c main_v13) (Vin c main_v11) (Vin c main_v12)
    rfl rfl rfl rfl rfl hAr hBc hl1b hl2w hl2b e

end Regions

end Cert.Bridge
-- ==== Proof.BridgeIdx.lean ====
/-
  The range of the two index vectors.

  The source and destination vectors of the edges are rows 0 and 1 of the edge-index table, each cut out as a [1, E] slice
  and flattened to [E]: an entry of either vector is an entry of the table. So a bound on every entry of the table, read as
  a natural number, bounds every entry of both vectors.
-/
import proofs.«401021_j84602265796764_3_alg».proof.Proof.Gen.ReferenceIdeal.Read
import Idealize.ShloMosaic.Lib.ValueIdx

noncomputable section

namespace Cert.Bridge

open Idealize.ShloMosaic Idealize.ShloMosaic.ValueIdx
open Cert.ReferenceIdeal

/-- Every entry of row 0 of the table, the edges' first index vector, is below 100000 when every entry of the table is. -/
theorem row_lt (x1 : (⟨Cert.ReferenceIdeal.S2x1600000, .i32⟩ : BufTy).Contents (Elt Ideal))
    (h : ∀ i : Cert.ReferenceIdeal.S2x1600000.Idx, (x1 i).toNat < 100000) :
    ∀ e : Fin 1600000, ((Read.val_main_v5 (F := Ideal) x1) (ix1 e)).toNat < 100000 := by
  intro e
  rw [Read.val_main_v5_apply, Read.val_main_v4_apply]
  exact h _

/-- Every entry of row 1 of the table, the edges' second index vector, is below 100000 when every entry of the table is. -/
theorem col_lt (x1 : (⟨Cert.ReferenceIdeal.S2x1600000, .i32⟩ : BufTy).Contents (Elt Ideal))
    (h : ∀ i : Cert.ReferenceIdeal.S2x1600000.Idx, (x1 i).toNat < 100000) :
    ∀ e : Fin 1600000, ((Read.val_main_v7 (F := Ideal) x1) (ix1 e)).toNat < 100000 := by
  intro e
  rw [Read.val_main_v7_apply, Read.val_main_v6_apply]
  exact h _

end Cert.Bridge

end
-- ==== Proof.BridgeAll.lean ====
/-
  The kernel program's result buffer, at the end of its chain of segments, holds the reference's last stage.

  Stage by stage along the program: the three projected arrays after the first region are the reference's embedding and its two
  products; the rows gathered at the edges' ends are the reference's gathers (every index being a node number); the mask after
  the second region is the reference's logistic; each layer's dense product after its region is the reference's product of the
  previous stage; each message-passing stretch is the reference's, its leaves being equal; and the final mean joins the four.
  Each step cites the lemma for its segment and walks the buffers it reads back to the segment that wrote them.
-/
import proofs.«401021_j84602265796764_3_alg».proof.Proof.KIRun
import proofs.«401021_j84602265796764_3_alg».proof.Proof.BridgeSmall
import proofs.«401021_j84602265796764_3_alg».proof.Proof.BridgeTake
import proofs.«401021_j84602265796764_3_alg».proof.Proof.BridgeLayer
import proofs.«401021_j84602265796764_3_alg».proof.Proof.BridgeRegion
import proofs.«401021_j84602265796764_3_alg».proof.Proof.BridgeIdx

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.Read (val_main_v3 val_main_v5 val_main_v7 val_main_v8 val_main_v9 val_main_v10 val_main_v11 val_main_v18
  val_main_v25 val_main_v41 val_main_v43 val_main_v44 val_main_v51 val_main_v63 val_main_v65 val_main_v66 val_main_v73 val_main_v85
  val_main_v87 val_main_v88 val_main_v95 val_main_v106 val_main_v114)

variable (m : (ℓ : Loc nD τ sig) → Buf (Elt Ideal) ℓ) (c : Dev nD)

set_option maxHeartbeats 2000000 in
/-- With every entry of the edge index array a node number, the last value of the kernel program's result buffer is the
    reference's last stage of the same arguments. -/
theorem value_eq (hidx : ∀ i : Cert.ReferenceIdeal.S2x1600000.Idx, (((m ((c : Thread nD τ).loc main_arg1)) : IVec Cert.ReferenceIdeal.S2x1600000 32) i).toNat < 100000) :
    V20 m (outs m) c main_v70 = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hrow := row_lt (m ((c : Thread nD τ).loc main_arg1)) hidx
  have hcol := col_lt (m ((c : Thread nD τ).loc main_arg1)) hidx
  -- region 0: the embedding and its two products
  have hx0 : U1 m c main_arg0 = (m ((c : Thread nD τ).loc main_arg0)) := V1_of m c main_arg0 (by decide)
  have hx2 : U1 m c main_arg2 = (m ((c : Thread nD τ).loc main_arg2)) := V1_of m c main_arg2 (by decide)
  have e_emb : V2 m (outs m) c main_v7_0 = val_main_v3 (F := Ideal) (m ((c : Thread nD τ).loc main_arg0)) (m ((c : Thread nD τ).loc main_arg2)) (m ((c : Thread nD τ).loc main_arg3)) :=
    (V2_main_v7_0 m c).trans ((X2_arr m c 5).trans (emb_eq (U1 m) c (m ((c : Thread nD τ).loc main_arg0)) (m ((c : Thread nD τ).loc main_arg2)) (m ((c : Thread nD τ).loc main_arg3)) hx0 hx2 (fun j => bin_apply m c j)))
  have e_A : V2 m (outs m) c main_v7_1 = val_main_v9 (F := Ideal) (m ((c : Thread nD τ).loc main_arg0)) (m ((c : Thread nD τ).loc main_arg2)) (m ((c : Thread nD τ).loc main_arg3)) (m ((c : Thread nD τ).loc main_arg4)) :=
    (V2_main_v7_1 m c).trans ((X2_arr m c 6).trans (a_eq (U1 m) c (m ((c : Thread nD τ).loc main_arg0)) (m ((c : Thread nD τ).loc main_arg2)) (m ((c : Thread nD τ).loc main_arg3)) (m ((c : Thread nD τ).loc main_arg4)) hx0 hx2 (fun j => bin_apply m c j) (wa_eq m c)))
  have e_B : V2 m (outs m) c main_v7_2 = val_main_v11 (F := Ideal) (m ((c : Thread nD τ).loc main_arg0)) (m ((c : Thread nD τ).loc main_arg2)) (m ((c : Thread nD τ).loc main_arg3)) (m ((c : Thread nD τ).loc main_arg4)) :=
    (V2_main_v7_2 m c).trans ((X2_arr m c 7).trans (b_eq (U1 m) c (m ((c : Thread nD τ).loc main_arg0)) (m ((c : Thread nD τ).loc main_arg2)) (m ((c : Thread nD τ).loc main_arg3)) (m ((c : Thread nD τ).loc main_arg4)) hx0 hx2 (fun j => bin_apply m c j) (wb_eq m c)))
  -- the rows of A and B at the edges' two ends
  have e_Ar : V3 m (outs m) c main_v8 = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    ar_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) hrow ((walk_main_v1_2 m (outs m) c).trans (row_eq m c)) e_A
  have e_Bc : V4 m (outs m) c main_v9 = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    bc_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) hcol ((walk_main_v3_3 m (outs m) c).trans (col_eq m c))
      ((V3_of m (outs m) c main_v7_2 (by decide)).trans e_B)
  -- region 1: the mask, entry by entry, then flattened
  have hAr5 : U5 m c main_v8 = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (congrFun (V5_outs m c) main_v8).symm.trans (((V5_of m (outs m) c main_v8 (by decide)).trans (V4_of m (outs m) c main_v8 (by decide))).trans e_Ar)
  have hBc5 : U5 m c main_v9 = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (congrFun (V5_outs m c) main_v9).symm.trans ((V5_of m (outs m) c main_v9 (by decide)).trans e_Bc)
  have e_mask : V7 m (outs m) c main_v15 = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    funext i
    obtain ⟨e, rfl⟩ : ∃ e : Fin 1600000, i = ix1 e := ⟨i 0, eq_ix1 i⟩
    refine (mask_flat_apply m (outs m) c e).trans ?_
    refine (congrFun ((V6_main_v14 m c).trans (X6_arr m c 5)) (ix2 e (0 : Fin 1))).trans ?_
    exact mask_eq (U5 m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hAr5 hBc5
      (fun d => (congrFun (congrFun (V5_outs m c) main_v13).symm _).trans (l1b_apply m (outs m) c d))
      (fun d => (congrFun (congrFun (V5_outs m c) main_v11).symm _).trans (l2w_apply m (outs m) c d))
      ((congrFun (congrFun (V5_outs m c) main_v12).symm _).trans (l2b_apply m (outs m) c)) e
  -- layer 0
  have e_hw0 : V8 m (outs m) c main_v18 = val_main_v44 (F := Ideal) (m ((c : Thread nD τ).loc main_arg0)) (m ((c : Thread nD τ).loc main_arg2)) (m ((c : Thread nD τ).loc main_arg3)) (m ((c : Thread nD τ).loc main_arg8)) :=
    (V8_main_v18 m c).trans ((X8_arr m c 2).trans (hw0_eq (U7 m) c (m ((c : Thread nD τ).loc main_arg0)) (m ((c : Thread nD τ).loc main_arg2)) (m ((c : Thread nD τ).loc main_arg3)) (m ((c : Thread nD τ).loc main_arg8))
      ((congrFun (V7_outs m c) main_v7_0).symm.trans ((walk_main_v7_0_7 m (outs m) c).trans e_emb))
      ((congrFun (V7_outs m c) main_v17).symm.trans (w0_eq m (outs m) c))))
  have e_rows0 : V9 m (outs m) c main_v19 = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg8)) :=
    rows0_eq m (outs m) c (m ((c : Thread nD τ).loc main_arg0)) (m ((c : Thread nD τ).loc main_arg1)) (m ((c : Thread nD τ).loc main_arg2)) (m ((c : Thread nD τ).loc main_arg3)) (m ((c : Thread nD τ).loc main_arg8)) hrow ((walk_main_v1_8 m (outs m) c).trans (row_eq m c)) e_hw0
  have e_h1 : V11 m (outs m) c main_v31 = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    layer0_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e_rows0 ((walk_main_v15_9 m (outs m) c).trans e_mask)
      ((walk_main_v3_9 m (outs m) c).trans (col_eq m c)) (walk_main_arg9_9 m (outs m) c)
  -- layer 1
  have e_hw1 : V13 m (outs m) c main_v34 = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    (V13_main_v34 m c).trans ((X13_arr m c 2).trans (hw1_eq (U12 m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ((congrFun (V12_outs m c) main_v31).symm.trans ((walk_main_v31_12 m (outs m) c).trans e_h1))
      ((congrFun (V12_outs m c) main_v33).symm.trans (w1_eq m (outs m) c))))
  have e_rows1 : V14 m (outs m) c main_v35 = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    rows1_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) hrow ((walk_main_v1_13 m (outs m) c).trans (row_eq m c)) e_hw1
  have e_h2 : V16 m (outs m) c main_v47 = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    layer1_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e_rows1 ((walk_main_v15_14 m (outs m) c).trans e_mask)
      ((walk_main_v3_14 m (outs m) c).trans (col_eq m c)) (walk_main_arg9_14 m (outs m) c)
  -- layer 2
  have e_hw2 : V18 m (outs m) c main_v50 = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    (V18_main_v50 m c).trans ((X18_arr m c 2).trans (hw2_eq (U17 m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ((congrFun (V17_outs m c) main_v47).symm.trans ((walk_main_v47_17 m (outs m) c).trans e_h2))
      ((congrFun (V17_outs m c) main_v49).symm.trans (w2_eq m (outs m) c))))
  have e_rows2 : V19 m (outs m) c main_v51 = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    rows2_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) hrow ((walk_main_v1_18 m (outs m) c).trans (row_eq m c)) e_hw2
  have e_h3 : V20 m (outs m) c main_v62 = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    layer2_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e_rows2 ((walk_main_v15_19 m (outs m) c).trans e_mask)
      ((walk_main_v3_19 m (outs m) c).trans (col_eq m c)) (walk_main_arg9_19 m (outs m) c)
  -- the mean of the four node arrays
  exact mean_eq m (outs m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ((walk_main_v7_0_19 m (outs m) c).trans e_emb)
    ((walk_main_v31_19 m (outs m) c).trans e_h1) ((walk_main_v47_19 m (outs m) c).trans e_h2) e_h3

end Cert.Bridge

end
-- ==== Proof.Algebraic.lean ====
/-
  The two idealized programs, run from memories that agree on the ten arguments, end with equal results.

  The kernel's program ends with every unscoped buffer at the last contents of its chain of segments, in particular its result
  buffer and its arguments; the reference's run ends with its result at the composed term of its operations. The precondition
  gives that every entry of the edge index array is a node number, under which the chain's last value of the result buffer is
  the reference's last stage, stage by stage.
-/
import proofs.«401021_j84602265796764_3_alg».proof.Defs
import proofs.«401021_j84602265796764_3_alg».proof.Proof.Gen.Pre_finite_inputs
import proofs.«401021_j84602265796764_3_alg».proof.Proof.Gen.ReferenceIdeal.Run
import proofs.«401021_j84602265796764_3_alg».proof.Proof.Gen.ReferenceIdeal.Read
import proofs.«401021_j84602265796764_3_alg».proof.Proof.KIRun
import proofs.«401021_j84602265796764_3_alg».proof.Proof.PreFacts
import proofs.«401021_j84602265796764_3_alg».proof.Proof.BridgeAll

noncomputable section

namespace Cert.Algebraic

open Idealize.ShloMosaic Idealize.ShloMosaic.TcCoe Idealize.SL.Sem
open Cert.KernelIdeal Cert.KernelIdeal.Gen Cert.KernelIdeal.Hand

/-- The kernel's program ends with its result buffer at the chain's last value and its arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = V20 m (outs m) c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    h c _ (mem_uc main_v70 (by decide)),
    (h c _ (mem_uc main_arg0 (by decide))).trans (V20_main_arg0 m (outs m) c),
    (h c _ (mem_uc main_arg1 (by decide))).trans (V20_main_arg1 m (outs m) c),
    (h c _ (mem_uc main_arg2 (by decide))).trans (V20_main_arg2 m (outs m) c),
    (h c _ (mem_uc main_arg3 (by decide))).trans (V20_main_arg3 m (outs m) c),
    (h c _ (mem_uc main_arg4 (by decide))).trans (V20_main_arg4 m (outs m) c),
    (h c _ (mem_uc main_arg5 (by decide))).trans (V20_main_arg5 m (outs m) c),
    (h c _ (mem_uc main_arg6 (by decide))).trans (V20_main_arg6 m (outs m) c),
    (h c _ (mem_uc main_arg7 (by decide))).trans (V20_main_arg7 m (outs m) c),
    (h c _ (mem_uc main_arg8 (by decide))).trans (V20_main_arg8 m (outs m) c),
    (h c _ (mem_uc main_arg9 (by decide))).trans (V20_main_arg9 m (outs m) c)⟩) (run_all m ρ)

theorem algebraic : Cert.algebraic_KernelIdeal_ReferenceIdeal := by
  intro m ρ m' ρ' hpre hagree
  refine ⟨fun c => V20 m (outs m) c main_v70, run_value m ρ, ?_⟩
  refine (θ_run Cert.ReferenceIdeal.defs _ _).mono (fun _ h c => ⟨(h c).1.trans ?_, (h c).2⟩)
    (Cert.ReferenceIdeal.Value.run (F := Ideal) m' ρ')
  have hidx := Cert.PreFacts.edge_index_lt _ _ _ _ _ _ _ _ _ _ (hpre c)
  rw [Cert.ReferenceIdeal.Read.val_main_v114_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.Bridge.value_eq m c hidx).symm

end Cert.Algebraic

end
-- ==== Proof.lean ====
/-
  The certificate of a three-layer graph convolution with a learned edge mask: node projection emb0 = x·W_in + b and its two
  halves A = emb0·Wa, B = emb0·Wb; per edge a mask = logistic(relu(A[row] + B[col] + l1_b)·l2_W + l2_b); three rounds of
  h ← scatter-add over the edges' targets of (h·W_l)[row] · mask, plus bias_l (relu after the first two); the mean of the four
  node arrays.

  The kernel computes the dense products and the mask in five pipelined kernel regions and leaves the row gathers and the
  scatter-adds to the host; the reference does everything on the host. Over the extended reals a change of float format is the
  identity, a product accumulated block by block into zero is the host's product, and the kernel's logistic is the host's
  1 / (1 + exp(−z)). The one place the two programs differ is the row gather: the kernel's fills an out-of-range read with a
  not-a-number pattern where the reference's clamps the index; under the precondition that every edge index is a node number
  both read the same rows, and the two results are equal entry by entry.

  The frames: each kernel program runs as a chain of host stretches and kernel regions, every region's pipeline entered from
  known buffer contents and left with its output arrays written; the reference's frame is its run with the result dropped.
-/
import proofs.«401021_j84602265796764_3_alg».proof.Defs
import proofs.«401021_j84602265796764_3_alg».proof.Proof.Gen.Kernel
import proofs.«401021_j84602265796764_3_alg».proof.Proof.Gen.KernelIdeal
import proofs.«401021_j84602265796764_3_alg».proof.Proof.Gen.ReferenceIdeal
import proofs.«401021_j84602265796764_3_alg».proof.Proof.Gen.Pre_finite_inputs
import proofs.«401021_j84602265796764_3_alg».proof.Proof.Gen.ReferenceIdeal.Run
import proofs.«401021_j84602265796764_3_alg».proof.Proof.Gen.ReferenceIdeal.Read
import proofs.«401021_j84602265796764_3_alg».proof.Proof.KRun
import proofs.«401021_j84602265796764_3_alg».proof.Proof.KIRun
import proofs.«401021_j84602265796764_3_alg».proof.Proof.Algebraic
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Algebraic.algebraic⟩

end Cert.Proof

end
